-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S_ : Shape := ⟨0, ![]⟩
abbrev S1x600000 : Shape := ⟨2, ![1, 600000]⟩
abbrev S600000 : Shape := ⟨1, ![600000]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part7 {F : FTy → Type} [FloatOps F] (main_arg3 : IVec S2x600000 32) (main_v114 : IVec S_ 1) (main_v119 : IVec S_ 1) : IVec S_ 1 :=
  let main_v120 : IVec S_ 1 := andi main_v114 main_v119
  let main_v121 : IVec S1x600000 32 := (extractStridedSlice S1x600000 ![0, 0] · slices_S2x600000_S1x600000_0_0) main_arg3
  let main_v122 : IVec S600000 32 := shapeCast S600000 main_v121 shapeCasts_S1x600000_S600000
  let main_c_46 : IVec S_ 32 := constantI S_ 32 0#32
  let main_v123 : IVec S600000 32 := broadcastInDim S600000 ![] bcast_S_S600000 main_c_46
  let main_v124 : IVec S600000 1 := cmpi .sge main_v122 main_v123
  let main_c_47 : IVec S_ 1 := constantI S_ 1 1#1
  let main_v125 : IVec S_ 1 := (fun x v => Host.reduce IntOp.andi x v reducesTo_S600000_S_d0 h_S_) main_v124 main_c_47
  let main_v126 : IVec S_ 1 := andi main_v120 main_v125
  let main_v127 : IVec S1x600000 32 := (extractStridedSlice S1x600000 ![0, 0] · slices_S2x600000_S1x600000_0_0) main_arg3
  let main_v128 : IVec S600000 32 := shapeCast S600000 main_v127 shapeCasts_S1x600000_S600000
  let main_c_48 : IVec S_ 32 := constantI S_ 32 50000#32
  let main_v129 : IVec S600000 32 := broadcastInDim S600000 ![] bcast_S_S600000 main_c_48
  let main_v130 : IVec S600000 1 := cmpi .slt main_v128 main_v129
  let main_c_49 : IVec S_ 1 := constantI S_ 1 1#1
  let main_v131 : IVec S_ 1 := (fun x v => Host.reduce IntOp.andi x v reducesTo_S600000_S_d0 h_S_) main_v130 main_c_49
  let main_v132 : IVec S_ 1 := andi main_v126 main_v131
  main_v132

def fn_part6 {F : FTy → Type} [FloatOps F] (main_arg2 : IVec S2x600000 32) (main_arg3 : IVec S2x600000 32) (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : IVec S1x600000 32 := (extractStridedSlice S1x600000 ![0, 0] · slices_S2x600000_S1x600000_0_0) main_arg2
  let main_v110 : IVec S600000 32 := shapeCast S600000 main_v109 shapeCasts_S1x600000_S600000
  let main_c_42 : IVec S_ 32 := constantI S_ 32 0#32
  let main_v111 : IVec S600000 32 := broadcastInDim S600000 ![] bcast_S_S600000 main_c_42
  let main_v112 : IVec S600000 1 := cmpi .sge main_v110 main_v111
  let main_c_43 : IVec S_ 1 := constantI S_ 1 1#1
  let main_v113 : IVec S_ 1 := (fun x v => Host.reduce IntOp.andi x v reducesTo_S600000_S_d0 h_S_) main_v112 main_c_43
  let main_v114 : IVec S_ 1 := andi main_v108 main_v113
  let main_v115 : IVec S1x600000 32 := (extractStridedSlice S1x600000 ![0, 0] · slices_S2x600000_S1x600000_0_0) main_arg2
  let main_v116 : IVec S600000 32 := shapeCast S600000 main_v115 shapeCasts_S1x600000_S600000
  let main_c_44 : IVec S_ 32 := constantI S_ 32 200000#32
  let main_v117 : IVec S600000 32 := broadcastInDim S600000 ![] bcast_S_S600000 main_c_44
  let main_v118 : IVec S600000 1 := cmpi .slt main_v116 main_v117
  let main_c_45 : IVec S_ 1 := constantI S_ 1 1#1
  let main_v119 : IVec S_ 1 := (fun x v => Host.reduce IntOp.andi x v reducesTo_S600000_S_d0 h_S_) main_v118 main_c_45
  fn_part7 (F := F) main_arg3 main_v114 main_v119

def fn_part5 {F : FTy → Type} [FloatOps F] (main_arg2 : IVec S2x600000 32) (main_arg3 : IVec S2x600000 32) (main_arg20 : FVec F S128x128 .f32) (main_arg21 : FVec F S128 .f32) (main_arg22 : FVec F S128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg2 main_arg3 main_arg23 main_v98 main_v101 main_c_39

def fn_part4 {F : FTy → Type} [FloatOps F] (main_arg2 : IVec S2x600000 32) (main_arg3 : IVec S2x600000 32) (main_arg16 : FVec F S256x128 .f32) (main_arg17 : FVec F S128 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x128 .f32 := Host.absf main_arg18
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg3 main_arg20 main_arg21 main_arg22 main_arg23 main_v83 main_v84 main_cst_32

def fn_part3 {F : FTy → Type} [FloatOps F] (main_arg2 : IVec S2x600000 32) (main_arg3 : IVec S2x600000 32) (main_arg13 : FVec F S128 .f32) (main_arg14 : FVec F S128x128 .f32) (main_arg15 : FVec F S128 .f32) (main_arg16 : FVec F S256x128 .f32) (main_arg17 : FVec F S128 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_arg18 main_arg19 main_arg20 main_arg21 main_arg22 main_arg23 main_v63 main_v67

def fn_part2 {F : FTy → Type} [FloatOps F] (main_arg2 : IVec S2x600000 32) (main_arg3 : IVec S2x600000 32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S256x128 .f32) (main_arg17 : FVec F S128 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg3 main_arg13 main_arg14 main_arg15 main_arg16 main_arg17 main_arg18 main_arg19 main_arg20 main_arg21 main_arg22 main_arg23 main_v48 main_v49 main_v50

def fn_part1 {F : FTy → Type} [FloatOps F] (main_arg2 : IVec S2x600000 32) (main_arg3 : IVec S2x600000 32) (main_arg6 : FVec F S256x128 .f32) (main_arg7 : FVec F S128 .f32) (main_arg8 : FVec F S256x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S256x128 .f32) (main_arg17 : FVec F S128 .f32) (main_arg18 : FVec F S256x128 .f32) (main_arg19 : FVec F S128 .f32) (main_arg20 : FVec F S128x128 .f32) (main_arg21 : FVec F S128 .f32) (main_arg22 : FVec F S128 .f32) (main_arg23 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S200000x128 .f32) (main_arg1 : FVec F S50000x128 .f32) (main_arg2 : IVec S2x600000 32) (main_arg3 : IVec S2x600000 32) (main_arg4 : FVec F S128x128 .f32) (main_arg5 : FVec F S128 .f32) (main_arg6 : FVec F S256x128 .f32) (main_arg7 : FVec F S128 .f32) (main_arg8 : FVec F S256x128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S256x128 .f32) (main_arg17 : FVec F S128 .f32) (main_arg18 : FVec F S256x128 .f32) (main_arg19 : FVec F S128 .f32) (main_arg20 : FVec F S128x128 .f32) (main_arg21 : FVec F S128 .f32) (main_arg22 : FVec F S128 .f32) (main_arg23 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S200000x128 : Shape := ⟨2, ![200000, 128]⟩
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S1x128 : Shape := ⟨2, ![1, 128]⟩
abbrev S10000x128 : Shape := ⟨2, ![10000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩
abbrev S2000 : Shape := ⟨1, ![2000]⟩
abbrev S200000 : Shape := ⟨1, ![200000]⟩
abbrev S200000x1 : Shape := ⟨2, ![200000, 1]⟩

abbrev nBuf : Space → Nat
  | .hbm => 128
  | .vmem => 44
  | .smem => 0
  | _ => 0

abbrev bufTy : (tb : Table) → Fin (tcTables nBuf tb) → BufTy
  | .hbm, ⟨0, _⟩ => ⟨S200000x128, .f32⟩
  | .hbm, ⟨1, _⟩ => ⟨S50000x128, .f32⟩
  | .hbm, ⟨2, _⟩ => ⟨S2x600000, .i32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S256x128, .f32⟩
  | .hbm, ⟨17, _⟩ => ⟨S128, .f32⟩
  | .hbm, ⟨18, _⟩ => ⟨S256x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S1x600000, .i32⟩
  | .hbm, ⟨25, _⟩ => ⟨S600000, .i32⟩
  | .hbm, ⟨26, _⟩ => ⟨S1x600000, .i32⟩
  | .hbm, ⟨27, _⟩ => ⟨S600000, .i32⟩
  | .hbm, ⟨28, _⟩ => ⟨S1x128, .f32⟩
  | .hbm, ⟨29, _⟩ => ⟨S200000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S1, .i32⟩
  | .hbm, ⟨39, _⟩ => ⟨S_, .i32⟩
  | .hbm, ⟨40, _⟩ => ⟨S600000x1, .i32⟩
  | .hbm, ⟨41, _⟩ => ⟨S600000x1, .i1⟩
  | .hbm, ⟨42, _⟩ => ⟨S1x1, .i32⟩
  | .hbm, ⟨43, _⟩ => ⟨S600000x1, .i32⟩
  | .hbm, ⟨44, _⟩ => ⟨S600000x1, .i1⟩
  | .hbm, ⟨45, _⟩ => ⟨S600000x1, .i1⟩
  | .hbm, ⟨46, _⟩ => ⟨S_, .i1⟩
  | .hbm, ⟨47, _⟩ => ⟨S600000, .i1⟩
  | .hbm, ⟨48, _⟩ => ⟨S600000x128, .f32⟩
  | .hbm, ⟨49, _⟩ => ⟨S600000x128, .i1⟩
  | .hbm, ⟨50, _⟩ => ⟨S_, .f32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S_, .f32⟩
  | .hbm, ⟨58, _⟩ => ⟨S600000, .f32⟩
  | .hbm, ⟨59, _⟩ => ⟨S_, .f32⟩
  | .hbm, ⟨60, _⟩ => ⟨S50000, .f32⟩
  | .hbm, ⟨61, _⟩ => ⟨S600000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S50000x128, .f32⟩
  | .hbm, ⟨76, _⟩ => ⟨S1x600000, .i32⟩
  | .hbm, ⟨77, _⟩ => ⟨S600000, .i32⟩
  | .hbm, ⟨78, _⟩ => ⟨S1x600000, .i32⟩
  | .hbm, ⟨79, _⟩ => ⟨S600000, .i32⟩
  | .hbm, ⟨80, _⟩ => ⟨S1x128, .f32⟩
  | .hbm, ⟨81, _⟩ => ⟨S50000x128, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S1, .i32⟩
  | .hbm, ⟨91, _⟩ => ⟨S_, .i32⟩
  | .hbm, ⟨92, _⟩ => ⟨S600000x1, .i32⟩
  | .hbm, ⟨93, _⟩ => ⟨S600000x1, .i1⟩
  | .hbm, ⟨94, _⟩ => ⟨S1x1, .i32⟩
  | .hbm, ⟨95, _⟩ => ⟨S600000x1, .i32⟩
  | .hbm, ⟨96, _⟩ => ⟨S600000x1, .i1⟩
  | .hbm, ⟨97, _⟩ => ⟨S600000x1, .i1⟩
  | .hbm, ⟨98, _⟩ => ⟨S_, .i1⟩
  | .hbm, ⟨99, _⟩ => ⟨S600000, .i1⟩
  | .hbm, ⟨100, _⟩ => ⟨S600000x128, .f32⟩
  | .hbm, ⟨101, _⟩ => ⟨S600000x128, .i1⟩
  | .hbm, ⟨102, _⟩ => ⟨S_, .f32⟩
  | .hbm, ⟨103, _⟩ => ⟨S600000x128, .f32⟩
  | .hbm, ⟨104, _⟩ => ⟨S600000x128, .f32⟩
  | .hbm, ⟨105, _⟩ => ⟨S_, .f32⟩
  | .hbm, ⟨106, _⟩ => ⟨S200000x128, .f32⟩
  | .hbm, ⟨107, _⟩ => ⟨S600000x1, .i32⟩
  | .hbm, ⟨108, _⟩ => ⟨S200000x128, .f32⟩
  | .hbm, ⟨109, _⟩ => ⟨S_, .f32⟩
  | .hbm, ⟨110, _⟩ => ⟨S600000, .f32⟩
  | .hbm, ⟨111, _⟩ => ⟨S_, .f32⟩
  | .hbm, ⟨112, _⟩ => ⟨S200000, .f32⟩
  | .hbm, ⟨113, _⟩ => ⟨S600000x1, .i32⟩
  | .hbm, ⟨114, _⟩ => ⟨S200000, .f32⟩
  | .hbm, ⟨115, _⟩ => ⟨S_, .f32⟩
  | .hbm, ⟨116, _⟩ => ⟨S200000, .f32⟩
  | .hbm, ⟨117, _⟩ => ⟨S200000, .f32⟩
  | .hbm, ⟨118, _⟩ => ⟨S_, .f32⟩
  | .hbm, ⟨119, _⟩ => ⟨S200000, .f32⟩
  | .hbm, ⟨120, _⟩ => ⟨S200000, .f32⟩
  | .hbm, ⟨121, _⟩ => ⟨S200000x1, .f32⟩
  | .hbm, ⟨122, _⟩ => ⟨S1x128, .f32⟩
  | .hbm, ⟨123, _⟩ => ⟨S1x128, .f32⟩
  | .hbm, ⟨124, _⟩ => ⟨S1x128, .f32⟩
  | .hbm, ⟨125, _⟩ => ⟨S1x128, .f32⟩
  | .hbm, ⟨126, _⟩ => ⟨S1x128, .f32⟩
  | .hbm, ⟨127, _⟩ => ⟨S200000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S256x128, .f32⟩
  | .local _ .vmem, ⟨13, _⟩ => ⟨S1x128, .f32⟩
  | .local _ .vmem, ⟨14, _⟩ => ⟨S256x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S256x128, .f32⟩
  | .local _ .vmem, ⟨35, _⟩ => ⟨S1x128, .f32⟩
  | .local _ .vmem, ⟨36, _⟩ => ⟨S256x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v6 : Ref sig .tc := ⟨.hbm, 52, rfl⟩
abbrev main_cst : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_cst_0 : Ref sig .tc := ⟨.hbm, 57, rfl⟩
abbrev main_v10 : Ref sig .tc := ⟨.hbm, 58, rfl⟩
abbrev main_cst_1 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst_2 : Ref sig .tc := ⟨.hbm, 63, rfl⟩
abbrev main_v14 : Ref sig .tc := ⟨.hbm, 64, rfl⟩
abbrev main_v15 : Ref sig .tc := ⟨.hbm, 65, rfl⟩
abbrev main_cst_3 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v31 : Ref sig .tc := ⟨.hbm, 104, rfl⟩
abbrev main_cst_4 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_cst_5 : Ref sig .tc := ⟨.hbm, 109, rfl⟩
abbrev main_v35 : Ref sig .tc := ⟨.hbm, 110, rfl⟩
abbrev main_cst_6 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_cst_7 : Ref sig .tc := ⟨.hbm, 115, rfl⟩
abbrev main_v39 : Ref sig .tc := ⟨.hbm, 116, rfl⟩
abbrev main_v40 : Ref sig .tc := ⟨.hbm, 117, rfl⟩
abbrev main_cst_8 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg11_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg11_0 : Ref sig .tc := ⟨.vmem, 42, rfl⟩
abbrev cc3_stg11_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem11_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem11_0 : DmaSem sig := 42
abbrev cc3_sem11_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  broadcasts_S1x128_S2000x128 : S1x128.Broadcasts S2000x128
  reduces_S2000x128_S2000 : S2000x128.Reduces [1] S2000
  shapeCasts_S2000_S2000x1 : S2000.ShapeCasts S2000x1
  bcast_S_S200000x128 : S_.BroadcastsInDim S200000x128 (![] : Fin 0 → Fin S200000x128.rank)
  bcast_S_S200000 : S_.BroadcastsInDim S200000 (![] : Fin 0 → Fin S200000.rank)
  shapeCasts_S200000_S200000x1 : S200000.ShapeCasts S200000x1
  dot_S10000x128_S128x128_S10000x128_1_0_0_1_n_n_wf : DotDims.WF S10000x128 S128x128 S10000x128 [1] [0] [0] [1] [] []
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S200000x128.size a
  hwx0_3 : ∀ i : grid0.Coords, EltTy.bits .f32 = 32 ∨ (Rect.block (s := S200000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S200000x128.size a
  hwx3_0 : ∀ i : grid3.Coords, EltTy.bits .f32 = 32 ∨ (Rect.block (s := S200000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S200000x128.size a
  hwx3_1 : ∀ i : grid3.Coords, EltTy.bits .f32 = 32 ∨ (Rect.block (s := S200000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S200000x1.size a
  hwx3_2 : ∀ i : grid3.Coords, EltTy.bits .f32 = 32 ∨ (Rect.block (s := S200000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x128.size a ≤ S200000x128.size a
  hwx3_11 : ∀ i : grid3.Coords, EltTy.bits .f32 = 32 ∨ (Rect.block (s := S200000x128) S2000x128.size (cc3_transform_11 i) (hinb3_11 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v24) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_arg1) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg20) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v46) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v47) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v48) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v49) S2000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S200000x128 : Shape := ⟨2, ![200000, 128]⟩
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩
abbrev S200000 : Shape := ⟨1, ![200000]⟩
abbrev S200000x1 : Shape := ⟨2, ![200000, 1]⟩
abbrev S200000x256 : Shape := ⟨2, ![200000, 256]⟩

abbrev nBuf : Space → Nat
  | .hbm => 238
  | .vmem => 0
  | .smem => 0
  | _ => 0

abbrev hbmTy0_0 (i : Nat) : BufTy := match i % 128 with
  | 0 => ⟨S200000x128, .f32⟩
  | 1 => ⟨S50000x128, .f32⟩
  | 2 => ⟨S2x600000, .i32⟩
  | 3 => ⟨S2x600000, .i32⟩
  | 4 => ⟨S128x128, .f32⟩
  | 5 => ⟨S128, .f32⟩
  | 6 => ⟨S256x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S256x128, .f32⟩
  | 17 => ⟨S128, .f32⟩
  | 18 => ⟨S256x128, .f32⟩
  | 19 => ⟨S128, .f32⟩
  | 20 => ⟨S128x128, .f32⟩
  | 21 => ⟨S128, .f32⟩
  | 22 => ⟨S128, .f32⟩
  | 23 => ⟨S128, .f32⟩
  | 24 => ⟨S1x600000, .i32⟩
  | 25 => ⟨S600000, .i32⟩
  | 26 => ⟨S1x600000, .i32⟩
  | 27 => ⟨S600000, .i32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S600000x128, .f32⟩
  | 38 => ⟨S1x128, .f32⟩
  | 39 => ⟨S600000x128, .f32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S_, .f32⟩
  | 46 => ⟨S600000, .f32⟩
  | 47 => ⟨S_, .f32⟩
  | 48 => ⟨S50000, .f32⟩
  | 49 => ⟨S600000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x256, .f32⟩
  | 58 => ⟨S50000x128, .f32⟩
  | 59 => ⟨S1x128, .f32⟩
  | 60 => ⟨S50000x128, .f32⟩
  | 61 => ⟨S50000x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S_, .i32⟩
  | 94 => ⟨S_, .f32⟩
  | 95 => ⟨S50000, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S50000x128, .f32⟩
  | 103 => ⟨S_, .f32⟩
  | 104 => ⟨S_, .f32⟩
  | 105 => ⟨S_, .f32⟩
  | 106 => ⟨S_, .f32⟩
  | 107 => ⟨S50000, .f32⟩
  | 108 => ⟨S50000x1, .f32⟩
  | 109 => ⟨S50000x1, .f32⟩
  | 110 => ⟨S50000x1, .f32⟩
  | 111 => ⟨S_, .f32⟩
  | 112 => ⟨S_, .i1⟩
  | 113 => ⟨S_, .f32⟩
  | 114 => ⟨S_, .f32⟩
  | 115 => ⟨S50000x1, .f32⟩
  | 116 => ⟨S50000x1, .f32⟩
  | 117 => ⟨S50000x128, .f32⟩
  | 118 => ⟨S50000x128, .f32⟩
  | 119 => ⟨S_, .f32⟩
  | 120 => ⟨S50000x1, .f32⟩
  | 121 => ⟨S50000x1, .f32⟩
  | 122 => ⟨S50000x1, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S200000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x600000, .i32⟩
  | 4 => ⟨S600000, .i32⟩
  | 5 => ⟨S1x600000, .i32⟩
  | 6 => ⟨S600000, .i32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000x128, .f32⟩
  | 16 => ⟨S600000x128, .f32⟩
  | 17 => ⟨S1x128, .f32⟩
  | 18 => ⟨S600000x128, .f32⟩
  | 19 => ⟨S600000x128, .f32⟩
  | 20 => ⟨S_, .f32⟩
  | 21 => ⟨S200000x128, .f32⟩
  | 22 => ⟨S600000x1, .i32⟩
  | 23 => ⟨S200000x128, .f32⟩
  | 24 => ⟨S_, .f32⟩
  | 25 => ⟨S600000, .f32⟩
  | 26 => ⟨S_, .f32⟩
  | 27 => ⟨S200000, .f32⟩
  | 28 => ⟨S600000x1, .i32⟩
  | 29 => ⟨S200000, .f32⟩
  | 30 => ⟨S_, .f32⟩
  | 31 => ⟨S200000, .f32⟩
  | 32 => ⟨S200000, .f32⟩
  | 33 => ⟨S200000x1, .f32⟩
  | 34 => ⟨S200000x128, .f32⟩
  | 35 => ⟨S200000x128, .f32⟩
  | 36 => ⟨S200000x256, .f32⟩
  | 37 => ⟨S200000x128, .f32⟩
  | 38 => ⟨S1x128, .f32⟩
  | 39 => ⟨S200000x128, .f32⟩
  | 40 => ⟨S200000x128, .f32⟩
  | 41 => ⟨S200000x128, .f32⟩
  | 42 => ⟨S200000x128, .f32⟩
  | 43 => ⟨S_, .f32⟩
  | 44 => ⟨S200000x128, .f32⟩
  | 45 => ⟨S200000x128, .f32⟩
  | 46 => ⟨S_, .f32⟩
  | 47 => ⟨S200000x128, .f32⟩
  | 48 => ⟨S200000x128, .f32⟩
  | 49 => ⟨S200000x128, .f32⟩
  | 50 => ⟨S1x128, .f32⟩
  | 51 => ⟨S200000x128, .f32⟩
  | 52 => ⟨S200000x128, .f32⟩
  | 53 => ⟨S_, .f32⟩
  | 54 => ⟨S200000x128, .f32⟩
  | 55 => ⟨S200000x128, .f32⟩
  | 56 => ⟨S200000x128, .f32⟩
  | 57 => ⟨S1x128, .f32⟩
  | 58 => ⟨S200000x128, .f32⟩
  | 59 => ⟨S200000x128, .f32⟩
  | 60 => ⟨S200000x128, .f32⟩
  | 61 => ⟨S_, .f32⟩
  | 62 => ⟨S200000x128, .f32⟩
  | 63 => ⟨S200000x128, .f32⟩
  | 64 => ⟨S200000x128, .f32⟩
  | 65 => ⟨S200000x128, .f32⟩
  | 66 => ⟨S_, .f32⟩
  | 67 => ⟨S200000, .f32⟩
  | 68 => ⟨S200000x1, .f32⟩
  | 69 => ⟨S_, .f32⟩
  | 70 => ⟨S200000x1, .f32⟩
  | 71 => ⟨S200000x1, .f32⟩
  | 72 => ⟨S_, .i32⟩
  | 73 => ⟨S_, .f32⟩
  | 74 => ⟨S200000, .f32⟩
  | 75 => ⟨S200000x1, .f32⟩
  | 76 => ⟨S_, .f32⟩
  | 77 => ⟨S200000x1, .f32⟩
  | 78 => ⟨S200000x1, .f32⟩
  | 79 => ⟨S200000x128, .f32⟩
  | 80 => ⟨S200000x128, .f32⟩
  | 81 => ⟨S200000x128, .f32⟩
  | 82 => ⟨S_, .f32⟩
  | 83 => ⟨S_, .f32⟩
  | 84 => ⟨S_, .f32⟩
  | 85 => ⟨S_, .f32⟩
  | 86 => ⟨S200000, .f32⟩
  | 87 => ⟨S200000x1, .f32⟩
  | 88 => ⟨S200000x1, .f32⟩
  | 89 => ⟨S200000x1, .f32⟩
  | 90 => ⟨S_, .f32⟩
  | 91 => ⟨S_, .i1⟩
  | 92 => ⟨S_, .f32⟩
  | 93 => ⟨S_, .f32⟩
  | 94 => ⟨S200000x1, .f32⟩
  | 95 => ⟨S200000x1, .f32⟩
  | 96 => ⟨S200000x128, .f32⟩
  | 97 => ⟨S200000x128, .f32⟩
  | 98 => ⟨S_, .f32⟩
  | 99 => ⟨S200000x1, .f32⟩
  | 100 => ⟨S200000x1, .f32⟩
  | 101 => ⟨S200000x1, .f32⟩
  | 102 => ⟨S200000x128, .f32⟩
  | 103 => ⟨S200000x128, .f32⟩
  | 104 => ⟨S1x128, .f32⟩
  | 105 => ⟨S200000x128, .f32⟩
  | 106 => ⟨S200000x128, .f32⟩
  | 107 => ⟨S1x128, .f32⟩
  | 108 => ⟨S200000x128, .f32⟩
  | 109 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_4 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call0_cst : Ref sig .tc := ⟨.hbm, 74, rfl⟩
abbrev main_call0_v0 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_7 : Ref sig .tc := ⟨.hbm, 87, rfl⟩
abbrev main_v52 : Ref sig .tc := ⟨.hbm, 88, rfl⟩
abbrev main_v53 : Ref sig .tc := ⟨.hbm, 89, rfl⟩
abbrev main_cst_8 : Ref sig .tc := ⟨.hbm, 90, rfl⟩
abbrev main_v54 : Ref sig .tc := ⟨.hbm, 91, rfl⟩
abbrev main_v55 : Ref sig .tc := ⟨.hbm, 92, rfl⟩
abbrev main_c_9 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_v12 : Ref sig .tc := ⟨.hbm, 110, rfl⟩
abbrev main_call1_cst_3 : Ref sig .tc := ⟨.hbm, 111, rfl⟩
abbrev main_call1_v13 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_10 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_c_11 : Ref sig .tc := ⟨.hbm, 135, rfl⟩
abbrev main_v74 : Ref sig .tc := ⟨.hbm, 136, rfl⟩
abbrev main_v75 : Ref sig .tc := ⟨.hbm, 137, rfl⟩
abbrev main_c_12 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_13 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_cst_14 : Ref sig .tc := ⟨.hbm, 152, rfl⟩
abbrev main_v88 : Ref sig .tc := ⟨.hbm, 153, rfl⟩
abbrev main_cst_15 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_16 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_17 : Ref sig .tc := ⟨.hbm, 171, rfl⟩
abbrev main_v104 : Ref sig .tc := ⟨.hbm, 172, rfl⟩
abbrev main_v105 : Ref sig .tc := ⟨.hbm, 173, rfl⟩
abbrev main_cst_18 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_call2_cst : Ref sig .tc := ⟨.hbm, 181, rfl⟩
abbrev main_call2_v0 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_cst_19 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_20 : Ref sig .tc := ⟨.hbm, 194, rfl⟩
abbrev main_v122 : Ref sig .tc := ⟨.hbm, 195, rfl⟩
abbrev main_v123 : Ref sig .tc := ⟨.hbm, 196, rfl⟩
abbrev main_cst_21 : Ref sig .tc := ⟨.hbm, 197, rfl⟩
abbrev main_v124 : Ref sig .tc := ⟨.hbm, 198, rfl⟩
abbrev main_v125 : Ref sig .tc := ⟨.hbm, 199, rfl⟩
abbrev main_c_22 : Ref sig .tc := ⟨.hbm, 200, rfl⟩
abbrev main_call3_cst : Ref sig .tc := ⟨.hbm, 201, rfl⟩
abbrev main_call3_v0 : Ref sig .tc := ⟨.hbm, 202, rfl⟩
abbrev main_call3_v1 : Ref sig .tc := ⟨.hbm, 203, rfl⟩
abbrev main_call3_cst_0 : Ref sig .tc := ⟨.hbm, 204, rfl⟩
abbrev main_call3_v2 : Ref sig .tc := ⟨.hbm, 205, rfl⟩
abbrev main_call3_v3 : Ref sig .tc := ⟨.hbm, 206, rfl⟩
abbrev main_call3_v4 : Ref sig .tc := ⟨.hbm, 207, rfl⟩
abbrev main_call3_v5 : Ref sig .tc := ⟨.hbm, 208, rfl⟩
abbrev main_call3_v6 : Ref sig .tc := ⟨.hbm, 209, rfl⟩
abbrev main_call3_v7 : Ref sig .tc := ⟨.hbm, 210, rfl⟩
abbrev main_call3_cst_1 : Ref sig .tc := ⟨.hbm, 211, rfl⟩
abbrev main_call3_v8 : Ref sig .tc := ⟨.hbm, 212, rfl⟩
abbrev main_call3_cst_2 : Ref sig .tc := ⟨.hbm, 213, rfl⟩
abbrev main_call3_v9 : Ref sig .tc := ⟨.hbm, 214, rfl⟩
abbrev main_call3_v10 : Ref sig .tc := ⟨.hbm, 215, rfl⟩
abbrev main_call3_v11 : Ref sig .tc := ⟨.hbm, 216, rfl⟩
abbrev main_call3_v12 : Ref sig .tc := ⟨.hbm, 217, rfl⟩
abbrev main_call3_cst_3 : Ref sig .tc := ⟨.hbm, 218, rfl⟩
abbrev main_call3_v13 : Ref sig .tc := ⟨.hbm, 219, rfl⟩
abbrev main_call3_cst_4 : Ref sig .tc := ⟨.hbm, 220, rfl⟩
abbrev main_call3_call0_v0 : Ref sig .tc := ⟨.hbm, 221, rfl⟩
abbrev main_call3_call0_v1 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_cst_23 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  reducesTo_S200000x128_S200000_d1 : S200000x128.ReducesTo [1] S200000
  bcast_S_S200000x1 : S_.BroadcastsInDim S200000x1 (![] : Fin 0 → Fin S200000x1.rank)
  gather_S200000x128_S600000x1_S600000x128_1_0_n_n_0_1_1128_wf : GatherDims.WF S200000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S200000x256_S256x128_S200000x128_1_0_0_1_n_n_wf : DotDims.WF S200000x256 S256x128 S200000x128 [1] [0] [0] [1] [] []
  dot_S200000x128_S128x128_S200000x128_1_0_0_1_n_n_wf : DotDims.WF S200000x128 S128x128 S200000x128 [1] [0] [0] [1] [] []

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.Spec.lean ====
/-
  The mathematics both programs compute, stated once over the extended reals, row by row.

  One direction of the layer takes a table of source rows, sends each row through a linear map
  (`msgAt`: row r of X times W, plus the bias row), sums the rows that the edge list sends to each
  destination, scales that sum by a per-destination factor (`aggAt`), and then updates every destination
  row d by a gate: with g = logistic([d | a]·Wg + bg) and u = relu([d | a]·W1 + b1)·W2 + b2 it forms
  g·d + (1 − g)·u and normalises that row to mean 0 and variance 1 (plus ε) before the affine map (γ, β)
  (`lnAt`). A product [d | a]·W over the 256 stacked columns is written as the sum of its two halves
  (`lin2At`): the first 128 rows of W meet d, the last 128 meet a.
-/
import Idealize.ShloMosaic.Lib.ValueIdx
import Idealize.ShloMosaic.PureOps.Ideal.Laws

noncomputable section

open scoped BigOperators

namespace Cert.Spec

open Idealize.ShloMosaic Idealize.ShloMosaic.ValueIdx

/-- An n × k array of extended reals, indexed as the programs index it. -/
abbrev Mat (n k : ℕ) : Type := (⟨2, ![n, k]⟩ : Shape).Idx → EReal

/-- Row k of the upper half of a 256-row weight. -/
def lo (k : Fin 128) : Fin 256 := ⟨k.val, by omega⟩
/-- Row k of the lower half of a 256-row weight. -/
def hi (k : Fin 128) : Fin 256 := ⟨k.val + 128, by omega⟩

variable {n : ℕ}

/-- Row r of X through the linear map W, plus the bias row: entry j. -/
def msgAt (X : Mat n 128) (W : Mat 128 128) (b : Mat 1 128) (r : Fin n) (j : Fin 128) : EReal :=
  (∑ k : Fin 128, X (ix2 r k) * W (ix2 k j)) + b (ix2 0 j)

/-- The whole table of transformed rows. -/
def msgTab (X : Mat n 128) (W : Mat 128 128) (b : Mat 1 128) : Mat n 128 :=
  fun i => msgAt X W b (i 0) (i 1)

/-- The aggregated row, scaled by its destination's factor. -/
def aggAt (a : Mat n 128) (inv : Mat n 1) (r : Fin n) (k : Fin 128) : EReal :=
  a (ix2 r k) * inv (ix2 r 0)

/-- [d | a]·W + b at (r, j), as the sum of the two half products. -/
def lin2At (d a : Mat n 128) (inv : Mat n 1) (w : Mat 256 128) (b : Mat 1 128) (r : Fin n) (j : Fin 128) : EReal :=
  (∑ k : Fin 128, d (ix2 r k) * w (ix2 (lo k) j)) + (∑ k : Fin 128, aggAt a inv r k * w (ix2 (hi k) j))
    + b (ix2 0 j)

/-- The gate. -/
def gateAt (d a : Mat n 128) (inv : Mat n 1) (gw : Mat 256 128) (gb : Mat 1 128) (r : Fin n) (j : Fin 128) : EReal :=
  Ideal.logistic (lin2At d a inv gw gb r j)

/-- The hidden layer of the update, after the relu. -/
def reluAt (d a : Mat n 128) (inv : Mat n 1) (u1w : Mat 256 128) (u1b : Mat 1 128) (r : Fin n) (k : Fin 128) : EReal :=
  max (lin2At d a inv u1w u1b r k) (Ideal.ofBits .f32 0x00000000#32)

/-- The proposed update. -/
def updAt (d a : Mat n 128) (inv : Mat n 1) (u1w : Mat 256 128) (u1b : Mat 1 128) (u2w : Mat 128 128) (u2b : Mat 1 128)
    (r : Fin n) (j : Fin 128) : EReal :=
  (∑ k : Fin 128, reluAt d a inv u1w u1b r k * u2w (ix2 k j)) + u2b (ix2 0 j)

/-- The gated mixture of the old row and the proposed update. -/
def combAt (d a : Mat n 128) (inv : Mat n 1) (gw : Mat 256 128) (gb : Mat 1 128) (u1w : Mat 256 128) (u1b : Mat 1 128)
    (u2w : Mat 128 128) (u2b : Mat 1 128) (r : Fin n) (j : Fin 128) : EReal :=
  gateAt d a inv gw gb r j * d (ix2 r j)
    + (Ideal.ofBits .f32 0x3F800000#32 - gateAt d a inv gw gb r j) * updAt d a inv u1w u1b u2w u2b r j

/-- The mean of a row of 128 entries. -/
def meanAt (f : Fin 128 → EReal) : EReal :=
  Ideal.div (∑ j : Fin 128, f j) (Ideal.ofBits .f32 0x43000000#32)

/-- Layer normalisation of one row, then the affine map: entry j. -/
def lnAt (f : Fin 128 → EReal) (g b : Mat 1 128) (j : Fin 128) : EReal :=
  (f j - meanAt f)
      * Ideal.rsqrt (meanAt (fun j' => (f j' - meanAt f) * (f j' - meanAt f)) + Ideal.ofBits .f32 0x3727C5AC#32)
      * g (ix2 0 j)
    + b (ix2 0 j)

/-- The updated destination table. -/
def updArr (d a : Mat n 128) (inv : Mat n 1) (gw : Mat 256 128) (gb : Mat 1 128) (u1w : Mat 256 128) (u1b : Mat 1 128)
    (u2w : Mat 128 128) (u2b : Mat 1 128) (lng lnb : Mat 1 128) : Mat n 128 :=
  fun i => lnAt (fun j => combAt d a inv gw gb u1w u1b u2w u2b (i 0) j) lng lnb (i 1)

theorem msgTab_apply (X : Mat n 128) (W : Mat 128 128) (b : Mat 1 128) (r : Fin n) (j : Fin 128) :
    msgTab X W b (ix2 r j) = msgAt X W b r j := rfl

theorem updArr_apply (d a : Mat n 128) (inv : Mat n 1) (gw : Mat 256 128) (gb : Mat 1 128) (u1w : Mat 256 128)
    (u1b : Mat 1 128) (u2w : Mat 128 128) (u2b : Mat 1 128) (lng lnb : Mat 1 128) (r : Fin n) (j : Fin 128) :
    updArr d a inv gw gb u1w u1b u2w u2b lng lnb (ix2 r j)
      = lnAt (fun j' => combAt d a inv gw gb u1w u1b u2w u2b r j') lng lnb j := rfl

end Cert.Spec

end
-- ==== Proof.KDefs.lean ====
import proofs.«423421_j88751204204557_2_alg».proof.Proof.Gen.KernelIdeal

/-! The host operations between the four regions of the idealized kernel, as plain functions of the arrays they
read: the reshape of a bias to a row, the row lookup of a table by row 0 of an edge list, the scatter-add of the
looked-up rows at row 1 of the edge list, and the reciprocal of the clamped in-degree. Each is the composition of
the printed operation terms, in the printed order. -/

noncomputable section

namespace Cert.KernelIdeal.KDefs

open Cert.KernelIdeal.Gen
open Idealize.ShloMosaic

variable {F : FTy → Type} [FloatOps F]

/-- A 128-vector as a 1 × 128 row. -/
def rowv (b : FVec F S128 .f32) : FVec F S1x128 .f32 :=
  shapeCast S1x128 b shapeCasts_S128_S1x128

/-- The rows of the 200000-row table T looked up at row 0 of the edge list e: a negative index wraps by 200000,
    and a row whose wrapped index is outside [0, 199999] is filled with the quiet NaN. -/
def takeU (T : FVec F S200000x128 .f32) (e : IVec S2x600000 32) : FVec F S600000x128 .f32 :=
  select (broadcastInDim S600000x128 ![0] bcast_S600000_S600000x128_0 (Host.reduce IntOp.andi (andi (cmpi .sge (broadcastInDim S600000x1 ![0] bcast_S600000_S600000x1_0 (select (cmpi .slt (shapeCast S600000 (extractStridedSlice S1x600000 ![0, 0] e slices_S2x600000_S1x600000_0_0) shapeCasts_S1x600000_S600000) (broadcastInDim S600000 ![] bcast_S_S600000 (constantI S_ 32 0#32))) (addi (shapeCast S600000 (extractStridedSlice S1x600000 ![0, 0] e slices_S2x600000_S1x600000_0_0) shapeCasts_S1x600000_S600000) (broadcastInDim S600000 ![] bcast_S_S600000 (constantI S_ 32 200000#32))) (shapeCast S600000 (extractStridedSlice S1x600000 ![0, 0] e slices_S2x600000_S1x600000_0_0) shapeCasts_S1x600000_S600000))) (broadcastInDim S600000x1 ![] bcast_S_S600000x1 (constantI S_ 32 0#32))) (cmpi .sle (broadcastInDim S600000x1 ![0] bcast_S600000_S600000x1_0 (select (cmpi .slt (shapeCast S600000 (extractStridedSlice S1x600000 ![0, 0] e slices_S2x600000_S1x600000_0_0) shapeCasts_S1x600000_S600000) (broadcastInDim S600000 ![] bcast_S_S600000 (constantI S_ 32 0#32))) (addi (shapeCast S600000 (extractStridedSlice S1x600000 ![0, 0] e slices_S2x600000_S1x600000_0_0) shapeCasts_S1x600000_S600000) (broadcastInDim S600000 ![] bcast_S_S600000 (constantI S_ 32 200000#32))) (shapeCast S600000 (extractStridedSlice S1x600000 ![0, 0] e slices_S2x600000_S1x600000_0_0) shapeCasts_S1x600000_S600000))) (broadcastInDim S600000x1 ![0, 1] bcast_S1x1_S600000x1_0_1 (broadcastInDim S1x1 ![1] bcast_S1_S1x1_1 (constantI S1 32 199999#32))))) (constantI S_ 1 1#1) reducesTo_S600000x1_S600000_d1 h_S_)) (Host.gather gather_S200000x128_S600000x1_S600000x128_1_0_n_n_0_1_1128 T (broadcastInDim S600000x1 ![0] bcast_S600000_S600000x1_0 (select (cmpi .slt (shapeCast S600000 (extractStridedSlice S1x600000 ![0, 0] e slices_S2x600000_S1x600000_0_0) shapeCasts_S1x600000_S600000) (broadcastInDim S600000 ![] bcast_S_S600000 (constantI S_ 32 0#32))) (addi (shapeCast S600000 (extractStridedSlice S1x600000 ![0, 0] e slices_S2x600000_S1x600000_0_0) shapeCasts_S1x600000_S600000) (broadcastInDim S600000 ![] bcast_S_S600000 (constantI S_ 32 200000#32))) (shapeCast S600000 (extractStridedSlice S1x600000 ![0, 0] e slices_S2x600000_S1x600000_0_0) shapeCasts_S1x600000_S600000)))) (broadcastInDim S600000x128 ![] bcast_S_S600000x128 (constant (F := F) S_ .f32 0x7FC00000#32))

/-- The rows msgs added onto a zero 50000 × 128 array at row 1 of the edge list. -/
def aggU (msgs : FVec F S600000x128 .f32) (e : IVec S2x600000 32) : FVec F S50000x128 .f32 :=
  Host.scatterAdd scatter_S50000x128_S600000x1_S600000x128_1_0_0_1 (broadcastInDim S50000x128 ![] bcast_S_S50000x128 (constant (F := F) S_ .f32 0x00000000#32)) (broadcastInDim S600000x1 ![0] bcast_S600000_S600000x1_0 (shapeCast S600000 (extractStridedSlice S1x600000 ![1, 0] e slices_S2x600000_S1x600000_1_0) shapeCasts_S1x600000_S600000)) msgs

/-- 1 / max (count, 1) per receiver, a 50000 × 1 column: the count is ones added at row 1 of the edge list. -/
def invU (e : IVec S2x600000 32) : FVec F S50000x1 .f32 :=
  shapeCast S50000x1 (Host.divf (broadcastInDim S50000 ![] bcast_S_S50000 (constant (F := F) S_ .f32 0x3F800000#32)) (maximumf (Host.scatterAdd scatter_S50000_S600000x1_S600000_n_0_0_1 (broadcastInDim S50000 ![] bcast_S_S50000 (constant (F := F) S_ .f32 0x00000000#32)) (broadcastInDim S600000x1 ![0] bcast_S600000_S600000x1_0 (shapeCast S600000 (extractStridedSlice S1x600000 ![1, 0] e slices_S2x600000_S1x600000_1_0) shapeCasts_S1x600000_S600000)) (broadcastInDim S600000 ![] bcast_S_S600000 (constant (F := F) S_ .f32 0x3F800000#32))) (broadcastInDim S50000 ![] bcast_S_S50000 (constant (F := F) S_ .f32 0x3F800000#32)))) shapeCasts_S50000_S50000x1

/-- The rows of the 50000-row table T looked up at row 0 of the edge list e (wrap by 50000, NaN fill). -/
def takeL (T : FVec F S50000x128 .f32) (e : IVec S2x600000 32) : FVec F S600000x128 .f32 :=
  select (broadcastInDim S600000x128 ![0] bcast_S600000_S600000x128_0 (Host.reduce IntOp.andi (andi (cmpi .sge (broadcastInDim S600000x1 ![0] bcast_S600000_S600000x1_0 (select (cmpi .slt (shapeCast S600000 (extractStridedSlice S1x600000 ![0, 0] e slices_S2x600000_S1x600000_0_0) shapeCasts_S1x600000_S600000) (broadcastInDim S600000 ![] bcast_S_S600000 (constantI S_ 32 0#32))) (addi (shapeCast S600000 (extractStridedSlice S1x600000 ![0, 0] e slices_S2x600000_S1x600000_0_0) shapeCasts_S1x600000_S600000) (broadcastInDim S600000 ![] bcast_S_S600000 (constantI S_ 32 50000#32))) (shapeCast S600000 (extractStridedSlice S1x600000 ![0, 0] e slices_S2x600000_S1x600000_0_0) shapeCasts_S1x600000_S600000))) (broadcastInDim S600000x1 ![] bcast_S_S600000x1 (constantI S_ 32 0#32))) (cmpi .sle (broadcastInDim S600000x1 ![0] bcast_S600000_S600000x1_0 (select (cmpi .slt (shapeCast S600000 (extractStridedSlice S1x600000 ![0, 0] e slices_S2x600000_S1x600000_0_0) shapeCasts_S1x600000_S600000) (broadcastInDim S600000 ![] bcast_S_S600000 (constantI S_ 32 0#32))) (addi (shapeCast S600000 (extractStridedSlice S1x600000 ![0, 0] e slices_S2x600000_S1x600000_0_0) shapeCasts_S1x600000_S600000) (broadcastInDim S600000 ![] bcast_S_S600000 (constantI S_ 32 50000#32))) (shapeCast S600000 (extractStridedSlice S1x600000 ![0, 0] e slices_S2x600000_S1x600000_0_0) shapeCasts_S1x600000_S600000))) (broadcastInDim S600000x1 ![0, 1] bcast_S1x1_S600000x1_0_1 (broadcastInDim S1x1 ![1] bcast_S1_S1x1_1 (constantI S1 32 49999#32))))) (constantI S_ 1 1#1) reducesTo_S600000x1_S600000_d1 h_S_)) (Host.gather gather_S50000x128_S600000x1_S600000x128_1_0_n_n_0_1_1128 T (broadcastInDim S600000x1 ![0] bcast_S600000_S600000x1_0 (select (cmpi .slt (shapeCast S600000 (extractStridedSlice S1x600000 ![0, 0] e slices_S2x600000_S1x600000_0_0) shapeCasts_S1x600000_S600000) (broadcastInDim S600000 ![] bcast_S_S600000 (constantI S_ 32 0#32))) (addi (shapeCast S600000 (extractStridedSlice S1x600000 ![0, 0] e slices_S2x600000_S1x600000_0_0) shapeCasts_S1x600000_S600000) (broadcastInDim S600000 ![] bcast_S_S600000 (constantI S_ 32 50000#32))) (shapeCast S600000 (extractStridedSlice S1x600000 ![0, 0] e slices_S2x600000_S1x600000_0_0) shapeCasts_S1x600000_S600000)))) (broadcastInDim S600000x128 ![] bcast_S_S600000x128 (constant (F := F) S_ .f32 0x7FC00000#32))

/-- The rows msgs added onto a zero 200000 × 128 array at row 1 of the edge list. -/
def aggL (msgs : FVec F S600000x128 .f32) (e : IVec S2x600000 32) : FVec F S200000x128 .f32 :=
  Host.scatterAdd scatter_S200000x128_S600000x1_S600000x128_1_0_0_1 (broadcastInDim S200000x128 ![] bcast_S_S200000x128 (constant (F := F) S_ .f32 0x00000000#32)) (broadcastInDim S600000x1 ![0] bcast_S600000_S600000x1_0 (shapeCast S600000 (extractStridedSlice S1x600000 ![1, 0] e slices_S2x600000_S1x600000_1_0) shapeCasts_S1x600000_S600000)) msgs

/-- 1 / max (count, 1) per receiver, a 200000 × 1 column. -/
def invL (e : IVec S2x600000 32) : FVec F S200000x1 .f32 :=
  shapeCast S200000x1 (Host.divf (broadcastInDim S200000 ![] bcast_S_S200000 (constant (F := F) S_ .f32 0x3F800000#32)) (maximumf (Host.scatterAdd scatter_S200000_S600000x1_S600000_n_0_0_1 (broadcastInDim S200000 ![] bcast_S_S200000 (constant (F := F) S_ .f32 0x00000000#32)) (broadcastInDim S600000x1 ![0] bcast_S600000_S600000x1_0 (shapeCast S600000 (extractStridedSlice S1x600000 ![1, 0] e slices_S2x600000_S1x600000_1_0) shapeCasts_S1x600000_S600000)) (broadcastInDim S600000 ![] bcast_S_S600000 (constant (F := F) S_ .f32 0x3F800000#32))) (broadcastInDim S200000 ![] bcast_S_S200000 (constant (F := F) S_ .f32 0x3F800000#32)))) shapeCasts_S200000_S200000x1

end Cert.KernelIdeal.KDefs

end
-- ==== Proof.KHost.lean ====
import proofs.«423421_j88751204204557_2_alg».proof.Proof.Gen.KernelIdeal.Frame
import proofs.«423421_j88751204204557_2_alg».proof.Proof.KDefs

set_option maxRecDepth 16384

noncomputable section

namespace Cert.KernelIdeal.KHost

open Cert.KernelIdeal Cert.KernelIdeal.Gen
open Idealize.ShloMosaic Idealize.ShloMosaic.TcCoe Idealize.ShloMosaic.Tactic
open Idealize.ShloMosaic.StableHlo (after_cons after_nil)
open Idealize.SL.Sem

variable {F : FTy → Type} [FloatOps F]
variable (m : (ℓ : Loc nD τ sig) → Buf (Elt F) ℓ) (ρ : Dev nD → PrngReg)

open Idealize.ShloMosaic.StableHlo

/-! # The host stretches of the idealized kernel read back

Each stretch of host operations, from any buffer contents `V`: the buffers it does not write keep their contents,
and each buffer a region reads afterwards holds the composition of the stretch's operations over `V`. Then the
contents at every boundary of the run, walked back to the launch memory `m` and to the arrays the regions leave. -/

section Stretch

variable (V : Valuation τ sig (Elt F))

/-- The buffers the operations of `hostOps0` write. -/
abbrev wr0 : List (Ref sig .tc) := [main_v0, main_v1, main_v2, main_v3, main_v4]
theorem hostOps0_wr : (hostOps0 : List (HloOp τ sig (Elt F))).Forall fun op => op.writes ⊆ (wr0.map (Proc.devRef (τ := τ) .tc)).toFinset := by
  simp only [hostOps0, List.Forall, nullary_writes, unary_writes, binary_writes, ternary_writes, reshape_writes]
  repeat' apply And.intro
  all_goals (rw [Finset.singleton_subset_iff, List.mem_toFinset]; exact List.mem_map.mpr ⟨_, by decide, rfl⟩)
/-- A buffer `hostOps0` does not write keeps its contents. -/
theorem keep0 {r : Ref sig .tc} (hr : r ∉ wr0) : after hostOps0 V (Proc.devRef .tc r) = V (Proc.devRef .tc r) :=
  after_of_writes_sub hostOps0 V hostOps0_wr hr

/-- The buffers the operations of `hostOps1` write. -/
abbrev wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
theorem hostOps1_wr : (hostOps1 : List (HloOp τ sig (Elt F))).Forall fun op => op.writes ⊆ (wr1.map (Proc.devRef (τ := τ) .tc)).toFinset := by
  simp only [hostOps1, List.Forall, nullary_writes, unary_writes, binary_writes, ternary_writes, reshape_writes]
  repeat' apply And.intro
  all_goals (rw [Finset.singleton_subset_iff, List.mem_toFinset]; exact List.mem_map.mpr ⟨_, by decide, rfl⟩)
/-- A buffer `hostOps1` does not write keeps its contents. -/
theorem keep1 {r : Ref sig .tc} (hr : r ∉ wr1) : after hostOps1 V (Proc.devRef .tc r) = V (Proc.devRef .tc r) :=
  after_of_writes_sub hostOps1 V hostOps1_wr hr

/-- The buffers the operations of `hostOps1_1` write. -/
abbrev wr1_1 : List (Ref sig .tc) := [main_cst, main_v7, main_v8, main_v9, main_cst_0, main_v10, main_cst_1, main_v11, main_v12, main_v13, main_cst_2, main_v14, main_v15, main_cst_3, main_v16, main_v17, main_v18, main_v19, main_v20, main_v21, main_v22, main_v23]
theorem hostOps1_1_wr : (hostOps1_1 : List (HloOp τ sig (Elt F))).Forall fun op => op.writes ⊆ (wr1_1.map (Proc.devRef (τ := τ) .tc)).toFinset := by
  simp only [hostOps1_1, List.Forall, nullary_writes, unary_writes, binary_writes, ternary_writes, reshape_writes]
  repeat' apply And.intro
  all_goals (rw [Finset.singleton_subset_iff, List.mem_toFinset]; exact List.mem_map.mpr ⟨_, by decide, rfl⟩)
/-- A buffer `hostOps1_1` does not write keeps its contents. -/
theorem keep1_1 {r : Ref sig .tc} (hr : r ∉ wr1_1) : after hostOps1_1 V (Proc.devRef .tc r) = V (Proc.devRef .tc r) :=
  after_of_writes_sub hostOps1_1 V hostOps1_1_wr hr

/-- The buffers the operations of `hostOps2` write. -/
abbrev wr2 : List (Ref sig .tc) := [main_v25, main_v26, main_v27, main_v28, main_v29]
theorem hostOps2_wr : (hostOps2 : List (HloOp τ sig (Elt F))).Forall fun op => op.writes ⊆ (wr2.map (Proc.devRef (τ := τ) .tc)).toFinset := by
  simp only [hostOps2, List.Forall, nullary_writes, unary_writes, binary_writes, ternary_writes, reshape_writes]
  repeat' apply And.intro
  all_goals (rw [Finset.singleton_subset_iff, List.mem_toFinset]; exact List.mem_map.mpr ⟨_, by decide, rfl⟩)
/-- A buffer `hostOps2` does not write keeps its contents. -/
theorem keep2 {r : Ref sig .tc} (hr : r ∉ wr2) : after hostOps2 V (Proc.devRef .tc r) = V (Proc.devRef .tc r) :=
  after_of_writes_sub hostOps2 V hostOps2_wr hr

/-- The buffers the operations of `hostOps3` write. -/
abbrev wr3 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v31]
theorem hostOps3_wr : (hostOps3 : List (HloOp τ sig (Elt F))).Forall fun op => op.writes ⊆ (wr3.map (Proc.devRef (τ := τ) .tc)).toFinset := by
  simp only [hostOps3, List.Forall, nullary_writes, unary_writes, binary_writes, ternary_writes, reshape_writes]
  repeat' apply And.intro
  all_goals (rw [Finset.singleton_subset_iff, List.mem_toFinset]; exact List.mem_map.mpr ⟨_, by decide, rfl⟩)
/-- A buffer `hostOps3` does not write keeps its contents. -/
theorem keep3 {r : Ref sig .tc} (hr : r ∉ wr3) : after hostOps3 V (Proc.devRef .tc r) = V (Proc.devRef .tc r) :=
  after_of_writes_sub hostOps3 V hostOps3_wr hr

/-- The buffers the operations of `hostOps3_1` write. -/
abbrev wr3_1 : List (Ref sig .tc) := [main_cst_4, main_v32, main_v33, main_v34, main_cst_5, main_v35, main_cst_6, main_v36, main_v37, main_v38, main_cst_7, main_v39, main_v40, main_cst_8, main_v41, main_v42, main_v43, main_v44, main_v45, main_v46, main_v47, main_v48]
theorem hostOps3_1_wr : (hostOps3_1 : List (HloOp τ sig (Elt F))).Forall fun op => op.writes ⊆ (wr3_1.map (Proc.devRef (τ := τ) .tc)).toFinset := by
  simp only [hostOps3_1, List.Forall, nullary_writes, unary_writes, binary_writes, ternary_writes, reshape_writes]
  repeat' apply And.intro
  all_goals (rw [Finset.singleton_subset_iff, List.mem_toFinset]; exact List.mem_map.mpr ⟨_, by decide, rfl⟩)
/-- A buffer `hostOps3_1` does not write keeps its contents. -/
theorem keep3_1 {r : Ref sig .tc} (hr : r ∉ wr3_1) : after hostOps3_1 V (Proc.devRef .tc r) = V (Proc.devRef .tc r) :=
  after_of_writes_sub hostOps3_1 V hostOps3_1_wr hr

/-! ## What each stretch leaves in the buffers the regions read -/

theorem ops0_v1 : after hostOps0 V (Proc.devRef .tc main_v1) = ((shapeCast S600000 (extractStridedSlice S1x600000 ![0, 0] (V (Proc.devRef .tc main_arg2)) slices_S2x600000_S1x600000_0_0) shapeCasts_S1x600000_S600000) : IVec S600000 32) := by
  after_results <;> rfl
theorem ops0_v3 : after hostOps0 V (Proc.devRef .tc main_v3) = ((shapeCast S600000 (extractStridedSlice S1x600000 ![1, 0] (V (Proc.devRef .tc main_arg2)) slices_S2x600000_S1x600000_1_0) shapeCasts_S1x600000_S600000) : IVec S600000 32) := by
  after_results <;> rfl
theorem ops0_v4 : after hostOps0 V (Proc.devRef .tc main_v4) = (KDefs.rowv (V (Proc.devRef .tc main_arg5)) : FVec F S1x128 .f32) := by
  after_results <;> rfl
set_option maxHeartbeats 1000000 in
theorem ops1_v6 : after hostOps1 V (Proc.devRef .tc main_v6) = (select (broadcastInDim S600000x128 ![0] bcast_S600000_S600000x128_0 (Host.reduce IntOp.andi (andi (cmpi .sge (broadcastInDim S600000x1 ![0] bcast_S600000_S600000x1_0 (select (cmpi .slt (V (Proc.devRef .tc main_v1)) (broadcastInDim S600000 ![] bcast_S_S600000 (constantI S_ 32 0#32))) (addi (V (Proc.devRef .tc main_v1)) (broadcastInDim S600000 ![] bcast_S_S600000 (constantI S_ 32 200000#32))) (V (Proc.devRef .tc main_v1)))) (broadcastInDim S600000x1 ![] bcast_S_S600000x1 (constantI S_ 32 0#32))) (cmpi .sle (broadcastInDim S600000x1 ![0] bcast_S600000_S600000x1_0 (select (cmpi .slt (V (Proc.devRef .tc main_v1)) (broadcastInDim S600000 ![] bcast_S_S600000 (constantI S_ 32 0#32))) (addi (V (Proc.devRef .tc main_v1)) (broadcastInDim S600000 ![] bcast_S_S600000 (constantI S_ 32 200000#32))) (V (Proc.devRef .tc main_v1)))) (broadcastInDim S600000x1 ![0, 1] bcast_S1x1_S600000x1_0_1 (broadcastInDim S1x1 ![1] bcast_S1_S1x1_1 (constantI S1 32 199999#32))))) (constantI S_ 1 1#1) reducesTo_S600000x1_S600000_d1 h_S_)) (Host.gather gather_S200000x128_S600000x1_S600000x128_1_0_n_n_0_1_1128 (V (Proc.devRef .tc main_v5)) (broadcastInDim S600000x1 ![0] bcast_S600000_S600000x1_0 (select (cmpi .slt (V (Proc.devRef .tc main_v1)) (broadcastInDim S600000 ![] bcast_S_S600000 (constantI S_ 32 0#32))) (addi (V (Proc.devRef .tc main_v1)) (broadcastInDim S600000 ![] bcast_S_S600000 (constantI S_ 32 200000#32))) (V (Proc.devRef .tc main_v1))))) (broadcastInDim S600000x128 ![] bcast_S_S600000x128 (constant (F := F) S_ .f32 0x7FC00000#32)) : FVec F S600000x128 .f32) := by
  after_results <;> (try simp only [TRef.ofBuf, TRef.toBuf, cast_eq]) <;> rfl
theorem ops1_1_v9 : after hostOps1_1 V (Proc.devRef .tc main_v9) = (Host.scatterAdd scatter_S50000x128_S600000x1_S600000x128_1_0_0_1 (broadcastInDim S50000x128 ![] bcast_S_S50000x128 (constant (F := F) S_ .f32 0x00000000#32)) (broadcastInDim S600000x1 ![0] bcast_S600000_S600000x1_0 (V (Proc.devRef .tc main_v3))) (V (Proc.devRef .tc main_v6)) : FVec F S50000x128 .f32) := by
  after_results <;> rfl
theorem ops1_1_v18 : after hostOps1_1 V (Proc.devRef .tc main_v18) = (shapeCast S50000x1 (Host.divf (broadcastInDim S50000 ![] bcast_S_S50000 (constant (F := F) S_ .f32 0x3F800000#32)) (maximumf (Host.scatterAdd scatter_S50000_S600000x1_S600000_n_0_0_1 (broadcastInDim S50000 ![] bcast_S_S50000 (constant (F := F) S_ .f32 0x00000000#32)) (broadcastInDim S600000x1 ![0] bcast_S600000_S600000x1_0 (V (Proc.devRef .tc main_v3))) (broadcastInDim S600000 ![] bcast_S_S600000 (constant (F := F) S_ .f32 0x3F800000#32))) (broadcastInDim S50000 ![] bcast_S_S50000 (constant (F := F) S_ .f32 0x3F800000#32)))) shapeCasts_S50000_S50000x1 : FVec F S50000x1 .f32) := by
  after_results <;> rfl
theorem ops1_1_v19 : after hostOps1_1 V (Proc.devRef .tc main_v19) = (KDefs.rowv (V (Proc.devRef .tc main_arg7)) : FVec F S1x128 .f32) := by
  after_results <;> rfl
theorem ops1_1_v20 : after hostOps1_1 V (Proc.devRef .tc main_v20) = (KDefs.rowv (V (Proc.devRef .tc main_arg9)) : FVec F S1x128 .f32) := by
  after_results <;> rfl
theorem ops1_1_v21 : after hostOps1_1 V (Proc.devRef .tc main_v21) = (KDefs.rowv (V (Proc.devRef .tc main_arg11)) : FVec F S1x128 .f32) := by
  after_results <;> rfl
theorem ops1_1_v22 : after hostOps1_1 V (Proc.devRef .tc main_v22) = (KDefs.rowv (V (Proc.devRef .tc main_arg12)) : FVec F S1x128 .f32) := by
  after_results <;> rfl
theorem ops1_1_v23 : after hostOps1_1 V (Proc.devRef .tc main_v23) = (KDefs.rowv (V (Proc.devRef .tc main_arg13)) : FVec F S1x128 .f32) := by
  after_results <;> rfl
theorem ops2_v26 : after hostOps2 V (Proc.devRef .tc main_v26) = ((shapeCast S600000 (extractStridedSlice S1x600000 ![0, 0] (V (Proc.devRef .tc main_arg3)) slices_S2x600000_S1x600000_0_0) shapeCasts_S1x600000_S600000) : IVec S600000 32) := by
  after_results <;> rfl
theorem ops2_v28 : after hostOps2 V (Proc.devRef .tc main_v28) = ((shapeCast S600000 (extractStridedSlice S1x600000 ![1, 0] (V (Proc.devRef .tc main_arg3)) slices_S2x600000_S1x600000_1_0) shapeCasts_S1x600000_S600000) : IVec S600000 32) := by
  after_results <;> rfl
theorem ops2_v29 : after hostOps2 V (Proc.devRef .tc main_v29) = (KDefs.rowv (V (Proc.devRef .tc main_arg15)) : FVec F S1x128 .f32) := by
  after_results <;> rfl
set_option maxHeartbeats 1000000 in
theorem ops3_v31 : after hostOps3 V (Proc.devRef .tc main_v31) = (select (broadcastInDim S600000x128 ![0] bcast_S600000_S600000x128_0 (Host.reduce IntOp.andi (andi (cmpi .sge (broadcastInDim S600000x1 ![0] bcast_S600000_S600000x1_0 (select (cmpi .slt (V (Proc.devRef .tc main_v26)) (broadcastInDim S600000 ![] bcast_S_S600000 (constantI S_ 32 0#32))) (addi (V (Proc.devRef .tc main_v26)) (broadcastInDim S600000 ![] bcast_S_S600000 (constantI S_ 32 50000#32))) (V (Proc.devRef .tc main_v26)))) (broadcastInDim S600000x1 ![] bcast_S_S600000x1 (constantI S_ 32 0#32))) (cmpi .sle (broadcastInDim S600000x1 ![0] bcast_S600000_S600000x1_0 (select (cmpi .slt (V (Proc.devRef .tc main_v26)) (broadcastInDim S600000 ![] bcast_S_S600000 (constantI S_ 32 0#32))) (addi (V (Proc.devRef .tc main_v26)) (broadcastInDim S600000 ![] bcast_S_S600000 (constantI S_ 32 50000#32))) (V (Proc.devRef .tc main_v26)))) (broadcastInDim S600000x1 ![0, 1] bcast_S1x1_S600000x1_0_1 (broadcastInDim S1x1 ![1] bcast_S1_S1x1_1 (constantI S1 32 49999#32))))) (constantI S_ 1 1#1) reducesTo_S600000x1_S600000_d1 h_S_)) (Host.gather gather_S50000x128_S600000x1_S600000x128_1_0_n_n_0_1_1128 (V (Proc.devRef .tc main_v30)) (broadcastInDim S600000x1 ![0] bcast_S600000_S600000x1_0 (select (cmpi .slt (V (Proc.devRef .tc main_v26)) (broadcastInDim S600000 ![] bcast_S_S600000 (constantI S_ 32 0#32))) (addi (V (Proc.devRef .tc main_v26)) (broadcastInDim S600000 ![] bcast_S_S600000 (constantI S_ 32 50000#32))) (V (Proc.devRef .tc main_v26))))) (broadcastInDim S600000x128 ![] bcast_S_S600000x128 (constant (F := F) S_ .f32 0x7FC00000#32)) : FVec F S600000x128 .f32) := by
  after_results <;> (try simp only [TRef.ofBuf, TRef.toBuf, cast_eq]) <;> rfl
theorem ops3_1_v34 : after hostOps3_1 V (Proc.devRef .tc main_v34) = (Host.scatterAdd scatter_S200000x128_S600000x1_S600000x128_1_0_0_1 (broadcastInDim S200000x128 ![] bcast_S_S200000x128 (constant (F := F) S_ .f32 0x00000000#32)) (broadcastInDim S600000x1 ![0] bcast_S600000_S600000x1_0 (V (Proc.devRef .tc main_v28))) (V (Proc.devRef .tc main_v31)) : FVec F S200000x128 .f32) := by
  after_results <;> rfl
theorem ops3_1_v43 : after hostOps3_1 V (Proc.devRef .tc main_v43) = (shapeCast S200000x1 (Host.divf (broadcastInDim S200000 ![] bcast_S_S200000 (constant (F := F) S_ .f32 0x3F800000#32)) (maximumf (Host.scatterAdd scatter_S200000_S600000x1_S600000_n_0_0_1 (broadcastInDim S200000 ![] bcast_S_S200000 (constant (F := F) S_ .f32 0x00000000#32)) (broadcastInDim S600000x1 ![0] bcast_S600000_S600000x1_0 (V (Proc.devRef .tc main_v28))) (broadcastInDim S600000 ![] bcast_S_S600000 (constant (F := F) S_ .f32 0x3F800000#32))) (broadcastInDim S200000 ![] bcast_S_S200000 (constant (F := F) S_ .f32 0x3F800000#32)))) shapeCasts_S200000_S200000x1 : FVec F S200000x1 .f32) := by
  after_results <;> rfl
theorem ops3_1_v44 : after hostOps3_1 V (Proc.devRef .tc main_v44) = (KDefs.rowv (V (Proc.devRef .tc main_arg17)) : FVec F S1x128 .f32) := by
  after_results <;> rfl
theorem ops3_1_v45 : after hostOps3_1 V (Proc.devRef .tc main_v45) = (KDefs.rowv (V (Proc.devRef .tc main_arg19)) : FVec F S1x128 .f32) := by
  after_results <;> rfl
theorem ops3_1_v46 : after hostOps3_1 V (Proc.devRef .tc main_v46) = (KDefs.rowv (V (Proc.devRef .tc main_arg21)) : FVec F S1x128 .f32) := by
  after_results <;> rfl
theorem ops3_1_v47 : after hostOps3_1 V (Proc.devRef .tc main_v47) = (KDefs.rowv (V (Proc.devRef .tc main_arg22)) : FVec F S1x128 .f32) := by
  after_results <;> rfl
theorem ops3_1_v48 : after hostOps3_1 V (Proc.devRef .tc main_v48) = (KDefs.rowv (V (Proc.devRef .tc main_arg23)) : FVec F S1x128 .f32) := by
  after_results <;> rfl

end Stretch

/-! # The run's boundaries walked back

`Wk` is the contents at boundary `k` of the run. An argument array is written by no host operation and by no
region (a region reads it through an input window or passes it by), so at every boundary it holds the launch
memory's contents. -/

theorem W1_main_arg0 (c : Dev nD) : W1 m ρ c (Proc.devRef .tc main_arg0) = (m ((c.tc : Thread nD τ).loc main_arg0)) :=
  (keep0 (W0 m ρ c) (r := main_arg0) (by decide)).trans rfl
theorem W2_main_arg0 (c : Dev nD) : W2 m ρ c (Proc.devRef .tc main_arg0) = (m ((c.tc : Thread nD τ).loc main_arg0)) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = (m ((c.tc : Thread nD τ).loc main_arg0)) :=
  (keep1 (W2 m ρ c) (r := main_arg0) (by decide)).trans (W2_main_arg0 m ρ c)
theorem W4_main_arg0 (c : Dev nD) : W4 m ρ c (Proc.devRef .tc main_arg0) = (m ((c.tc : Thread nD τ).loc main_arg0)) :=
  (keep1_1 (W3 m ρ c) (r := main_arg0) (by decide)).trans (W3_main_arg0 m ρ c)
theorem W5_main_arg0 (c : Dev nD) : W5 m ρ c (Proc.devRef .tc main_arg0) = (m ((c.tc : Thread nD τ).loc main_arg0)) :=
  (W5_of_ne m ρ c main_arg0 (by decide)).trans (W4_main_arg0 m ρ c)
theorem W6_main_arg0 (c : Dev nD) : W6 m ρ c (Proc.devRef .tc main_arg0) = (m ((c.tc : Thread nD τ).loc main_arg0)) :=
  (keep2 (W5 m ρ c) (r := main_arg0) (by decide)).trans (W5_main_arg0 m ρ c)
theorem W7_main_arg0 (c : Dev nD) : W7 m ρ c (Proc.devRef .tc main_arg0) = (m ((c.tc : Thread nD τ).loc main_arg0)) :=
  (W7_of_ne m ρ c main_arg0 (by decide)).trans (W6_main_arg0 m ρ c)
theorem W8_main_arg0 (c : Dev nD) : W8 m ρ c (Proc.devRef .tc main_arg0) = (m ((c.tc : Thread nD τ).loc main_arg0)) :=
  (keep3 (W7 m ρ c) (r := main_arg0) (by decide)).trans (W7_main_arg0 m ρ c)
theorem W9_main_arg0 (c : Dev nD) : W9 m ρ c (Proc.devRef .tc main_arg0) = (m ((c.tc : Thread nD τ).loc main_arg0)) :=
  (keep3_1 (W8 m ρ c) (r := main_arg0) (by decide)).trans (W8_main_arg0 m ρ c)
theorem W1_main_arg1 (c : Dev nD) : W1 m ρ c (Proc.devRef .tc main_arg1) = (m ((c.tc : Thread nD τ).loc main_arg1)) :=
  (keep0 (W0 m ρ c) (r := main_arg1) (by decide)).trans rfl
theorem W2_main_arg1 (c : Dev nD) : W2 m ρ c (Proc.devRef .tc main_arg1) = (m ((c.tc : Thread nD τ).loc main_arg1)) :=
  (W2_of_ne m ρ c main_arg1 (by decide)).trans (W1_main_arg1 m ρ c)
theorem W3_main_arg1 (c : Dev nD) : W3 m ρ c (Proc.devRef .tc main_arg1) = (m ((c.tc : Thread nD τ).loc main_arg1)) :=
  (keep1 (W2 m ρ c) (r := main_arg1) (by decide)).trans (W2_main_arg1 m ρ c)
theorem W4_main_arg1 (c : Dev nD) : W4 m ρ c (Proc.devRef .tc main_arg1) = (m ((c.tc : Thread nD τ).loc main_arg1)) :=
  (keep1_1 (W3 m ρ c) (r := main_arg1) (by decide)).trans (W3_main_arg1 m ρ c)
theorem W5_main_arg1 (c : Dev nD) : W5 m ρ c (Proc.devRef .tc main_arg1) = (m ((c.tc : Thread nD τ).loc main_arg1)) :=
  ((W5_arr m ρ c 0).trans (((dat1 (V4 m ρ) c).arrAt_in 0 rfl _).trans (A_eq1 (V4 m ρ) c 0))).trans (W4_main_arg1 m ρ c)
theorem W6_main_arg1 (c : Dev nD) : W6 m ρ c (Proc.devRef .tc main_arg1) = (m ((c.tc : Thread nD τ).loc main_arg1)) :=
  (keep2 (W5 m ρ c) (r := main_arg1) (by decide)).trans (W5_main_arg1 m ρ c)
theorem W1_main_arg3 (c : Dev nD) : W1 m ρ c (Proc.devRef .tc main_arg3) = (m ((c.tc : Thread nD τ).loc main_arg3)) :=
  (keep0 (W0 m ρ c) (r := main_arg3) (by decide)).trans rfl
theorem W2_main_arg3 (c : Dev nD) : W2 m ρ c (Proc.devRef .tc main_arg3) = (m ((c.tc : Thread nD τ).loc main_arg3)) :=
  (W2_of_ne m ρ c main_arg3 (by decide)).trans (W1_main_arg3 m ρ c)
theorem W3_main_arg3 (c : Dev nD) : W3 m ρ c (Proc.devRef .tc main_arg3) = (m ((c.tc : Thread nD τ).loc main_arg3)) :=
  (keep1 (W2 m ρ c) (r := main_arg3) (by decide)).trans (W2_main_arg3 m ρ c)
theorem W4_main_arg3 (c : Dev nD) : W4 m ρ c (Proc.devRef .tc main_arg3) = (m ((c.tc : Thread nD τ).loc main_arg3)) :=
  (keep1_1 (W3 m ρ c) (r := main_arg3) (by decide)).trans (W3_main_arg3 m ρ c)
theorem W5_main_arg3 (c : Dev nD) : W5 m ρ c (Proc.devRef .tc main_arg3) = (m ((c.tc : Thread nD τ).loc main_arg3)) :=
  (W5_of_ne m ρ c main_arg3 (by decide)).trans (W4_main_arg3 m ρ c)
theorem W1_main_arg4 (c : Dev nD) : W1 m ρ c (Proc.devRef .tc main_arg4) = (m ((c.tc : Thread nD τ).loc main_arg4)) :=
  (keep0 (W0 m ρ c) (r := main_arg4) (by decide)).trans rfl
theorem W1_main_arg6 (c : Dev nD) : W1 m ρ c (Proc.devRef .tc main_arg6) = (m ((c.tc : Thread nD τ).loc main_arg6)) :=
  (keep0 (W0 m ρ c) (r := main_arg6) (by decide)).trans rfl
theorem W2_main_arg6 (c : Dev nD) : W2 m ρ c (Proc.devRef .tc main_arg6) = (m ((c.tc : Thread nD τ).loc main_arg6)) :=
  (W2_of_ne m ρ c main_arg6 (by decide)).trans (W1_main_arg6 m ρ c)
theorem W3_main_arg6 (c : Dev nD) : W3 m ρ c (Proc.devRef .tc main_arg6) = (m ((c.tc : Thread nD τ).loc main_arg6)) :=
  (keep1 (W2 m ρ c) (r := main_arg6) (by decide)).trans (W2_main_arg6 m ρ c)
theorem W4_main_arg6 (c : Dev nD) : W4 m ρ c (Proc.devRef .tc main_arg6) = (m ((c.tc : Thread nD τ).loc main_arg6)) :=
  (keep1_1 (W3 m ρ c) (r := main_arg6) (by decide)).trans (W3_main_arg6 m ρ c)
theorem W1_main_arg8 (c : Dev nD) : W1 m ρ c (Proc.devRef .tc main_arg8) = (m ((c.tc : Thread nD τ).loc main_arg8)) :=
  (keep0 (W0 m ρ c) (r := main_arg8) (by decide)).trans rfl
theorem W2_main_arg8 (c : Dev nD) : W2 m ρ c (Proc.devRef .tc main_arg8) = (m ((c.tc : Thread nD τ).loc main_arg8)) :=
  (W2_of_ne m ρ c main_arg8 (by decide)).trans (W1_main_arg8 m ρ c)
theorem W3_main_arg8 (c : Dev nD) : W3 m ρ c (Proc.devRef .tc main_arg8) = (m ((c.tc : Thread nD τ).loc main_arg8)) :=
  (keep1 (W2 m ρ c) (r := main_arg8) (by decide)).trans (W2_main_arg8 m ρ c)
theorem W4_main_arg8 (c : Dev nD) : W4 m ρ c (Proc.devRef .tc main_arg8) = (m ((c.tc : Thread nD τ).loc main_arg8)) :=
  (keep1_1 (W3 m ρ c) (r := main_arg8) (by decide)).trans (W3_main_arg8 m ρ c)
theorem W1_main_arg10 (c : Dev nD) : W1 m ρ c (Proc.devRef .tc main_arg10) = (m ((c.tc : Thread nD τ).loc main_arg10)) :=
  (keep0 (W0 m ρ c) (r := main_arg10) (by decide)).trans rfl
theorem W2_main_arg10 (c : Dev nD) : W2 m ρ c (Proc.devRef .tc main_arg10) = (m ((c.tc : Thread nD τ).loc main_arg10)) :=
  (W2_of_ne m ρ c main_arg10 (by decide)).trans (W1_main_arg10 m ρ c)
theorem W3_main_arg10 (c : Dev nD) : W3 m ρ c (Proc.devRef .tc main_arg10) = (m ((c.tc : Thread nD τ).loc main_arg10)) :=
  (keep1 (W2 m ρ c) (r := main_arg10) (by decide)).trans (W2_main_arg10 m ρ c)
theorem W4_main_arg10 (c : Dev nD) : W4 m ρ c (Proc.devRef .tc main_arg10) = (m ((c.tc : Thread nD τ).loc main_arg10)) :=
  (keep1_1 (W3 m ρ c) (r := main_arg10) (by decide)).trans (W3_main_arg10 m ρ c)
theorem W1_main_arg7 (c : Dev nD) : W1 m ρ c (Proc.devRef .tc main_arg7) = (m ((c.tc : Thread nD τ).loc main_arg7)) :=
  (keep0 (W0 m ρ c) (r := main_arg7) (by decide)).trans rfl
theorem W2_main_arg7 (c : Dev nD) : W2 m ρ c (Proc.devRef .tc main_arg7) = (m ((c.tc : Thread nD τ).loc main_arg7)) :=
  (W2_of_ne m ρ c main_arg7 (by decide)).trans (W1_main_arg7 m ρ c)
theorem W3_main_arg7 (c : Dev nD) : W3 m ρ c (Proc.devRef .tc main_arg7) = (m ((c.tc : Thread nD τ).loc main_arg7)) :=
  (keep1 (W2 m ρ c) (r := main_arg7) (by decide)).trans (W2_main_arg7 m ρ c)
theorem W1_main_arg9 (c : Dev nD) : W1 m ρ c (Proc.devRef .tc main_arg9) = (m ((c.tc : Thread nD τ).loc main_arg9)) :=
  (keep0 (W0 m ρ c) (r := main_arg9) (by decide)).trans rfl
theorem W2_main_arg9 (c : Dev nD) : W2 m ρ c (Proc.devRef .tc main_arg9) = (m ((c.tc : Thread nD τ).loc main_arg9)) :=
  (W2_of_ne m ρ c main_arg9 (by decide)).trans (W1_main_arg9 m ρ c)
theorem W3_main_arg9 (c : Dev nD) : W3 m ρ c (Proc.devRef .tc main_arg9) = (m ((c.tc : Thread nD τ).loc main_arg9)) :=
  (keep1 (W2 m ρ c) (r := main_arg9) (by decide)).trans (W2_main_arg9 m ρ c)
theorem W1_main_arg11 (c : Dev nD) : W1 m ρ c (Proc.devRef .tc main_arg11) = (m ((c.tc : Thread nD τ).loc main_arg11)) :=
  (keep0 (W0 m ρ c) (r := main_arg11) (by decide)).trans rfl
theorem W2_main_arg11 (c : Dev nD) : W2 m ρ c (Proc.devRef .tc main_arg11) = (m ((c.tc : Thread nD τ).loc main_arg11)) :=
  (W2_of_ne m ρ c main_arg11 (by decide)).trans (W1_main_arg11 m ρ c)
theorem W3_main_arg11 (c : Dev nD) : W3 m ρ c (Proc.devRef .tc main_arg11) = (m ((c.tc : Thread nD τ).loc main_arg11)) :=
  (keep1 (W2 m ρ c) (r := main_arg11) (by decide)).trans (W2_main_arg11 m ρ c)
theorem W1_main_arg12 (c : Dev nD) : W1 m ρ c (Proc.devRef .tc main_arg12) = (m ((c.tc : Thread nD τ).loc main_arg12)) :=
  (keep0 (W0 m ρ c) (r := main_arg12) (by decide)).trans rfl
theorem W2_main_arg12 (c : Dev nD) : W2 m ρ c (Proc.devRef .tc main_arg12) = (m ((c.tc : Thread nD τ).loc main_arg12)) :=
  (W2_of_ne m ρ c main_arg12 (by decide)).trans (W1_main_arg12 m ρ c)
theorem W3_main_arg12 (c : Dev nD) : W3 m ρ c (Proc.devRef .tc main_arg12) = (m ((c.tc : Thread nD τ).loc main_arg12)) :=
  (keep1 (W2 m ρ c) (r := main_arg12) (by decide)).trans (W2_main_arg12 m ρ c)
theorem W1_main_arg13 (c : Dev nD) : W1 m ρ c (Proc.devRef .tc main_arg13) = (m ((c.tc : Thread nD τ).loc main_arg13)) :=
  (keep0 (W0 m ρ c) (r := main_arg13) (by decide)).trans rfl
theorem W2_main_arg13 (c : Dev nD) : W2 m ρ c (Proc.devRef .tc main_arg13) = (m ((c.tc : Thread nD τ).loc main_arg13)) :=
  (W2_of_ne m ρ c main_arg13 (by decide)).trans (W1_main_arg13 m ρ c)
theorem W3_main_arg13 (c : Dev nD) : W3 m ρ c (Proc.devRef .tc main_arg13) = (m ((c.tc : Thread nD τ).loc main_arg13)) :=
  (keep1 (W2 m ρ c) (r := main_arg13) (by decide)).trans (W2_main_arg13 m ρ c)
theorem W1_main_arg14 (c : Dev nD) : W1 m ρ c (Proc.devRef .tc main_arg14) = (m ((c.tc : Thread nD τ).loc main_arg14)) :=
  (keep0 (W0 m ρ c) (r := main_arg14) (by decide)).trans rfl
theorem W2_main_arg14 (c : Dev nD) : W2 m ρ c (Proc.devRef .tc main_arg14) = (m ((c.tc : Thread nD τ).loc main_arg14)) :=
  (W2_of_ne m ρ c main_arg14 (by decide)).trans (W1_main_arg14 m ρ c)
theorem W3_main_arg14 (c : Dev nD) : W3 m ρ c (Proc.devRef .tc main_arg14) = (m ((c.tc : Thread nD τ).loc main_arg14)) :=
  (keep1 (W2 m ρ c) (r := main_arg14) (by decide)).trans (W2_main_arg14 m ρ c)
theorem W4_main_arg14 (c : Dev nD) : W4 m ρ c (Proc.devRef .tc main_arg14) = (m ((c.tc : Thread nD τ).loc main_arg14)) :=
  (keep1_1 (W3 m ρ c) (r := main_arg14) (by decide)).trans (W3_main_arg14 m ρ c)
theorem W5_main_arg14 (c : Dev nD) : W5 m ρ c (Proc.devRef .tc main_arg14) = (m ((c.tc : Thread nD τ).loc main_arg14)) :=
  (W5_of_ne m ρ c main_arg14 (by decide)).trans (W4_main_arg14 m ρ c)
theorem W6_main_arg14 (c : Dev nD) : W6 m ρ c (Proc.devRef .tc main_arg14) = (m ((c.tc : Thread nD τ).loc main_arg14)) :=
  (keep2 (W5 m ρ c) (r := main_arg14) (by decide)).trans (W5_main_arg14 m ρ c)
theorem W1_main_arg15 (c : Dev nD) : W1 m ρ c (Proc.devRef .tc main_arg15) = (m ((c.tc : Thread nD τ).loc main_arg15)) :=
  (keep0 (W0 m ρ c) (r := main_arg15) (by decide)).trans rfl
theorem W2_main_arg15 (c : Dev nD) : W2 m ρ c (Proc.devRef .tc main_arg15) = (m ((c.tc : Thread nD τ).loc main_arg15)) :=
  (W2_of_ne m ρ c main_arg15 (by decide)).trans (W1_main_arg15 m ρ c)
theorem W3_main_arg15 (c : Dev nD) : W3 m ρ c (Proc.devRef .tc main_arg15) = (m ((c.tc : Thread nD τ).loc main_arg15)) :=
  (keep1 (W2 m ρ c) (r := main_arg15) (by decide)).trans (W2_main_arg15 m ρ c)
theorem W4_main_arg15 (c : Dev nD) : W4 m ρ c (Proc.devRef .tc main_arg15) = (m ((c.tc : Thread nD τ).loc main_arg15)) :=
  (keep1_1 (W3 m ρ c) (r := main_arg15) (by decide)).trans (W3_main_arg15 m ρ c)
theorem W5_main_arg15 (c : Dev nD) : W5 m ρ c (Proc.devRef .tc main_arg15) = (m ((c.tc : Thread nD τ).loc main_arg15)) :=
  (W5_of_ne m ρ c main_arg15 (by decide)).trans (W4_main_arg15 m ρ c)
theorem W1_main_arg16 (c : Dev nD) : W1 m ρ c (Proc.devRef .tc main_arg16) = (m ((c.tc : Thread nD τ).loc main_arg16)) :=
  (keep0 (W0 m ρ c) (r := main_arg16) (by decide)).trans rfl
theorem W2_main_arg16 (c : Dev nD) : W2 m ρ c (Proc.devRef .tc main_arg16) = (m ((c.tc : Thread nD τ).loc main_arg16)) :=
  (W2_of_ne m ρ c main_arg16 (by decide)).trans (W1_main_arg16 m ρ c)
theorem W3_main_arg16 (c : Dev nD) : W3 m ρ c (Proc.devRef .tc main_arg16) = (m ((c.tc : Thread nD τ).loc main_arg16)) :=
  (keep1 (W2 m ρ c) (r := main_arg16) (by decide)).trans (W2_main_arg16 m ρ c)
theorem W4_main_arg16 (c : Dev nD) : W4 m ρ c (Proc.devRef .tc main_arg16) = (m ((c.tc : Thread nD τ).loc main_arg16)) :=
  (keep1_1 (W3 m ρ c) (r := main_arg16) (by decide)).trans (W3_main_arg16 m ρ c)
theorem W5_main_arg16 (c : Dev nD) : W5 m ρ c (Proc.devRef .tc main_arg16) = (m ((c.tc : Thread nD τ).loc main_arg16)) :=
  (W5_of_ne m ρ c main_arg16 (by decide)).trans (W4_main_arg16 m ρ c)
theorem W6_main_arg16 (c : Dev nD) : W6 m ρ c (Proc.devRef .tc main_arg16) = (m ((c.tc : Thread nD τ).loc main_arg16)) :=
  (keep2 (W5 m ρ c) (r := main_arg16) (by decide)).trans (W5_main_arg16 m ρ c)
theorem W7_main_arg16 (c : Dev nD) : W7 m ρ c (Proc.devRef .tc main_arg16) = (m ((c.tc : Thread nD τ).loc main_arg16)) :=
  (W7_of_ne m ρ c main_arg16 (by decide)).trans (W6_main_arg16 m ρ c)
theorem W8_main_arg16 (c : Dev nD) : W8 m ρ c (Proc.devRef .tc main_arg16) = (m ((c.tc : Thread nD τ).loc main_arg16)) :=
  (keep3 (W7 m ρ c) (r := main_arg16) (by decide)).trans (W7_main_arg16 m ρ c)
theorem W9_main_arg16 (c : Dev nD) : W9 m ρ c (Proc.devRef .tc main_arg16) = (m ((c.tc : Thread nD τ).loc main_arg16)) :=
  (keep3_1 (W8 m ρ c) (r := main_arg16) (by decide)).trans (W8_main_arg16 m ρ c)
theorem W1_main_arg18 (c : Dev nD) : W1 m ρ c (Proc.devRef .tc main_arg18) = (m ((c.tc : Thread nD τ).loc main_arg18)) :=
  (keep0 (W0 m ρ c) (r := main_arg18) (by decide)).trans rfl
theorem W2_main_arg18 (c : Dev nD) : W2 m ρ c (Proc.devRef .tc main_arg18) = (m ((c.tc : Thread nD τ).loc main_arg18)) :=
  (W2_of_ne m ρ c main_arg18 (by decide)).trans (W1_main_arg18 m ρ c)
theorem W3_main_arg18 (c : Dev nD) : W3 m ρ c (Proc.devRef .tc main_arg18) = (m ((c.tc : Thread nD τ).loc main_arg18)) :=
  (keep1 (W2 m ρ c) (r := main_arg18) (by decide)).trans (W2_main_arg18 m ρ c)
theorem W4_main_arg18 (c : Dev nD) : W4 m ρ c (Proc.devRef .tc main_arg18) = (m ((c.tc : Thread nD τ).loc main_arg18)) :=
  (keep1_1 (W3 m ρ c) (r := main_arg18) (by decide)).trans (W3_main_arg18 m ρ c)
theorem W5_main_arg18 (c : Dev nD) : W5 m ρ c (Proc.devRef .tc main_arg18) = (m ((c.tc : Thread nD τ).loc main_arg18)) :=
  (W5_of_ne m ρ c main_arg18 (by decide)).trans (W4_main_arg18 m ρ c)
theorem W6_main_arg18 (c : Dev nD) : W6 m ρ c (Proc.devRef .tc main_arg18) = (m ((c.tc : Thread nD τ).loc main_arg18)) :=
  (keep2 (W5 m ρ c) (r := main_arg18) (by decide)).trans (W5_main_arg18 m ρ c)
theorem W7_main_arg18 (c : Dev nD) : W7 m ρ c (Proc.devRef .tc main_arg18) = (m ((c.tc : Thread nD τ).loc main_arg18)) :=
  (W7_of_ne m ρ c main_arg18 (by decide)).trans (W6_main_arg18 m ρ c)
theorem W8_main_arg18 (c : Dev nD) : W8 m ρ c (Proc.devRef .tc main_arg18) = (m ((c.tc : Thread nD τ).loc main_arg18)) :=
  (keep3 (W7 m ρ c) (r := main_arg18) (by decide)).trans (W7_main_arg18 m ρ c)
theorem W9_main_arg18 (c : Dev nD) : W9 m ρ c (Proc.devRef .tc main_arg18) = (m ((c.tc : Thread nD τ).loc main_arg18)) :=
  (keep3_1 (W8 m ρ c) (r := main_arg18) (by decide)).trans (W8_main_arg18 m ρ c)
theorem W1_main_arg20 (c : Dev nD) : W1 m ρ c (Proc.devRef .tc main_arg20) = (m ((c.tc : Thread nD τ).loc main_arg20)) :=
  (keep0 (W0 m ρ c) (r := main_arg20) (by decide)).trans rfl
theorem W2_main_arg20 (c : Dev nD) : W2 m ρ c (Proc.devRef .tc main_arg20) = (m ((c.tc : Thread nD τ).loc main_arg20)) :=
  (W2_of_ne m ρ c main_arg20 (by decide)).trans (W1_main_arg20 m ρ c)
theorem W3_main_arg20 (c : Dev nD) : W3 m ρ c (Proc.devRef .tc main_arg20) = (m ((c.tc : Thread nD τ).loc main_arg20)) :=
  (keep1 (W2 m ρ c) (r := main_arg20) (by decide)).trans (W2_main_arg20 m ρ c)
theorem W4_main_arg20 (c : Dev nD) : W4 m ρ c (Proc.devRef .tc main_arg20) = (m ((c.tc : Thread nD τ).loc main_arg20)) :=
  (keep1_1 (W3 m ρ c) (r := main_arg20) (by decide)).trans (W3_main_arg20 m ρ c)
theorem W5_main_arg20 (c : Dev nD) : W5 m ρ c (Proc.devRef .tc main_arg20) = (m ((c.tc : Thread nD τ).loc main_arg20)) :=
  (W5_of_ne m ρ c main_arg20 (by decide)).trans (W4_main_arg20 m ρ c)
theorem W6_main_arg20 (c : Dev nD) : W6 m ρ c (Proc.devRef .tc main_arg20) = (m ((c.tc : Thread nD τ).loc main_arg20)) :=
  (keep2 (W5 m ρ c) (r := main_arg20) (by decide)).trans (W5_main_arg20 m ρ c)
theorem W7_main_arg20 (c : Dev nD) : W7 m ρ c (Proc.devRef .tc main_arg20) = (m ((c.tc : Thread nD τ).loc main_arg20)) :=
  (W7_of_ne m ρ c main_arg20 (by decide)).trans (W6_main_arg20 m ρ c)
theorem W8_main_arg20 (c : Dev nD) : W8 m ρ c (Proc.devRef .tc main_arg20) = (m ((c.tc : Thread nD τ).loc main_arg20)) :=
  (keep3 (W7 m ρ c) (r := main_arg20) (by decide)).trans (W7_main_arg20 m ρ c)
theorem W9_main_arg20 (c : Dev nD) : W9 m ρ c (Proc.devRef .tc main_arg20) = (m ((c.tc : Thread nD τ).loc main_arg20)) :=
  (keep3_1 (W8 m ρ c) (r := main_arg20) (by decide)).trans (W8_main_arg20 m ρ c)
theorem W1_main_arg17 (c : Dev nD) : W1 m ρ c (Proc.devRef .tc main_arg17) = (m ((c.tc : Thread nD τ).loc main_arg17)) :=
  (keep0 (W0 m ρ c) (r := main_arg17) (by decide)).trans rfl
theorem W2_main_arg17 (c : Dev nD) : W2 m ρ c (Proc.devRef .tc main_arg17) = (m ((c.tc : Thread nD τ).loc main_arg17)) :=
  (W2_of_ne m ρ c main_arg17 (by decide)).trans (W1_main_arg17 m ρ c)
theorem W3_main_arg17 (c : Dev nD) : W3 m ρ c (Proc.devRef .tc main_arg17) = (m ((c.tc : Thread nD τ).loc main_arg17)) :=
  (keep1 (W2 m ρ c) (r := main_arg17) (by decide)).trans (W2_main_arg17 m ρ c)
theorem W4_main_arg17 (c : Dev nD) : W4 m ρ c (Proc.devRef .tc main_arg17) = (m ((c.tc : Thread nD τ).loc main_arg17)) :=
  (keep1_1 (W3 m ρ c) (r := main_arg17) (by decide)).trans (W3_main_arg17 m ρ c)
theorem W5_main_arg17 (c : Dev nD) : W5 m ρ c (Proc.devRef .tc main_arg17) = (m ((c.tc : Thread nD τ).loc main_arg17)) :=
  (W5_of_ne m ρ c main_arg17 (by decide)).trans (W4_main_arg17 m ρ c)
theorem W6_main_arg17 (c : Dev nD) : W6 m ρ c (Proc.devRef .tc main_arg17) = (m ((c.tc : Thread nD τ).loc main_arg17)) :=
  (keep2 (W5 m ρ c) (r := main_arg17) (by decide)).trans (W5_main_arg17 m ρ c)
theorem W7_main_arg17 (c : Dev nD) : W7 m ρ c (Proc.devRef .tc main_arg17) = (m ((c.tc : Thread nD τ).loc main_arg17)) :=
  (W7_of_ne m ρ c main_arg17 (by decide)).trans (W6_main_arg17 m ρ c)
theorem W8_main_arg17 (c : Dev nD) : W8 m ρ c (Proc.devRef .tc main_arg17) = (m ((c.tc : Thread nD τ).loc main_arg17)) :=
  (keep3 (W7 m ρ c) (r := main_arg17) (by decide)).trans (W7_main_arg17 m ρ c)
theorem W1_main_arg19 (c : Dev nD) : W1 m ρ c (Proc.devRef .tc main_arg19) = (m ((c.tc : Thread nD τ).loc main_arg19)) :=
  (keep0 (W0 m ρ c) (r := main_arg19) (by decide)).trans rfl
theorem W2_main_arg19 (c : Dev nD) : W2 m ρ c (Proc.devRef .tc main_arg19) = (m ((c.tc : Thread nD τ).loc main_arg19)) :=
  (W2_of_ne m ρ c main_arg19 (by decide)).trans (W1_main_arg19 m ρ c)
theorem W3_main_arg19 (c : Dev nD) : W3 m ρ c (Proc.devRef .tc main_arg19) = (m ((c.tc : Thread nD τ).loc main_arg19)) :=
  (keep1 (W2 m ρ c) (r := main_arg19) (by decide)).trans (W2_main_arg19 m ρ c)
theorem W4_main_arg19 (c : Dev nD) : W4 m ρ c (Proc.devRef .tc main_arg19) = (m ((c.tc : Thread nD τ).loc main_arg19)) :=
  (keep1_1 (W3 m ρ c) (r := main_arg19) (by decide)).trans (W3_main_arg19 m ρ c)
theorem W5_main_arg19 (c : Dev nD) : W5 m ρ c (Proc.devRef .tc main_arg19) = (m ((c.tc : Thread nD τ).loc main_arg19)) :=
  (W5_of_ne m ρ c main_arg19 (by decide)).trans (W4_main_arg19 m ρ c)
theorem W6_main_arg19 (c : Dev nD) : W6 m ρ c (Proc.devRef .tc main_arg19) = (m ((c.tc : Thread nD τ).loc main_arg19)) :=
  (keep2 (W5 m ρ c) (r := main_arg19) (by decide)).trans (W5_main_arg19 m ρ c)
theorem W7_main_arg19 (c : Dev nD) : W7 m ρ c (Proc.devRef .tc main_arg19) = (m ((c.tc : Thread nD τ).loc main_arg19)) :=
  (W7_of_ne m ρ c main_arg19 (by decide)).trans (W6_main_arg19 m ρ c)
theorem W8_main_arg19 (c : Dev nD) : W8 m ρ c (Proc.devRef .tc main_arg19) = (m ((c.tc : Thread nD τ).loc main_arg19)) :=
  (keep3 (W7 m ρ c) (r := main_arg19) (by decide)).trans (W7_main_arg19 m ρ c)
theorem W1_main_arg21 (c : Dev nD) : W1 m ρ c (Proc.devRef .tc main_arg21) = (m ((c.tc : Thread nD τ).loc main_arg21)) :=
  (keep0 (W0 m ρ c) (r := main_arg21) (by decide)).trans rfl
theorem W2_main_arg21 (c : Dev nD) : W2 m ρ c (Proc.devRef .tc main_arg21) = (m ((c.tc : Thread nD τ).loc main_arg21)) :=
  (W2_of_ne m ρ c main_arg21 (by decide)).trans (W1_main_arg21 m ρ c)
theorem W3_main_arg21 (c : Dev nD) : W3 m ρ c (Proc.devRef .tc main_arg21) = (m ((c.tc : Thread nD τ).loc main_arg21)) :=
  (keep1 (W2 m ρ c) (r := main_arg21) (by decide)).trans (W2_main_arg21 m ρ c)
theorem W4_main_arg21 (c : Dev nD) : W4 m ρ c (Proc.devRef .tc main_arg21) = (m ((c.tc : Thread nD τ).loc main_arg21)) :=
  (keep1_1 (W3 m ρ c) (r := main_arg21) (by decide)).trans (W3_main_arg21 m ρ c)
theorem W5_main_arg21 (c : Dev nD) : W5 m ρ c (Proc.devRef .tc main_arg21) = (m ((c.tc : Thread nD τ).loc main_arg21)) :=
  (W5_of_ne m ρ c main_arg21 (by decide)).trans (W4_main_arg21 m ρ c)
theorem W6_main_arg21 (c : Dev nD) : W6 m ρ c (Proc.devRef .tc main_arg21) = (m ((c.tc : Thread nD τ).loc main_arg21)) :=
  (keep2 (W5 m ρ c) (r := main_arg21) (by decide)).trans (W5_main_arg21 m ρ c)
theorem W7_main_arg21 (c : Dev nD) : W7 m ρ c (Proc.devRef .tc main_arg21) = (m ((c.tc : Thread nD τ).loc main_arg21)) :=
  (W7_of_ne m ρ c main_arg21 (by decide)).trans (W6_main_arg21 m ρ c)
theorem W8_main_arg21 (c : Dev nD) : W8 m ρ c (Proc.devRef .tc main_arg21) = (m ((c.tc : Thread nD τ).loc main_arg21)) :=
  (keep3 (W7 m ρ c) (r := main_arg21) (by decide)).trans (W7_main_arg21 m ρ c)
theorem W1_main_arg22 (c : Dev nD) : W1 m ρ c (Proc.devRef .tc main_arg22) = (m ((c.tc : Thread nD τ).loc main_arg22)) :=
  (keep0 (W0 m ρ c) (r := main_arg22) (by decide)).trans rfl
theorem W2_main_arg22 (c : Dev nD) : W2 m ρ c (Proc.devRef .tc main_arg22) = (m ((c.tc : Thread nD τ).loc main_arg22)) :=
  (W2_of_ne m ρ c main_arg22 (by decide)).trans (W1_main_arg22 m ρ c)
theorem W3_main_arg22 (c : Dev nD) : W3 m ρ c (Proc.devRef .tc main_arg22) = (m ((c.tc : Thread nD τ).loc main_arg22)) :=
  (keep1 (W2 m ρ c) (r := main_arg22) (by decide)).trans (W2_main_arg22 m ρ c)
theorem W4_main_arg22 (c : Dev nD) : W4 m ρ c (Proc.devRef .tc main_arg22) = (m ((c.tc : Thread nD τ).loc main_arg22)) :=
  (keep1_1 (W3 m ρ c) (r := main_arg22) (by decide)).trans (W3_main_arg22 m ρ c)
theorem W5_main_arg22 (c : Dev nD) : W5 m ρ c (Proc.devRef .tc main_arg22) = (m ((c.tc : Thread nD τ).loc main_arg22)) :=
  (W5_of_ne m ρ c main_arg22 (by decide)).trans (W4_main_arg22 m ρ c)
theorem W6_main_arg22 (c : Dev nD) : W6 m ρ c (Proc.devRef .tc main_arg22) = (m ((c.tc : Thread nD τ).loc main_arg22)) :=
  (keep2 (W5 m ρ c) (r := main_arg22) (by decide)).trans (W5_main_arg22 m ρ c)
theorem W7_main_arg22 (c : Dev nD) : W7 m ρ c (Proc.devRef .tc main_arg22) = (m ((c.tc : Thread nD τ).loc main_arg22)) :=
  (W7_of_ne m ρ c main_arg22 (by decide)).trans (W6_main_arg22 m ρ c)
theorem W8_main_arg22 (c : Dev nD) : W8 m ρ c (Proc.devRef .tc main_arg22) = (m ((c.tc : Thread nD τ).loc main_arg22)) :=
  (keep3 (W7 m ρ c) (r := main_arg22) (by decide)).trans (W7_main_arg22 m ρ c)
theorem W1_main_arg23 (c : Dev nD) : W1 m ρ c (Proc.devRef .tc main_arg23) = (m ((c.tc : Thread nD τ).loc main_arg23)) :=
  (keep0 (W0 m ρ c) (r := main_arg23) (by decide)).trans rfl
theorem W2_main_arg23 (c : Dev nD) : W2 m ρ c (Proc.devRef .tc main_arg23) = (m ((c.tc : Thread nD τ).loc main_arg23)) :=
  (W2_of_ne m ρ c main_arg23 (by decide)).trans (W1_main_arg23 m ρ c)
theorem W3_main_arg23 (c : Dev nD) : W3 m ρ c (Proc.devRef .tc main_arg23) = (m ((c.tc : Thread nD τ).loc main_arg23)) :=
  (keep1 (W2 m ρ c) (r := main_arg23) (by decide)).trans (W2_main_arg23 m ρ c)
theorem W4_main_arg23 (c : Dev nD) : W4 m ρ c (Proc.devRef .tc main_arg23) = (m ((c.tc : Thread nD τ).loc main_arg23)) :=
  (keep1_1 (W3 m ρ c) (r := main_arg23) (by decide)).trans (W3_main_arg23 m ρ c)
theorem W5_main_arg23 (c : Dev nD) : W5 m ρ c (Proc.devRef .tc main_arg23) = (m ((c.tc : Thread nD τ).loc main_arg23)) :=
  (W5_of_ne m ρ c main_arg23 (by decide)).trans (W4_main_arg23 m ρ c)
theorem W6_main_arg23 (c : Dev nD) : W6 m ρ c (Proc.devRef .tc main_arg23) = (m ((c.tc : Thread nD τ).loc main_arg23)) :=
  (keep2 (W5 m ρ c) (r := main_arg23) (by decide)).trans (W5_main_arg23 m ρ c)
theorem W7_main_arg23 (c : Dev nD) : W7 m ρ c (Proc.devRef .tc main_arg23) = (m ((c.tc : Thread nD τ).loc main_arg23)) :=
  (W7_of_ne m ρ c main_arg23 (by decide)).trans (W6_main_arg23 m ρ c)
theorem W8_main_arg23 (c : Dev nD) : W8 m ρ c (Proc.devRef .tc main_arg23) = (m ((c.tc : Thread nD τ).loc main_arg23)) :=
  (keep3 (W7 m ρ c) (r := main_arg23) (by decide)).trans (W7_main_arg23 m ρ c)

/-! # The two results -/

/-- The bottom-up result is what region 1's write-backs leave in its output array: nothing after region 1 writes it. -/
theorem upper_eq (c : Dev nD) : W10 m ρ c (Proc.devRef .tc main_v24) = (dat1 (V4 m ρ) c).arrAt 11 cfg1.N :=
  (W10_of_ne m ρ c main_v24 (by decide)).trans ((keep3_1 (W8 m ρ c) (r := main_v24) (by decide)).trans ((keep3 (W7 m ρ c) (r := main_v24) (by decide)).trans
    ((W7_of_ne m ρ c main_v24 (by decide)).trans ((keep2 (W5 m ρ c) (r := main_v24) (by decide)).trans (W5_arr m ρ c 11)))))

/-- The top-down result is what region 3's write-backs leave in its output array. -/
theorem lower_eq (c : Dev nD) : W10 m ρ c (Proc.devRef .tc main_v49) = (dat3 (V9 m ρ) c).arrAt 11 cfg3.N :=
  W10_arr m ρ c 11

/-! # Region 0's entry -/

theorem V1_main_arg0 (c : Dev nD) : V1 m ρ c main_arg0 = (m ((c.tc : Thread nD τ).loc main_arg0)) := W1_main_arg0 m ρ c
theorem V1_main_arg4 (c : Dev nD) : V1 m ρ c main_arg4 = (m ((c.tc : Thread nD τ).loc main_arg4)) := W1_main_arg4 m ρ c
theorem V1_main_v4 (c : Dev nD) : V1 m ρ c main_v4 = KDefs.rowv (m ((c.tc : Thread nD τ).loc main_arg5)) := ops0_v4 (W0 m ρ c)

/-! # Region 1's entry -/

/-- Row 0 of the bottom-up edge list, at the boundaries before region 1. -/
theorem W1_main_v1 (c : Dev nD) : W1 m ρ c (Proc.devRef .tc main_v1) = ((shapeCast S600000 (extractStridedSlice S1x600000 ![0, 0] (m ((c.tc : Thread nD τ).loc main_arg2)) slices_S2x600000_S1x600000_0_0) shapeCasts_S1x600000_S600000) : IVec S600000 32) :=
  ops0_v1 (W0 m ρ c)
theorem W2_main_v1 (c : Dev nD) : W2 m ρ c (Proc.devRef .tc main_v1) = ((shapeCast S600000 (extractStridedSlice S1x600000 ![0, 0] (m ((c.tc : Thread nD τ).loc main_arg2)) slices_S2x600000_S1x600000_0_0) shapeCasts_S1x600000_S600000) : IVec S600000 32) :=
  (W2_of_ne m ρ c main_v1 (by decide)).trans (W1_main_v1 m ρ c)
/-- Row 1 of the bottom-up edge list. -/
theorem W1_main_v3 (c : Dev nD) : W1 m ρ c (Proc.devRef .tc main_v3) = ((shapeCast S600000 (extractStridedSlice S1x600000 ![1, 0] (m ((c.tc : Thread nD τ).loc main_arg2)) slices_S2x600000_S1x600000_1_0) shapeCasts_S1x600000_S600000) : IVec S600000 32) :=
  ops0_v3 (W0 m ρ c)
theorem W3_main_v3 (c : Dev nD) : W3 m ρ c (Proc.devRef .tc main_v3) = ((shapeCast S600000 (extractStridedSlice S1x600000 ![1, 0] (m ((c.tc : Thread nD τ).loc main_arg2)) slices_S2x600000_S1x600000_1_0) shapeCasts_S1x600000_S600000) : IVec S600000 32) :=
  (keep1 (W2 m ρ c) (r := main_v3) (by decide)).trans ((W2_of_ne m ρ c main_v3 (by decide)).trans (W1_main_v3 m ρ c))
/-- Region 0's output array after region 0. -/
theorem W2_main_v5 (c : Dev nD) : W2 m ρ c (Proc.devRef .tc main_v5) = (dat0 (V1 m ρ) c).arrAt 3 cfg0.N := W2_arr m ρ c 3
/-- The looked-up rows of region 0's output. -/
theorem W3_main_v6 (c : Dev nD) : W3 m ρ c (Proc.devRef .tc main_v6)
    = KDefs.takeU ((dat0 (V1 m ρ) c).arrAt 3 cfg0.N) (m ((c.tc : Thread nD τ).loc main_arg2)) :=
  (ops1_v6 (W2 m ρ c)).trans (by rw [W2_main_v5, W2_main_v1]; rfl)

theorem V4_main_arg1 (c : Dev nD) : V4 m ρ c main_arg1 = (m ((c.tc : Thread nD τ).loc main_arg1)) := W4_main_arg1 m ρ c
theorem V4_main_v9 (c : Dev nD) : V4 m ρ c main_v9
    = KDefs.aggU (KDefs.takeU ((dat0 (V1 m ρ) c).arrAt 3 cfg0.N) (m ((c.tc : Thread nD τ).loc main_arg2))) (m ((c.tc : Thread nD τ).loc main_arg2)) :=
  (ops1_1_v9 (W3 m ρ c)).trans (by rw [W3_main_v3, W3_main_v6]; rfl)
theorem V4_main_v18 (c : Dev nD) : V4 m ρ c main_v18 = KDefs.invU (m ((c.tc : Thread nD τ).loc main_arg2)) :=
  (ops1_1_v18 (W3 m ρ c)).trans (by rw [W3_main_v3]; rfl)
theorem V4_main_arg6 (c : Dev nD) : V4 m ρ c main_arg6 = (m ((c.tc : Thread nD τ).loc main_arg6)) := W4_main_arg6 m ρ c
theorem V4_main_arg8 (c : Dev nD) : V4 m ρ c main_arg8 = (m ((c.tc : Thread nD τ).loc main_arg8)) := W4_main_arg8 m ρ c
theorem V4_main_arg10 (c : Dev nD) : V4 m ρ c main_arg10 = (m ((c.tc : Thread nD τ).loc main_arg10)) := W4_main_arg10 m ρ c
theorem V4_main_v19 (c : Dev nD) : V4 m ρ c main_v19 = KDefs.rowv (m ((c.tc : Thread nD τ).loc main_arg7)) :=
  (ops1_1_v19 (W3 m ρ c)).trans (congrArg KDefs.rowv (W3_main_arg7 m ρ c))
theorem V4_main_v20 (c : Dev nD) : V4 m ρ c main_v20 = KDefs.rowv (m ((c.tc : Thread nD τ).loc main_arg9)) :=
  (ops1_1_v20 (W3 m ρ c)).trans (congrArg KDefs.rowv (W3_main_arg9 m ρ c))
theorem V4_main_v21 (c : Dev nD) : V4 m ρ c main_v21 = KDefs.rowv (m ((c.tc : Thread nD τ).loc main_arg11)) :=
  (ops1_1_v21 (W3 m ρ c)).trans (congrArg KDefs.rowv (W3_main_arg11 m ρ c))
theorem V4_main_v22 (c : Dev nD) : V4 m ρ c main_v22 = KDefs.rowv (m ((c.tc : Thread nD τ).loc main_arg12)) :=
  (ops1_1_v22 (W3 m ρ c)).trans (congrArg KDefs.rowv (W3_main_arg12 m ρ c))
theorem V4_main_v23 (c : Dev nD) : V4 m ρ c main_v23 = KDefs.rowv (m ((c.tc : Thread nD τ).loc main_arg13)) :=
  (ops1_1_v23 (W3 m ρ c)).trans (congrArg KDefs.rowv (W3_main_arg13 m ρ c))

/-! # Region 2's entry -/

theorem V6_main_arg1 (c : Dev nD) : V6 m ρ c main_arg1 = (m ((c.tc : Thread nD τ).loc main_arg1)) := W6_main_arg1 m ρ c
theorem V6_main_arg14 (c : Dev nD) : V6 m ρ c main_arg14 = (m ((c.tc : Thread nD τ).loc main_arg14)) := W6_main_arg14 m ρ c
theorem V6_main_v29 (c : Dev nD) : V6 m ρ c main_v29 = KDefs.rowv (m ((c.tc : Thread nD τ).loc main_arg15)) :=
  (ops2_v29 (W5 m ρ c)).trans (congrArg KDefs.rowv (W5_main_arg15 m ρ c))

/-! # Region 3's entry -/

/-- Row 0 of the top-down edge list, at the boundaries before region 3. -/
theorem W6_main_v26 (c : Dev nD) : W6 m ρ c (Proc.devRef .tc main_v26) = ((shapeCast S600000 (extractStridedSlice S1x600000 ![0, 0] (m ((c.tc : Thread nD τ).loc main_arg3)) slices_S2x600000_S1x600000_0_0) shapeCasts_S1x600000_S600000) : IVec S600000 32) :=
  (ops2_v26 (W5 m ρ c)).trans (by rw [W5_main_arg3])
theorem W7_main_v26 (c : Dev nD) : W7 m ρ c (Proc.devRef .tc main_v26) = ((shapeCast S600000 (extractStridedSlice S1x600000 ![0, 0] (m ((c.tc : Thread nD τ).loc main_arg3)) slices_S2x600000_S1x600000_0_0) shapeCasts_S1x600000_S600000) : IVec S600000 32) :=
  (W7_of_ne m ρ c main_v26 (by decide)).trans (W6_main_v26 m ρ c)
/-- Row 1 of the top-down edge list. -/
theorem W6_main_v28 (c : Dev nD) : W6 m ρ c (Proc.devRef .tc main_v28) = ((shapeCast S600000 (extractStridedSlice S1x600000 ![1, 0] (m ((c.tc : Thread nD τ).loc main_arg3)) slices_S2x600000_S1x600000_1_0) shapeCasts_S1x600000_S600000) : IVec S600000 32) :=
  (ops2_v28 (W5 m ρ c)).trans (by rw [W5_main_arg3])
theorem W8_main_v28 (c : Dev nD) : W8 m ρ c (Proc.devRef .tc main_v28) = ((shapeCast S600000 (extractStridedSlice S1x600000 ![1, 0] (m ((c.tc : Thread nD τ).loc main_arg3)) slices_S2x600000_S1x600000_1_0) shapeCasts_S1x600000_S600000) : IVec S600000 32) :=
  (keep3 (W7 m ρ c) (r := main_v28) (by decide)).trans ((W7_of_ne m ρ c main_v28 (by decide)).trans (W6_main_v28 m ρ c))
/-- Region 2's output array after region 2. -/
theorem W7_main_v30 (c : Dev nD) : W7 m ρ c (Proc.devRef .tc main_v30) = (dat2 (V6 m ρ) c).arrAt 3 cfg2.N := W7_arr m ρ c 3
/-- The looked-up rows of region 2's output. -/
theorem W8_main_v31 (c : Dev nD) : W8 m ρ c (Proc.devRef .tc main_v31)
    = KDefs.takeL ((dat2 (V6 m ρ) c).arrAt 3 cfg2.N) (m ((c.tc : Thread nD τ).loc main_arg3)) :=
  (ops3_v31 (W7 m ρ c)).trans (by rw [W7_main_v30, W7_main_v26]; rfl)

theorem V9_main_arg0 (c : Dev nD) : V9 m ρ c main_arg0 = (m ((c.tc : Thread nD τ).loc main_arg0)) := W9_main_arg0 m ρ c
theorem V9_main_v34 (c : Dev nD) : V9 m ρ c main_v34
    = KDefs.aggL (KDefs.takeL ((dat2 (V6 m ρ) c).arrAt 3 cfg2.N) (m ((c.tc : Thread nD τ).loc main_arg3))) (m ((c.tc : Thread nD τ).loc main_arg3)) :=
  (ops3_1_v34 (W8 m ρ c)).trans (by rw [W8_main_v28, W8_main_v31]; rfl)
theorem V9_main_v43 (c : Dev nD) : V9 m ρ c main_v43 = KDefs.invL (m ((c.tc : Thread nD τ).loc main_arg3)) :=
  (ops3_1_v43 (W8 m ρ c)).trans (by rw [W8_main_v28]; rfl)
theorem V9_main_arg16 (c : Dev nD) : V9 m ρ c main_arg16 = (m ((c.tc : Thread nD τ).loc main_arg16)) := W9_main_arg16 m ρ c
theorem V9_main_arg18 (c : Dev nD) : V9 m ρ c main_arg18 = (m ((c.tc : Thread nD τ).loc main_arg18)) := W9_main_arg18 m ρ c
theorem V9_main_arg20 (c : Dev nD) : V9 m ρ c main_arg20 = (m ((c.tc : Thread nD τ).loc main_arg20)) := W9_main_arg20 m ρ c
theorem V9_main_v44 (c : Dev nD) : V9 m ρ c main_v44 = KDefs.rowv (m ((c.tc : Thread nD τ).loc main_arg17)) :=
  (ops3_1_v44 (W8 m ρ c)).trans (congrArg KDefs.rowv (W8_main_arg17 m ρ c))
theorem V9_main_v45 (c : Dev nD) : V9 m ρ c main_v45 = KDefs.rowv (m ((c.tc : Thread nD τ).loc main_arg19)) :=
  (ops3_1_v45 (W8 m ρ c)).trans (congrArg KDefs.rowv (W8_main_arg19 m ρ c))
theorem V9_main_v46 (c : Dev nD) : V9 m ρ c main_v46 = KDefs.rowv (m ((c.tc : Thread nD τ).loc main_arg21)) :=
  (ops3_1_v46 (W8 m ρ c)).trans (congrArg KDefs.rowv (W8_main_arg21 m ρ c))
theorem V9_main_v47 (c : Dev nD) : V9 m ρ c main_v47 = KDefs.rowv (m ((c.tc : Thread nD τ).loc main_arg22)) :=
  (ops3_1_v47 (W8 m ρ c)).trans (congrArg KDefs.rowv (W8_main_arg22 m ρ c))
theorem V9_main_v48 (c : Dev nD) : V9 m ρ c main_v48 = KDefs.rowv (m ((c.tc : Thread nD τ).loc main_arg23)) :=
  (ops3_1_v48 (W8 m ρ c)).trans (congrArg KDefs.rowv (W8_main_arg23 m ρ c))

end Cert.KernelIdeal.KHost

end
-- ==== Proof.KMsg.lean ====
/-
  The two message regions: each writes, block of rows by block of rows, the table whose row r is row r of the
  source table through the linear map, plus the bias row. Here: the body's result at an index (the contraction
  read as a sum over the 128 shared coordinates, the bias row repeated down the rows), what each grid point
  writes back as a block of that one table, the blocks covering every row, and so the whole array after the region.
-/
import proofs.«423421_j88751204204557_2_alg».proof.Proof.Gen.KernelIdeal.Frame
import proofs.«423421_j88751204204557_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KMsg

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's result at an index -/

/-- The left operand's row coordinate is the result's row. -/
theorem lhs_msg_0 (j : S10000x128.Idx) (k : dot_S10000x128_S128x128_S10000x128_1_0_0_1_n_n.contr.Idx) :
    (dot_S10000x128_S128x128_S10000x128_1_0_0_1_n_n.lhsIdx j k 0).val = (j 0).val := by
  simp [DotDims.lhsIdx, dot_S10000x128_S128x128_S10000x128_1_0_0_1_n_n]; rfl

/-- The left operand's column coordinate is the contracted coordinate. -/
theorem lhs_msg_1 (j : S10000x128.Idx) (k : dot_S10000x128_S128x128_S10000x128_1_0_0_1_n_n.contr.Idx) :
    (dot_S10000x128_S128x128_S10000x128_1_0_0_1_n_n.lhsIdx j k 1).val = (k ⟨0, by decide⟩).val :=
  dot_S10000x128_S128x128_S10000x128_1_0_0_1_n_n.lhsIdx_val_of_single rfl j k

/-- The right operand's row coordinate is the contracted coordinate. -/
theorem rhs_msg_0 (j : S10000x128.Idx) (k : dot_S10000x128_S128x128_S10000x128_1_0_0_1_n_n.contr.Idx) :
    (dot_S10000x128_S128x128_S10000x128_1_0_0_1_n_n.rhsIdx j k 0).val = (k ⟨0, by decide⟩).val :=
  dot_S10000x128_S128x128_S10000x128_1_0_0_1_n_n.rhsIdx_val_of_single rfl j k

/-- The right operand's column coordinate is the result's column. -/
theorem rhs_msg_1 (j : S10000x128.Idx) (k : dot_S10000x128_S128x128_S10000x128_1_0_0_1_n_n.contr.Idx) :
    (dot_S10000x128_S128x128_S10000x128_1_0_0_1_n_n.rhsIdx j k 1).val = (j 1).val := by
  simp [DotDims.rhsIdx, dot_S10000x128_S128x128_S10000x128_1_0_0_1_n_n]; rfl

/-- The product into the zero accumulator, read at (r, j): the sum over the 128 shared coordinates. -/
theorem matmul_msg_apply {φ₁ φ₂ : FTy} (A : FVec Ideal S10000x128 φ₁) (B : FVec Ideal S128x128 φ₂) (r : Fin 10000) (j : Fin 128) :
    matmul dot_S10000x128_S128x128_S10000x128_1_0_0_1_n_n none A B (constant (F := Ideal) S10000x128 .f32 0x00000000#32) (ix2 r j)
      = ∑ k : Fin 128, A (ix2 r k) * B (ix2 k j) := by
  show FloatOps.matmul _ _ _ _ _ _ = _
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have hl : dot_S10000x128_S128x128_S10000x128_1_0_0_1_n_n.lhsIdx (ix2 r j)
      ((contrEquiv1 dot_S10000x128_S128x128_S10000x128_1_0_0_1_n_n 128 rfl rfl).symm k) = ix2 r k := by
    funext a; apply Fin.ext
    match a with
    | ⟨0, _⟩ => exact lhs_msg_0 _ _
    | ⟨1, _⟩ => exact (lhs_msg_1 _ _).trans hk
  have hr : dot_S10000x128_S128x128_S10000x128_1_0_0_1_n_n.rhsIdx (ix2 r j)
      ((contrEquiv1 dot_S10000x128_S128x128_S10000x128_1_0_0_1_n_n 128 rfl rfl).symm k) = ix2 k j := by
    funext a; apply Fin.ext
    match a with
    | ⟨0, _⟩ => exact (rhs_msg_0 _ _).trans hk
    | ⟨1, _⟩ => exact rhs_msg_1 _ _
  rw [hl, hr]

/-- The bias row repeated down the rows, read at (r, j): the bias row's entry j. -/
theorem bias_msg_apply (b : Vec Ideal S1x128 .f32) (r : Fin 10000) (j : Fin 128) :
    broadcastTo S10000x128 (shapeCast S1x128 b shapeCasts_S1x128_S1x128) broadcasts_S1x128_S10000x128 (ix2 r j)
      = b (ix2 0 j) := by
  rw [shapeCast_self]
  refine broadcastTo_apply _ _ _ _ fun a => ?_
  match a with
  | ⟨0, _⟩ => rfl
  | ⟨1, _⟩ => rfl

/-- The body's stored value at (r, j): row r of the block through the linear map, plus the bias row. -/
theorem pay0_apply (x0 : Vec Ideal S10000x128 .f32) (x1 : Vec Ideal S128x128 .f32) (x2 : Vec Ideal S1x128 .f32)
    (r : Fin 10000) (j : Fin 128) : k0_pay1 x0 x1 x2 (ix2 r j) = Cert.Spec.msgAt x0 x1 x2 r j := by
  unfold k0_pay1
  show (matmul dot_S10000x128_S128x128_S10000x128_1_0_0_1_n_n none (truncf .bf16 x0 bitsLt_bf16_f32) (truncf .bf16 x1 bitsLt_bf16_f32)
      (constant (F := Ideal) S10000x128 .f32 0x00000000#32)) (ix2 r j)
    + broadcastTo S10000x128 (shapeCast S1x128 x2 shapeCasts_S1x128_S1x128) broadcasts_S1x128_S10000x128 (ix2 r j) = _
  rw [matmul_msg_apply, bias_msg_apply]
  rfl

/-- The second message region's body is the first's. -/
theorem k2_eq : @k2_pay1 Ideal _ = @k0_pay1 Ideal _ := rfl

theorem offsets_zero : (![0, 0] : Fin 2 → Nat) = fun _ => 0 := funext fun a => by fin_cases a <;> rfl

/-! ## Region 0: what each point writes back, and the array after the region -/

section Region0
variable (V : (c : Dev nD) → (b : Ref sig .tc) → Buf (Elt Ideal) ((c : Thread nD τ).loc b))

/-- The printed index maps, decided over the grid: the source block and the written block are block t of the rows,
    the weight and the bias row are whole. -/
theorem block_indices0 : ∀ t : Fin cfg0.N, t.val < 20
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the table of transformed rows of the arrays as the region finds them. -/
theorem written_block0 (c : Dev nD) (t : Fin cfg0.N) :
    (dat0 (F := Ideal) V c).flushed 3 t
      = ((cfg0.win 3).blk t).view.read (Elt Ideal) (Cert.Spec.msgTab (V c main_arg0) (V c main_arg4) (V c main_v4)) := by
  show (cfg0.win 3).cut (grid0.coords t) ((dat0 V c).after 3 t) = _
  rw [after0_3]
  unfold out0_3
  rw [View.canon_unit_zero offsets_zero]
  simp only [View.ld_unit_zero (S := S10000x128) offsets_zero, View.ld_unit_zero (S := S128x128) offsets_zero, View.ld_unit_zero (S := S1x128) offsets_zero]
  obtain ⟨hN, e00, e01, e10, e11, e20, e21, e30, e31⟩ := block_indices0 t
  funext y
  obtain ⟨p, q, rfl⟩ : ∃ (p : Fin 10000) (q : Fin 128), y = ix2 p q := ⟨y 0, y 1, eq_ix2 y⟩
  have hp : p.val < 10000 := p.isLt
  have hout : ((cfg0.win 3).blk t).view.emb (ix2 p q) = ix2 (⟨t.val * 10000 + p.val, by omega⟩ : Fin 200000) q := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * q.val = q.val; omega
  have hsrc : ∀ k : Fin 128, ((cfg0.win 0).blk t).view.emb (ix2 p k)
      = ix2 (⟨t.val * 10000 + p.val, by omega⟩ : Fin 200000) k := fun k => by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have hw : ∀ (k : Fin 128) (j : Fin 128), ((cfg0.win 1).blk t).view.emb (ix2 k j) = ix2 k j := fun k j => by
    funext a; apply Fin.ext
    match a with
    | ⟨0, _⟩ => show win0_1.index t (0 : Fin 2) * 128 + 1 * k.val = k.val; omega
    | ⟨1, _⟩ => show win0_1.index t (1 : Fin 2) * 128 + 1 * j.val = j.val; omega
  have hb : ∀ j : Fin 128, ((cfg0.win 2).blk t).view.emb (ix2 (0 : Fin 1) j) = ix2 (0 : Fin 1) j := fun j => by
    funext a; apply Fin.ext
    match a with
    | ⟨0, _⟩ => show win0_2.index t (0 : Fin 2) * 1 + 1 * 0 = 0; omega
    | ⟨1, _⟩ => show win0_2.index t (1 : Fin 2) * 128 + 1 * j.val = j.val; omega
  show k0_pay1 (iblk0 V c 0 t) (iblk0 V c 1 t) (iblk0 V c 2 t) (ix2 p q)
    = Cert.Spec.msgTab (V c main_arg0) (V c main_arg4) (V c main_v4) (((cfg0.win 3).blk t).view.emb (ix2 p q))
  rw [hout, Cert.Spec.msgTab_apply, pay0_apply]
  have h0 : ∀ k : Fin 128, iblk0 V c 0 t (ix2 p k)
      = V c main_arg0 (ix2 (⟨t.val * 10000 + p.val, by omega⟩ : Fin 200000) k) := fun k => by
    show V c main_arg0 (((cfg0.win 0).blk t).view.emb (ix2 p k)) = _
    rw [hsrc]
  have h1 : ∀ k : Fin 128, iblk0 V c 1 t (ix2 k q) = V c main_arg4 (ix2 k q) := fun k => by
    show V c main_arg4 (((cfg0.win 1).blk t).view.emb (ix2 k q)) = _
    rw [hw]
  have h2 : iblk0 V c 2 t (ix2 (0 : Fin 1) q) = V c main_v4 (ix2 (0 : Fin 1) q) := by
    show V c main_v4 (((cfg0.win 2).blk t).view.emb (ix2 (0 : Fin 1) q)) = _
    rw [hb]
  unfold Cert.Spec.msgAt
  simp only [h0, h1, h2]

/-- An index of the array is in point t's block iff each coordinate is in the block's range on its axis. -/
theorem mem_block_rows0 (t : Fin cfg0.N) (i : S200000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v5).slice (win0_3.rect t)).set ↔ _
  rw [View.set_slice_whole, Rect.mem_set_unit]
  exact Iff.rfl

/-- Every row is in some point's block: row r in the block of point r / 10000. -/
theorem rows_covered0 (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 20 := rfl
  refine ⟨⟨(i 0).val / 10000, by rw [hN]; omega⟩, flush0_3 _, ?_⟩
  rw [mem_block_rows0]
  obtain ⟨_, _, _, _, _, _, _, e30, e31⟩ := block_indices0 ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e30]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e31]; omega

/-- THE ARRAY after the region: the table of transformed rows of the arrays as the region finds them. -/
theorem final0 (c : Dev nD) :
    (dat0 (F := Ideal) V c).arrAt 3 cfg0.N = Cert.Spec.msgTab (V c main_arg0) (V c main_arg4) (V c main_v4) :=
  (dat0 (F := Ideal) V c).arrAt_eq_of_cover 3 _ (fun t _ => written_block0 V c t) (rows_covered0)

end Region0

/-! ## Region 2: what each point writes back, and the array after the region -/

section Region2
variable (V : (c : Dev nD) → (b : Ref sig .tc) → Buf (Elt Ideal) ((c : Thread nD τ).loc b))

/-- The printed index maps, decided over the grid: the source block and the written block are block t of the rows,
    the weight and the bias row are whole. -/
theorem block_indices2 : ∀ t : Fin cfg2.N, t.val < 5
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is block t of the table of transformed rows of the arrays as the region finds them. -/
theorem written_block2 (c : Dev nD) (t : Fin cfg2.N) :
    (dat2 (F := Ideal) V c).flushed 3 t
      = ((cfg2.win 3).blk t).view.read (Elt Ideal) (Cert.Spec.msgTab (V c main_arg1) (V c main_arg14) (V c main_v29)) := by
  show (cfg2.win 3).cut (grid2.coords t) ((dat2 V c).after 3 t) = _
  rw [after2_3]
  unfold out2_3
  rw [View.canon_unit_zero offsets_zero]
  simp only [View.ld_unit_zero (S := S10000x128) offsets_zero, View.ld_unit_zero (S := S128x128) offsets_zero, View.ld_unit_zero (S := S1x128) offsets_zero]
  obtain ⟨hN, e00, e01, e10, e11, e20, e21, e30, e31⟩ := block_indices2 t
  funext y
  obtain ⟨p, q, rfl⟩ : ∃ (p : Fin 10000) (q : Fin 128), y = ix2 p q := ⟨y 0, y 1, eq_ix2 y⟩
  have hp : p.val < 10000 := p.isLt
  have hout : ((cfg2.win 3).blk t).view.emb (ix2 p q) = ix2 (⟨t.val * 10000 + p.val, by omega⟩ : Fin 50000) q := by
    funext a; apply Fin.ext
    match a with
    | ⟨0, _⟩ => show win2_3.index t (0 : Fin 2) * 10000 + 1 * p.val = t.val * 10000 + p.val; omega
    | ⟨1, _⟩ => show win2_3.index t (1 : Fin 2) * 128 + 1 * q.val = q.val; omega
  have hsrc : ∀ k : Fin 128, ((cfg2.win 0).blk t).view.emb (ix2 p k)
      = ix2 (⟨t.val * 10000 + p.val, by omega⟩ : Fin 50000) k := fun k => by
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  have hw : ∀ (k : Fin 128) (j : Fin 128), ((cfg2.win 1).blk t).view.emb (ix2 k j) = ix2 k j := fun k j => by
    funext a; apply Fin.ext
    match a with
    | ⟨0, _⟩ => show win2_1.index t (0 : Fin 2) * 128 + 1 * k.val = k.val; omega
    | ⟨1, _⟩ => show win2_1.index t (1 : Fin 2) * 128 + 1 * j.val = j.val; omega
  have hb : ∀ j : Fin 128, ((cfg2.win 2).blk t).view.emb (ix2 (0 : Fin 1) j) = ix2 (0 : Fin 1) j := fun j => by
    funext a; apply Fin.ext
    match a with
    | ⟨0, _⟩ => show win2_2.index t (0 : Fin 2) * 1 + 1 * 0 = 0; omega
    | ⟨1, _⟩ => show win2_2.index t (1 : Fin 2) * 128 + 1 * j.val = j.val; omega
  show k0_pay1 (iblk2 V c 0 t) (iblk2 V c 1 t) (iblk2 V c 2 t) (ix2 p q)
    = Cert.Spec.msgTab (V c main_arg1) (V c main_arg14) (V c main_v29) (((cfg2.win 3).blk t).view.emb (ix2 p q))
  rw [hout, Cert.Spec.msgTab_apply, pay0_apply]
  have h0 : ∀ k : Fin 128, iblk2 V c 0 t (ix2 p k)
      = V c main_arg1 (ix2 (⟨t.val * 10000 + p.val, by omega⟩ : Fin 50000) k) := fun k => by
    show V c main_arg1 (((cfg2.win 0).blk t).view.emb (ix2 p k)) = _
    rw [hsrc]
  have h1 : ∀ k : Fin 128, iblk2 V c 1 t (ix2 k q) = V c main_arg14 (ix2 k q) := fun k => by
    show V c main_arg14 (((cfg2.win 1).blk t).view.emb (ix2 k q)) = _
    rw [hw]
  have h2 : iblk2 V c 2 t (ix2 (0 : Fin 1) q) = V c main_v29 (ix2 (0 : Fin 1) q) := by
    show V c main_v29 (((cfg2.win 2).blk t).view.emb (ix2 (0 : Fin 1) q)) = _
    rw [hb]
  unfold Cert.Spec.msgAt
  simp only [h0, h1, h2]

/-- An index of the array is in point t's block iff each coordinate is in the block's range on its axis. -/
theorem mem_block_rows2 (t : Fin cfg2.N) (i : S50000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v30).slice (win2_3.rect t)).set ↔ _
  rw [View.set_slice_whole, Rect.mem_set_unit]
  exact Iff.rfl

/-- Every row is in some point's block: row r in the block of point r / 10000. -/
theorem rows_covered2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 5 := rfl
  refine ⟨⟨(i 0).val / 10000, by rw [hN]; omega⟩, flush2_3 _, ?_⟩
  rw [mem_block_rows2]
  obtain ⟨_, _, _, _, _, _, _, e30, e31⟩ := block_indices2 ⟨(i 0).val / 10000, by rw [hN]; omega⟩
  intro a
  match a with
  | ⟨0, _⟩ =>
    show win2_3.index _ (0 : Fin 2) * 10000 ≤ (i 0).val ∧ (i 0).val < win2_3.index _ (0 : Fin 2) * 10000 + 10000
    rw [e30]; show (i 0).val / 10000 * 10000 ≤ (i 0).val ∧ (i 0).val < (i 0).val / 10000 * 10000 + 10000; omega
  | ⟨1, _⟩ =>
    show win2_3.index _ (1 : Fin 2) * 128 ≤ (i 1).val ∧ (i 1).val < win2_3.index _ (1 : Fin 2) * 128 + 128
    rw [e31]; omega

/-- THE ARRAY after the region: the table of transformed rows of the arrays as the region finds them. -/
theorem final2 (c : Dev nD) :
    (dat2 (F := Ideal) V c).arrAt 3 cfg2.N = Cert.Spec.msgTab (V c main_arg1) (V c main_arg14) (V c main_v29) :=
  (dat2 (F := Ideal) V c).arrAt_eq_of_cover 3 _ (fun t _ => written_block2 V c t) (rows_covered2)

end Region2

end Cert.KernelIdeal.KMsg

end
-- ==== Proof.KUpdPay.lean ====
/-
  The update kernel's body read at one index.

  For a destination row d (row r of the first operand), its aggregated row a scaled by the row's factor, and the
  weights of the gate and of the two update layers, the body computes at (r, j)

    g = logistic([d | a]·Wg + bg),   h = relu([d | a]·W1 + b1),   u = h·W2 + b2,   c = g·d + (1 − g)·u,

  and then normalises the row c to mean 0 and variance 1 (plus ε) and applies the affine map (γ, β). A product
  [d | a]·W over the 256 stacked columns is computed as the sum of two products against the upper and the lower
  128 rows of W. Each step is read at an index below; the last theorem composes them.
-/
import proofs.«423421_j88751204204557_2_alg».proof.Proof.Gen.KernelIdeal.Skeleton
import proofs.«423421_j88751204204557_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KUpdPay

open Idealize.ShloMosaic Idealize.SL.Sem Idealize.ShloMosaic.ValueIdx Cert.KernelIdeal Cert.KernelIdeal.Gen

/-! ## The [2000 × 128]·[128 × 128] product at an index -/

/-- The product's left index keeps the output's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and runs along the contracted coordinate in its column. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right index runs along the contracted coordinate in its row … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- … and keeps the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product into the zero accumulator, at (r, j): the sum over k of A (r, k) · B (k, j). -/
theorem matmul_zero_apply (A : FVec Ideal S2000x128 .bf16) (B : FVec Ideal S128x128 .bf16) (r : Fin 2000) (j : Fin 128) :
    matmul dot_S2000x128_S128x128_S2000x128_1_0_0_1_n_n none A B (constant (F := Ideal) S2000x128 .f32 0x00000000#32) (ix2 r j)
      = ∑ k : Fin 128, A (ix2 r k) * B (ix2 k j) := by
  show FloatOps.matmul dot_S2000x128_S128x128_S2000x128_1_0_0_1_n_n none A B (constant (F := Ideal) S2000x128 .f32 0x00000000#32) (ix2 r j) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j)
      ((contrEquiv1 dot_S2000x128_S128x128_S2000x128_1_0_0_1_n_n 128 rfl rfl).symm k) = ix2 r k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 r j)
      ((contrEquiv1 dot_S2000x128_S128x128_S2000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-! ## Layout operations at an index -/

/-- A column [2000 × 1] laid along 128 lanes reads, at (r, j), the column's entry of row r. -/
theorem broadcastTo_col_apply (v : S2000x1.Idx → EReal) (h : S2000x1.Broadcasts S2000x128) (r : Fin 2000) (j : Fin 128) :
    broadcastTo S2000x128 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A row [1 × 128] (through its identity cast) laid along 2000 rows reads, at (r, j), the row's entry j. -/
theorem broadcastTo_row_apply (v : S1x128.Idx → EReal) (hc : S1x128.ShapeCasts S1x128) (h : S1x128.Broadcasts S2000x128)
    (r : Fin 2000) (j : Fin 128) :
    broadcastTo S2000x128 (shapeCast S1x128 v hc) h (ix2 r j) = v (ix2 (0 : Fin 1) j) := by
  rw [shapeCast_self]
  exact broadcastTo_1b_ab_apply v h r j

/-- A lane-reduced vector [2000] as a column [2000 × 1] reads, at (r, 0), the vector's entry r. -/
theorem shapeCast_col_apply (v : S2000.Idx → EReal) (h : S2000.ShapeCasts S2000x1) (r : Fin 2000) :
    shapeCast S2000x1 v h (ix2 r (0 : Fin 1)) = v (ix1 r) := by
  refine shapeCast_apply v h (ix2 r (0 : Fin 1)) (ix1 r) ?_
  rw [Shape.rowMajor_val_two, Shape.rowMajor_val_one]
  show r.val = r.val * 1 + 0
  omega

/-- The upper half of a 256-row weight at (k, j) is the weight's row k. -/
theorem upper_apply (w : S256x128.Idx → EReal) (h : S256x128.Slices ![0, 0] S128x128) (k j : Fin 128) :
    extractStridedSlice S128x128 ![0, 0] w h (ix2 k j) = w (ix2 (Cert.Spec.lo k) j) :=
  slice2_axis0_apply 0 w h k j (Cert.Spec.lo k) (Nat.zero_add _).symm

/-- The lower half of a 256-row weight at (k, j) is the weight's row k + 128. -/
theorem lower_apply (w : S256x128.Idx → EReal) (h : S256x128.Slices ![128, 0] S128x128) (k j : Fin 128) :
    extractStridedSlice S128x128 ![128, 0] w h (ix2 k j) = w (ix2 (Cert.Spec.hi k) j) :=
  slice2_axis0_apply 128 w h k j (Cert.Spec.hi k) (Nat.add_comm _ _)

/-! ## The operands of the stacked products -/

/-- The destination rows enter the products unchanged. -/
theorem dest_apply (x0 : Vec Ideal S2000x128 .f32) (r : Fin 2000) (k : Fin 128) :
    k1_pay2 x0 (ix2 r k) = x0 (ix2 r k) := rfl

/-- The aggregated rows enter scaled by their row's factor. -/
theorem agg_apply (x1 : Vec Ideal S2000x128 .f32) (x2 : Vec Ideal S2000x1 .f32) (r : Fin 2000) (k : Fin 128) :
    k1_pay3 x1 x2 (ix2 r k) = Cert.Spec.aggAt x1 x2 r k := by
  unfold k1_pay3
  show (shapeCast S2000x128 x1 shapeCasts_S2000x128_S2000x128) (ix2 r k)
      * broadcastTo S2000x128 (shapeCast S2000x1 x2 shapeCasts_S2000x1_S2000x1) broadcasts_S2000x1_S2000x128 (ix2 r k) = _
  rw [shapeCast_self, shapeCast_self, broadcastTo_col_apply]
  rfl

/-! ## [d | a]·W + b as the sum of its two half products -/

/-- The two half products against a 256-row weight plus the bias row, at (r, j). -/
theorem lin2_apply (x0 x1 : Vec Ideal S2000x128 .f32) (x2 : Vec Ideal S2000x1 .f32) (w : Vec Ideal S256x128 .f32)
    (b : Vec Ideal S1x128 .f32) (hu : S256x128.Slices ![0, 0] S128x128) (hl : S256x128.Slices ![128, 0] S128x128)
    (hc : S1x128.ShapeCasts S1x128) (hb : S1x128.Broadcasts S2000x128) (r : Fin 2000) (j : Fin 128) :
    addf
        (addf
          (matmul dot_S2000x128_S128x128_S2000x128_1_0_0_1_n_n none (k1_pay2 x0)
            (extractStridedSlice S128x128 ![0, 0] (truncf .bf16 w bitsLt_bf16_f32 : FVec Ideal S256x128 .bf16) hu)
            (constant (F := Ideal) S2000x128 .f32 0x00000000#32))
          (matmul dot_S2000x128_S128x128_S2000x128_1_0_0_1_n_n none (k1_pay3 x1 x2)
            (extractStridedSlice S128x128 ![128, 0] (truncf .bf16 w bitsLt_bf16_f32 : FVec Ideal S256x128 .bf16) hl)
            (constant (F := Ideal) S2000x128 .f32 0x00000000#32)))
        (broadcastTo S2000x128 (shapeCast S1x128 b hc) hb) (ix2 r j)
      = Cert.Spec.lin2At x0 x1 x2 w b r j := by
  show matmul dot_S2000x128_S128x128_S2000x128_1_0_0_1_n_n none (k1_pay2 x0) _ _ (ix2 r j)
      + matmul dot_S2000x128_S128x128_S2000x128_1_0_0_1_n_n none (k1_pay3 x1 x2) _ _ (ix2 r j)
      + broadcastTo S2000x128 (shapeCast S1x128 b hc) hb (ix2 r j) = _
  rw [matmul_zero_apply, matmul_zero_apply, broadcastTo_row_apply]
  unfold Cert.Spec.lin2At
  refine congrArg₂ (· + ·) (congrArg₂ (· + ·) ?_ ?_) rfl
  · refine Finset.sum_congr rfl fun k _ => ?_
    rw [dest_apply]
    exact congrArg (x0 (ix2 r k) * ·) (upper_apply w hu k j)
  · refine Finset.sum_congr rfl fun k _ => ?_
    rw [agg_apply]
    exact congrArg (Cert.Spec.aggAt x1 x2 r k * ·) (lower_apply w hl k j)

/-! ## The gate and the hidden layer -/

/-- The gate at (r, j). -/
theorem gate_apply (x0 x1 : Vec Ideal S2000x128 .f32) (x2 : Vec Ideal S2000x1 .f32) (x3 : Vec Ideal S256x128 .f32)
    (x4 : Vec Ideal S1x128 .f32) (r : Fin 2000) (j : Fin 128) :
    k1_pay5 x0 x1 x2 x3 x4 (ix2 r j) = Cert.Spec.gateAt x0 x1 x2 x3 x4 r j := by
  unfold k1_pay5
  exact congrArg Ideal.logistic (lin2_apply x0 x1 x2 x3 x4 _ _ _ _ r j)

/-- The hidden layer after the relu, at (r, k). -/
theorem relu_apply (x0 x1 : Vec Ideal S2000x128 .f32) (x2 : Vec Ideal S2000x1 .f32) (x5 : Vec Ideal S256x128 .f32)
    (x6 : Vec Ideal S1x128 .f32) (r : Fin 2000) (k : Fin 128) :
    k1_pay6 x0 x1 x2 x5 x6 (ix2 r k) = Cert.Spec.reluAt x0 x1 x2 x5 x6 r k := by
  unfold k1_pay6
  exact congrArg (max · (Ideal.ofBits .f32 0x00000000#32)) (lin2_apply x0 x1 x2 x5 x6 _ _ _ _ r k)

/-! ## The second layer and the gated mixture -/

/-- The mixture g·d + (1 − g)·(h·W + b) as an array, from the gate g, the hidden layer h and the second layer's
    weight and bias. -/
def mixArr (d : Vec Ideal S2000x128 .f32) (g : FVec Ideal S2000x128 .f32) (h : FVec Ideal S2000x128 .bf16)
    (w : FVec Ideal S128x128 .bf16) (b : Vec Ideal S1x128 .f32) : FVec Ideal S2000x128 .f32 :=
  addf (mulf g d)
    (mulf (subf (broadcast S2000x128 (Scalar.ofBits .f32 0x3F800000#32)) g)
      (addf (matmul dot_S2000x128_S128x128_S2000x128_1_0_0_1_n_n none h w (constant (F := Ideal) S2000x128 .f32 0x00000000#32))
        (broadcastTo S2000x128 (shapeCast S1x128 b shapeCasts_S1x128_S1x128) broadcasts_S1x128_S2000x128)))

/-- The mixture at (r, j). -/
theorem mixArr_apply (x0 x1 : Vec Ideal S2000x128 .f32) (x2 : Vec Ideal S2000x1 .f32) (x3 : Vec Ideal S256x128 .f32)
    (x4 : Vec Ideal S1x128 .f32) (x5 : Vec Ideal S256x128 .f32) (x6 : Vec Ideal S1x128 .f32) (x7 : Vec Ideal S128x128 .f32)
    (x8 : Vec Ideal S1x128 .f32) (r : Fin 2000) (j : Fin 128) :
    mixArr x0 (k1_pay5 x0 x1 x2 x3 x4) (k1_pay6 x0 x1 x2 x5 x6) (k1_pay4 x7) x8 (ix2 r j)
      = Cert.Spec.combAt x0 x1 x2 x3 x4 x5 x6 x7 x8 r j := by
  show k1_pay5 x0 x1 x2 x3 x4 (ix2 r j) * x0 (ix2 r j)
      + (Ideal.ofBits .f32 0x3F800000#32 - k1_pay5 x0 x1 x2 x3 x4 (ix2 r j))
        * (matmul dot_S2000x128_S128x128_S2000x128_1_0_0_1_n_n none (k1_pay6 x0 x1 x2 x5 x6) (k1_pay4 x7)
              (constant (F := Ideal) S2000x128 .f32 0x00000000#32) (ix2 r j)
            + broadcastTo S2000x128 (shapeCast S1x128 x8 shapeCasts_S1x128_S1x128) broadcasts_S1x128_S2000x128 (ix2 r j)) = _
  rw [matmul_zero_apply, broadcastTo_row_apply, gate_apply]
  unfold Cert.Spec.combAt Cert.Spec.updAt
  refine congrArg (fun s => Cert.Spec.gateAt x0 x1 x2 x3 x4 r j * x0 (ix2 r j)
    + (Ideal.ofBits .f32 0x3F800000#32 - Cert.Spec.gateAt x0 x1 x2 x3 x4 r j) * (s + x8 (ix2 (0 : Fin 1) j))) ?_
  refine Finset.sum_congr rfl fun k _ => ?_
  rw [relu_apply]
  rfl

/-! ## The row normalisation -/

/-- The column of row means of a [2000 × 128] array: the lane sum, as a column, over 128. -/
def meanCol (c : FVec Ideal S2000x128 .f32) : FVec Ideal S2000x1 .f32 :=
  divf (shapeCast S2000x1 (multiReduction .add [1] S2000 c 0x00000000#32 reduces_S2000x128_S2000 (.inl rfl) rfl)
      shapeCasts_S2000_S2000x1)
    (broadcast S2000x1 (Scalar.ofBits .f32 0x43000000#32))

/-- The lane sum of row r. -/
theorem laneSum_apply (c : FVec Ideal S2000x128 .f32) (h : S2000x128.Reduces [1] S2000) (hφ : FKind.Formats .f32)
    (hacc : (0x00000000#32 : BitVec (FTy.bits .f32)) = FKind.add.neutral .f32 hφ) (r : Fin 2000) :
    multiReduction .add [1] S2000 c 0x00000000#32 h hφ hacc (ix1 r) = ∑ j : Fin 128, c (ix2 r j) := by
  refine (Ideal.multiReduction_add_single c 0x00000000#32 h hφ hacc (ix1 r)).trans ?_
  show ∑ k : Fin 128, c (h.lift (ix1 r) k) = _
  refine Finset.sum_congr rfl fun k _ => congrArg c (funext fun a => Fin.ext ?_)
  match a with
  | ⟨0, _⟩ => rfl
  | ⟨1, _⟩ => rfl

/-- The mean of row r. -/
theorem meanCol_apply (c : FVec Ideal S2000x128 .f32) (r : Fin 2000) :
    meanCol c (ix2 r (0 : Fin 1)) = Cert.Spec.meanAt (fun j => c (ix2 r j)) := by
  show Ideal.div (shapeCast S2000x1 (multiReduction .add [1] S2000 c 0x00000000#32 reduces_S2000x128_S2000 (.inl rfl) rfl)
      shapeCasts_S2000_S2000x1 (ix2 r (0 : Fin 1))) (Ideal.ofBits .f32 0x43000000#32) = _
  exact congrArg (Ideal.div · (Ideal.ofBits .f32 0x43000000#32))
    ((shapeCast_col_apply _ _ r).trans (laneSum_apply c _ _ _ r))

/-- The array with each row's mean taken off. -/
def centred (c : FVec Ideal S2000x128 .f32) : FVec Ideal S2000x128 .f32 :=
  subf c (broadcastTo S2000x128 (meanCol c) broadcasts_S2000x1_S2000x128)

/-- … at (r, j). -/
theorem centred_apply (c : FVec Ideal S2000x128 .f32) (r : Fin 2000) (j : Fin 128) :
    centred c (ix2 r j) = c (ix2 r j) - Cert.Spec.meanAt (fun j' => c (ix2 r j')) := by
  show c (ix2 r j) - broadcastTo S2000x128 (meanCol c) broadcasts_S2000x1_S2000x128 (ix2 r j) = _
  rw [broadcastTo_col_apply, meanCol_apply]

/-- The normalised rows through the affine map (γ, β), as an array. -/
def lnArr (c : FVec Ideal S2000x128 .f32) (g b : Vec Ideal S1x128 .f32) : FVec Ideal S2000x128 .f32 :=
  addf
    (mulf
      (mulf (centred c)
        (broadcastTo S2000x128
          (rsqrt (addf (meanCol (mulf (centred c) (centred c))) (broadcast S2000x1 (Scalar.ofBits .f32 0x3727C5AC#32))))
          broadcasts_S2000x1_S2000x128))
      (broadcastTo S2000x128 (shapeCast S1x128 g shapeCasts_S1x128_S1x128) broadcasts_S1x128_S2000x128))
    (broadcastTo S2000x128 (shapeCast S1x128 b shapeCasts_S1x128_S1x128) broadcasts_S1x128_S2000x128)

/-- … at (r, j): the layer normalisation of row r, entry j. -/
theorem lnArr_apply (c : FVec Ideal S2000x128 .f32) (g b : Vec Ideal S1x128 .f32) (r : Fin 2000) (j : Fin 128) :
    lnArr c g b (ix2 r j) = Cert.Spec.lnAt (fun j' => c (ix2 r j')) g b j := by
  show centred c (ix2 r j)
        * broadcastTo S2000x128
            (rsqrt (addf (meanCol (mulf (centred c) (centred c))) (broadcast S2000x1 (Scalar.ofBits .f32 0x3727C5AC#32))))
            broadcasts_S2000x1_S2000x128 (ix2 r j)
        * broadcastTo S2000x128 (shapeCast S1x128 g shapeCasts_S1x128_S1x128) broadcasts_S1x128_S2000x128 (ix2 r j)
      + broadcastTo S2000x128 (shapeCast S1x128 b shapeCasts_S1x128_S1x128) broadcasts_S1x128_S2000x128 (ix2 r j) = _
  rw [broadcastTo_col_apply, broadcastTo_row_apply, broadcastTo_row_apply, centred_apply]
  show (c (ix2 r j) - Cert.Spec.meanAt (fun j' => c (ix2 r j')))
        * Ideal.rsqrt (meanCol (mulf (centred c) (centred c)) (ix2 r (0 : Fin 1)) + Ideal.ofBits .f32 0x3727C5AC#32)
        * g (ix2 (0 : Fin 1) j) + b (ix2 (0 : Fin 1) j) = _
  rw [meanCol_apply]
  have hsq : (fun j' : Fin 128 => mulf (centred c) (centred c) (ix2 r j'))
      = fun j' => (c (ix2 r j') - Cert.Spec.meanAt (fun j'' => c (ix2 r j'')))
          * (c (ix2 r j') - Cert.Spec.meanAt (fun j'' => c (ix2 r j''))) := by
    funext j'
    show centred c (ix2 r j') * centred c (ix2 r j') = _
    rw [centred_apply]
  rw [hsq]
  rfl

/-! ## The body at an index -/

/-- The update kernel's stored value is the normalised mixture. -/
theorem pay1_eq (x0 : Vec Ideal S2000x128 .f32) (w : FVec Ideal S128x128 .bf16) (g : FVec Ideal S2000x128 .f32)
    (h : FVec Ideal S2000x128 .bf16) (x8 x9 x10 : Vec Ideal S1x128 .f32) :
    k1_pay1 x0 w g h (constant S2000x128 .f32 0x00000000#32) x8 x9 x10 = lnArr (mixArr x0 g h w x8) x9 x10 := rfl

/-- The first update kernel's body at (r, j). -/
theorem pay1_apply (x0 x1 : Vec Ideal S2000x128 .f32) (x2 : Vec Ideal S2000x1 .f32) (x3 : Vec Ideal S256x128 .f32)
    (x4 : Vec Ideal S1x128 .f32) (x5 : Vec Ideal S256x128 .f32) (x6 : Vec Ideal S1x128 .f32) (x7 : Vec Ideal S128x128 .f32)
    (x8 x9 x10 : Vec Ideal S1x128 .f32) (r : Fin 2000) (j : Fin 128) :
    k1_pay1 x0 (k1_pay4 x7) (k1_pay5 x0 x1 x2 x3 x4) (k1_pay6 x0 x1 x2 x5 x6) (constant S2000x128 .f32 0x00000000#32) x8 x9 x10
        (ix2 r j)
      = Cert.Spec.lnAt (fun j' => Cert.Spec.combAt x0 x1 x2 x3 x4 x5 x6 x7 x8 r j') x9 x10 j := by
  rw [pay1_eq, lnArr_apply]
  exact congrArg (fun f => Cert.Spec.lnAt f x9 x10 j) (funext fun j' => mixArr_apply x0 x1 x2 x3 x4 x5 x6 x7 x8 r j')

/-! ## The second update kernel: the same body -/

theorem k3_pay1_eq : @k3_pay1 Ideal _ = @k1_pay1 Ideal _ := rfl
theorem k3_pay4_eq : @k3_pay4 Ideal _ = @k1_pay4 Ideal _ := rfl
theorem k3_pay5_eq : @k3_pay5 Ideal _ = @k1_pay5 Ideal _ := rfl
theorem k3_pay6_eq : @k3_pay6 Ideal _ = @k1_pay6 Ideal _ := rfl

/-- The second update kernel's body at (r, j). -/
theorem pay3_apply (x0 x1 : Vec Ideal S2000x128 .f32) (x2 : Vec Ideal S2000x1 .f32) (x3 : Vec Ideal S256x128 .f32)
    (x4 : Vec Ideal S1x128 .f32) (x5 : Vec Ideal S256x128 .f32) (x6 : Vec Ideal S1x128 .f32) (x7 : Vec Ideal S128x128 .f32)
    (x8 x9 x10 : Vec Ideal S1x128 .f32) (r : Fin 2000) (j : Fin 128) :
    k3_pay1 x0 (k3_pay4 x7) (k3_pay5 x0 x1 x2 x3 x4) (k3_pay6 x0 x1 x2 x5 x6) (constant S2000x128 .f32 0x00000000#32) x8 x9 x10
        (ix2 r j)
      = Cert.Spec.lnAt (fun j' => Cert.Spec.combAt x0 x1 x2 x3 x4 x5 x6 x7 x8 r j') x9 x10 j := by
  rw [k3_pay1_eq, k3_pay4_eq, k3_pay5_eq, k3_pay6_eq]
  exact pay1_apply x0 x1 x2 x3 x4 x5 x6 x7 x8 x9 x10 r j

end Cert.KernelIdeal.KUpdPay

end
-- ==== Proof.KUpd.lean ====
/-
  The two update regions, from blocks to tables.

  Each region walks its destination table in blocks of 2000 rows: at point t it holds rows 2000 t … 2000 t + 1999 of the
  old table d, of the summed messages a and of the scaling column, and the eight weight and bias tables whole. The
  updated row (the gate, the proposed update, the mixture, the normalisation) reads d, a and the scaling column only
  along its own row, so what the body leaves at row r of point t's block is row 2000 t + r of the updated table of the
  whole arrays; the blocks of the points tile the table (row r lies in the block of point r / 2000), so the table ends
  holding the updated table.
-/
import proofs.«423421_j88751204204557_2_alg».proof.Proof.Gen.KernelIdeal.Frame
import proofs.«423421_j88751204204557_2_alg».proof.Proof.Spec
import proofs.«423421_j88751204204557_2_alg».proof.Proof.KUpdPay
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KUpd

open Cert.KernelIdeal Cert.KernelIdeal.Gen Cert.Spec

/-- The gated mixture at (r, j) reads d, a and the scaling column only along row r. -/
theorem combAt_congr {n n' : ℕ} (d a : Mat n 128) (inv : Mat n 1) (d' a' : Mat n' 128) (inv' : Mat n' 1)
    (gw : Mat 256 128) (gb : Mat 1 128) (u1w : Mat 256 128) (u1b : Mat 1 128) (u2w : Mat 128 128) (u2b : Mat 1 128)
    (r : Fin n) (r' : Fin n')
    (hd : ∀ k : Fin 128, d (ix2 r k) = d' (ix2 r' k)) (ha : ∀ k : Fin 128, a (ix2 r k) = a' (ix2 r' k))
    (hi : inv (ix2 r 0) = inv' (ix2 r' 0)) (j : Fin 128) :
    combAt d a inv gw gb u1w u1b u2w u2b r j = combAt d' a' inv' gw gb u1w u1b u2w u2b r' j := by
  unfold combAt gateAt updAt reluAt lin2At aggAt
  simp only [hd, ha, hi]

/-- Hence so does the normalised row. -/
theorem lnAt_combAt_congr {n n' : ℕ} (d a : Mat n 128) (inv : Mat n 1) (d' a' : Mat n' 128) (inv' : Mat n' 1)
    (gw : Mat 256 128) (gb : Mat 1 128) (u1w : Mat 256 128) (u1b : Mat 1 128) (u2w : Mat 128 128) (u2b : Mat 1 128)
    (g b : Mat 1 128) (r : Fin n) (r' : Fin n')
    (hd : ∀ k : Fin 128, d (ix2 r k) = d' (ix2 r' k)) (ha : ∀ k : Fin 128, a (ix2 r k) = a' (ix2 r' k))
    (hi : inv (ix2 r 0) = inv' (ix2 r' 0)) (j : Fin 128) :
    lnAt (fun j' => combAt d a inv gw gb u1w u1b u2w u2b r j') g b j
      = lnAt (fun j' => combAt d' a' inv' gw gb u1w u1b u2w u2b r' j') g b j := by
  have e : (fun j' => combAt d a inv gw gb u1w u1b u2w u2b r j') = fun j' => combAt d' a' inv' gw gb u1w u1b u2w u2b r' j' :=
    funext fun j' => combAt_congr d a inv d' a' inv' gw gb u1w u1b u2w u2b r r' hd ha hi j'
  rw [e]

variable (V : (c : Dev nD) → (b : Ref sig .tc) → Buf (Elt Ideal) ((c : Thread nD τ).loc b))

theorem hz : (![0, 0] : Fin 2 → Nat) = fun _ => 0 := funext fun a => by fin_cases a <;> rfl

/-! ## Region 1: 25 points, blocks of 2000 rows of 50000-row tables -/

/-- Window 0's block at point t. -/
abbrev b1_0 (c : Dev nD) (t : Fin cfg1.N) : Vec Ideal S2000x128 .f32 := iblk1 V c 0 t
/-- Window 0's array as the region finds it. -/
abbrev a1_0 (c : Dev nD) : Vec Ideal S50000x128 .f32 := V c main_arg1
/-- Window 1's block at point t. -/
abbrev b1_1 (c : Dev nD) (t : Fin cfg1.N) : Vec Ideal S2000x128 .f32 := iblk1 V c 1 t
/-- Window 1's array as the region finds it. -/
abbrev a1_1 (c : Dev nD) : Vec Ideal S50000x128 .f32 := V c main_v9
/-- Window 2's block at point t. -/
abbrev b1_2 (c : Dev nD) (t : Fin cfg1.N) : Vec Ideal S2000x1 .f32 := iblk1 V c 2 t
/-- Window 2's array as the region finds it. -/
abbrev a1_2 (c : Dev nD) : Vec Ideal S50000x1 .f32 := V c main_v18
/-- Window 3's block at point t. -/
abbrev b1_3 (c : Dev nD) (t : Fin cfg1.N) : Vec Ideal S256x128 .f32 := iblk1 V c 3 t
/-- Window 3's array as the region finds it. -/
abbrev a1_3 (c : Dev nD) : Vec Ideal S256x128 .f32 := V c main_arg6
/-- Window 4's block at point t. -/
abbrev b1_4 (c : Dev nD) (t : Fin cfg1.N) : Vec Ideal S1x128 .f32 := iblk1 V c 4 t
/-- Window 4's array as the region finds it. -/
abbrev a1_4 (c : Dev nD) : Vec Ideal S1x128 .f32 := V c main_v19
/-- Window 5's block at point t. -/
abbrev b1_5 (c : Dev nD) (t : Fin cfg1.N) : Vec Ideal S256x128 .f32 := iblk1 V c 5 t
/-- Window 5's array as the region finds it. -/
abbrev a1_5 (c : Dev nD) : Vec Ideal S256x128 .f32 := V c main_arg8
/-- Window 6's block at point t. -/
abbrev b1_6 (c : Dev nD) (t : Fin cfg1.N) : Vec Ideal S1x128 .f32 := iblk1 V c 6 t
/-- Window 6's array as the region finds it. -/
abbrev a1_6 (c : Dev nD) : Vec Ideal S1x128 .f32 := V c main_v20
/-- Window 7's block at point t. -/
abbrev b1_7 (c : Dev nD) (t : Fin cfg1.N) : Vec Ideal S128x128 .f32 := iblk1 V c 7 t
/-- Window 7's array as the region finds it. -/
abbrev a1_7 (c : Dev nD) : Vec Ideal S128x128 .f32 := V c main_arg10
/-- Window 8's block at point t. -/
abbrev b1_8 (c : Dev nD) (t : Fin cfg1.N) : Vec Ideal S1x128 .f32 := iblk1 V c 8 t
/-- Window 8's array as the region finds it. -/
abbrev a1_8 (c : Dev nD) : Vec Ideal S1x128 .f32 := V c main_v21
/-- Window 9's block at point t. -/
abbrev b1_9 (c : Dev nD) (t : Fin cfg1.N) : Vec Ideal S1x128 .f32 := iblk1 V c 9 t
/-- Window 9's array as the region finds it. -/
abbrev a1_9 (c : Dev nD) : Vec Ideal S1x128 .f32 := V c main_v22
/-- Window 10's block at point t. -/
abbrev b1_10 (c : Dev nD) (t : Fin cfg1.N) : Vec Ideal S1x128 .f32 := iblk1 V c 10 t
/-- Window 10's array as the region finds it. -/
abbrev a1_10 (c : Dev nD) : Vec Ideal S1x128 .f32 := V c main_v23

theorem lt_N1 (t : Fin cfg1.N) : t.val < 25 := lt_of_lt_of_eq t.isLt N_1

/-- The printed index maps, decided once over the grid: the three row windows and the output sit at block (t, 0), the eight weight windows at block (0, 0). -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_11.index t (0 : Fin 2) = t.val
    ∧ win1_11.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0 :=
  (by decide +kernel : ∀ t : Fin grid1.N, _)

/-- Row r of window 0's block at point t is row 2000 t + r of its table. -/
theorem b1_0_apply (c : Dev nD) (t : Fin cfg1.N) (r : Fin 2000) (k : Fin 128) (h : t.val * 2000 + r.val < 50000) :
    b1_0 V c t (ix2 r k) = a1_0 V c (ix2 ⟨t.val * 2000 + r.val, h⟩ k) := by
  obtain ⟨e0, e1, -, -, -, -, -, -, -, -, -, -, -, -, -, -, -, -, -, -, -, -, -, -⟩ := idx_facts1 t
  show V c main_arg1 (((cfg1.win 0).blk t).view.emb (ix2 r k)) = V c main_arg1 _
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 128 + 1 * k.val = k.val; omega

/-- Row r of window 1's block at point t is row 2000 t + r of its table. -/
theorem b1_1_apply (c : Dev nD) (t : Fin cfg1.N) (r : Fin 2000) (k : Fin 128) (h : t.val * 2000 + r.val < 50000) :
    b1_1 V c t (ix2 r k) = a1_1 V c (ix2 ⟨t.val * 2000 + r.val, h⟩ k) := by
  obtain ⟨-, -, e0, e1, -, -, -, -, -, -, -, -, -, -, -, -, -, -, -, -, -, -, -, -⟩ := idx_facts1 t
  show V c main_v9 (((cfg1.win 1).blk t).view.emb (ix2 r k)) = V c main_v9 _
  refine congrArg _ (funext fun a => Fin.ext ?_)
  match a with
  | ⟨0, _⟩ => show win1_1.index t (0 : Fin 2) * 2000 + 1 * r.val = t.val * 2000 + r.val; omega
  | ⟨1, _⟩ => show win1_1.index t (1 : Fin 2) * 128 + 1 * k.val = k.val; omega

/-- Row r of window 2's block at point t is row 2000 t + r of its table. -/
theorem b1_2_apply (c : Dev nD) (t : Fin cfg1.N) (r : Fin 2000) (k : Fin 1) (h : t.val * 2000 + r.val < 50000) :
    b1_2 V c t (ix2 r k) = a1_2 V c (ix2 ⟨t.val * 2000 + r.val, h⟩ k) := by
  obtain ⟨-, -, -, -, e0, e1, -, -, -, -, -, -, -, -, -, -, -, -, -, -, -, -, -, -⟩ := idx_facts1 t
  show V c main_v18 (((cfg1.win 2).blk t).view.emb (ix2 r k)) = V c main_v18 _
  refine congrArg _ (funext fun a => Fin.ext ?_)
  match a with
  | ⟨0, _⟩ => show win1_2.index t (0 : Fin 2) * 2000 + 1 * r.val = t.val * 2000 + r.val; omega
  | ⟨1, _⟩ => show win1_2.index t (1 : Fin 2) * 1 + 1 * k.val = k.val; omega

/-- Window 3 is its whole table at every point. -/
theorem b1_3_eq (c : Dev nD) (t : Fin cfg1.N) : b1_3 V c t = a1_3 V c := by
  obtain ⟨-, -, -, -, -, -, -, -, e0, e1, -, -, -, -, -, -, -, -, -, -, -, -, -, -⟩ := idx_facts1 t
  funext y
  show V c main_arg6 (((cfg1.win 3).blk t).view.emb y) = V c main_arg6 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 128 + 1 * (y 1).val = (y 1).val; omega

/-- Window 4 is its whole table at every point. -/
theorem b1_4_eq (c : Dev nD) (t : Fin cfg1.N) : b1_4 V c t = a1_4 V c := by
  obtain ⟨-, -, -, -, -, -, -, -, -, -, e0, e1, -, -, -, -, -, -, -, -, -, -, -, -⟩ := idx_facts1 t
  funext y
  show V c main_v19 (((cfg1.win 4).blk t).view.emb y) = V c main_v19 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 is its whole table at every point. -/
theorem b1_5_eq (c : Dev nD) (t : Fin cfg1.N) : b1_5 V c t = a1_5 V c := by
  obtain ⟨-, -, -, -, -, -, -, -, -, -, -, -, e0, e1, -, -, -, -, -, -, -, -, -, -⟩ := idx_facts1 t
  funext y
  show V c main_arg8 (((cfg1.win 5).blk t).view.emb y) = V c main_arg8 y
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 128 + 1 * (y 1).val = (y 1).val; omega

/-- Window 6 is its whole table at every point. -/
theorem b1_6_eq (c : Dev nD) (t : Fin cfg1.N) : b1_6 V c t = a1_6 V c := by
  obtain ⟨-, -, -, -, -, -, -, -, -, -, -, -, -, -, e0, e1, -, -, -, -, -, -, -, -⟩ := idx_facts1 t
  funext y
  show V c main_v20 (((cfg1.win 6).blk t).view.emb y) = V c main_v20 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7 is its whole table at every point. -/
theorem b1_7_eq (c : Dev nD) (t : Fin cfg1.N) : b1_7 V c t = a1_7 V c := by
  obtain ⟨-, -, -, -, -, -, -, -, -, -, -, -, -, -, -, -, e0, e1, -, -, -, -, -, -⟩ := idx_facts1 t
  funext y
  show V c main_arg10 (((cfg1.win 7).blk t).view.emb y) = V c main_arg10 y
  refine congrArg _ (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Window 8 is its whole table at every point. -/
theorem b1_8_eq (c : Dev nD) (t : Fin cfg1.N) : b1_8 V c t = a1_8 V c := by
  obtain ⟨-, -, -, -, -, -, -, -, -, -, -, -, -, -, -, -, -, -, e0, e1, -, -, -, -⟩ := idx_facts1 t
  funext y
  show V c main_v21 (((cfg1.win 8).blk t).view.emb y) = V c main_v21 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- Window 9 is its whole table at every point. -/
theorem b1_9_eq (c : Dev nD) (t : Fin cfg1.N) : b1_9 V c t = a1_9 V c := by
  obtain ⟨-, -, -, -, -, -, -, -, -, -, -, -, -, -, -, -, -, -, -, -, e0, e1, -, -⟩ := idx_facts1 t
  funext y
  show V c main_v22 (((cfg1.win 9).blk t).view.emb y) = V c main_v22 y
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 128 + 1 * (y 1).val = (y 1).val; omega

/-- Window 10 is its whole table at every point. -/
theorem b1_10_eq (c : Dev nD) (t : Fin cfg1.N) : b1_10 V c t = a1_10 V c := by
  obtain ⟨-, -, -, -, -, -, -, -, -, -, -, -, -, -, -, -, -, -, -, -, -, -, e0, e1⟩ := idx_facts1 t
  funext y
  show V c main_v23 (((cfg1.win 10).blk t).view.emb y) = V c main_v23 y
  refine congrArg _ (funext fun a => Fin.ext ?_)
  match a with
  | ⟨0, _⟩ => show win1_10.index t (0 : Fin 2) * 1 + 1 * (y 0).val = (y 0).val; omega
  | ⟨1, _⟩ => show win1_10.index t (1 : Fin 2) * 128 + 1 * (y 1).val = (y 1).val; omega

/-- What the body leaves at row r of point t's block is the updated table's row 2000 t + r. -/
theorem point1 (c : Dev nD) (t : Fin cfg1.N) (r : Fin 2000) (j : Fin 128) (h : t.val * 2000 + r.val < 50000) :
    k1_pay1 (b1_0 V c t) (k1_pay4 (b1_7 V c t)) (k1_pay5 (b1_0 V c t) (b1_1 V c t) (b1_2 V c t) (b1_3 V c t) (b1_4 V c t)) (k1_pay6 (b1_0 V c t) (b1_1 V c t) (b1_2 V c t) (b1_5 V c t) (b1_6 V c t))
        (constant (F := Ideal) S2000x128 .f32 0x00000000#32) (b1_8 V c t) (b1_9 V c t) (b1_10 V c t) (ix2 r j)
      = Cert.Spec.updArr (a1_0 V c) (a1_1 V c) (a1_2 V c) (a1_3 V c) (a1_4 V c) (a1_5 V c) (a1_6 V c) (a1_7 V c) (a1_8 V c) (a1_9 V c) (a1_10 V c) (ix2 ⟨t.val * 2000 + r.val, h⟩ j) := by
  refine (Cert.KernelIdeal.KUpdPay.pay1_apply (b1_0 V c t) (b1_1 V c t) (b1_2 V c t) (b1_3 V c t) (b1_4 V c t) (b1_5 V c t) (b1_6 V c t) (b1_7 V c t) (b1_8 V c t) (b1_9 V c t) (b1_10 V c t) r j).trans ?_
  rw [b1_3_eq V c t, b1_4_eq V c t, b1_5_eq V c t, b1_6_eq V c t, b1_7_eq V c t, b1_8_eq V c t, b1_9_eq V c t, b1_10_eq V c t]
  exact lnAt_combAt_congr (b1_0 V c t) (b1_1 V c t) (b1_2 V c t) (a1_0 V c) (a1_1 V c) (a1_2 V c) (a1_3 V c) (a1_4 V c) (a1_5 V c) (a1_6 V c) (a1_7 V c) (a1_8 V c) (a1_9 V c) (a1_10 V c) r ⟨t.val * 2000 + r.val, h⟩
    (fun k => b1_0_apply V c t r k h) (fun k => b1_1_apply V c t r k h) (b1_2_apply V c t r 0 h) j

/-- Row r of the output's block at point t is row 2000 t + r of the output table. -/
theorem emb1_11 (t : Fin cfg1.N) (r : Fin 2000) (j : Fin 128) (h : t.val * 2000 + r.val < 50000) :
    ((cfg1.win 11).blk t).view.emb (ix2 r j) = (ix2 ⟨t.val * 2000 + r.val, h⟩ j : S50000x128.Idx) := by
  obtain ⟨-, -, -, -, -, -, e0, e1, -, -, -, -, -, -, -, -, -, -, -, -, -, -, -, -⟩ := idx_facts1 t
  refine funext fun a => Fin.ext ?_
  match a with
  | ⟨0, _⟩ => show win1_11.index t (0 : Fin 2) * 2000 + 1 * r.val = t.val * 2000 + r.val; omega
  | ⟨1, _⟩ => show win1_11.index t (1 : Fin 2) * 128 + 1 * j.val = j.val; omega

/-- What the body leaves at point t, index by index, is the updated table read through the output's block at t. -/
theorem block1_apply (c : Dev nD) (t : Fin cfg1.N) (y : S2000x128.Idx) :
    k1_pay1 (b1_0 V c t) (k1_pay4 (b1_7 V c t)) (k1_pay5 (b1_0 V c t) (b1_1 V c t) (b1_2 V c t) (b1_3 V c t) (b1_4 V c t)) (k1_pay6 (b1_0 V c t) (b1_1 V c t) (b1_2 V c t) (b1_5 V c t) (b1_6 V c t))
        (constant (F := Ideal) S2000x128 .f32 0x00000000#32) (b1_8 V c t) (b1_9 V c t) (b1_10 V c t) y
      = Cert.Spec.updArr (a1_0 V c) (a1_1 V c) (a1_2 V c) (a1_3 V c) (a1_4 V c) (a1_5 V c) (a1_6 V c) (a1_7 V c) (a1_8 V c) (a1_9 V c) (a1_10 V c) (((cfg1.win 11).blk t).view.emb y) := by
  obtain ⟨r, j, rfl⟩ : ∃ (r : Fin 2000) (j : Fin 128), y = ix2 r j := ⟨y 0, y 1, eq_ix2 y⟩
  have ht : t.val < 25 := lt_N1 t
  have hr : t.val * 2000 + r.val < 50000 := by have := r.isLt; omega
  rw [emb1_11 t r j hr]
  exact point1 V c t r j hr

/-- What point t writes back is block t of the updated table. -/
theorem flushed1_eq (c : Dev nD) (t : Fin cfg1.N) :
    (dat1 (F := Ideal) V c).flushed 11 t = ((cfg1.win 11).blk t).view.read (Elt Ideal)
      (Cert.Spec.updArr (V c main_arg1) (V c main_v9) (V c main_v18) (V c main_arg6) (V c main_v19) (V c main_arg8) (V c main_v20) (V c main_arg10) (V c main_v21) (V c main_v22) (V c main_v23)) := by
  show (cfg1.win 11).cut (grid1.coords t) ((dat1 V c).after 11 t) = _
  rw [after1_11]
  unfold out1_11
  rw [View.canon_unit_zero hz]
  simp only [View.ld_unit_zero (S := S2000x128) hz, View.ld_unit_zero (S := S2000x1) hz, View.ld_unit_zero (S := S256x128) hz, View.ld_unit_zero (S := S128x128) hz, View.ld_unit_zero (S := S1x128) hz]
  funext y
  exact block1_apply V c t y

/-- An index of the output table is in point t's block iff each coordinate is in the block's range on its axis. -/
theorem mem_blk1 (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v24).slice (win1_11.rect t)).set ↔ _
  rw [View.set_slice_whole, Rect.mem_set_unit]
  exact Iff.rfl

/-- Row r of the output table is in the block of point r / 2000. -/
theorem cover1 (i : S50000x128.Idx) : ∃ t : Fin cfg1.N, (cfg1.win 11).flush t = true ∧ i ∈ ((cfg1.win 11).blk t).view.set := by
  have hi0 : (i 0).val < 50000 := (i 0).isLt
  have hi1 : (i 1).val < 128 := (i 1).isLt
  have hq : (i 0).val / 2000 < 25 := by omega
  refine ⟨⟨(i 0).val / 2000, lt_of_lt_of_eq hq N_1.symm⟩, flush1_11 _, ?_⟩
  rw [mem_blk1]
  obtain ⟨-, -, -, -, -, -, e0, e1, -, -, -, -, -, -, -, -, -, -, -, -, -, -, -, -⟩ := idx_facts1 ⟨(i 0).val / 2000, lt_of_lt_of_eq hq N_1.symm⟩
  have e0' : win1_11.index ⟨(i 0).val / 2000, lt_of_lt_of_eq hq N_1.symm⟩ (0 : Fin 2) = (i 0).val / 2000 := e0
  intro a
  match a with
  | ⟨0, _⟩ => show win1_11.index _ (0 : Fin 2) * 2000 ≤ (i 0).val ∧ (i 0).val < win1_11.index _ (0 : Fin 2) * 2000 + 2000; omega
  | ⟨1, _⟩ => show win1_11.index _ (1 : Fin 2) * 128 ≤ (i 1).val ∧ (i 1).val < win1_11.index _ (1 : Fin 2) * 128 + 128; omega

/-- The output table after the region: the updated table, whatever the region found. -/
theorem final1 (c : Dev nD) : (dat1 (F := Ideal) V c).arrAt 11 cfg1.N
    = Cert.Spec.updArr (V c main_arg1) (V c main_v9) (V c main_v18) (V c main_arg6) (V c main_v19) (V c main_arg8) (V c main_v20) (V c main_arg10) (V c main_v21) (V c main_v22) (V c main_v23) :=
  (dat1 (F := Ideal) V c).arrAt_eq_of_cover 11 _ (fun t _ => flushed1_eq V c t) (cover1)

/-! ## Region 3: 100 points, blocks of 2000 rows of 200000-row tables -/

/-- Window 0's block at point t. -/
abbrev b3_0 (c : Dev nD) (t : Fin cfg3.N) : Vec Ideal S2000x128 .f32 := iblk3 V c 0 t
/-- Window 0's array as the region finds it. -/
abbrev a3_0 (c : Dev nD) : Vec Ideal S200000x128 .f32 := V c main_arg0
/-- Window 1's block at point t. -/
abbrev b3_1 (c : Dev nD) (t : Fin cfg3.N) : Vec Ideal S2000x128 .f32 := iblk3 V c 1 t
/-- Window 1's array as the region finds it. -/
abbrev a3_1 (c : Dev nD) : Vec Ideal S200000x128 .f32 := V c main_v34
/-- Window 2's block at point t. -/
abbrev b3_2 (c : Dev nD) (t : Fin cfg3.N) : Vec Ideal S2000x1 .f32 := iblk3 V c 2 t
/-- Window 2's array as the region finds it. -/
abbrev a3_2 (c : Dev nD) : Vec Ideal S200000x1 .f32 := V c main_v43
/-- Window 3's block at point t. -/
abbrev b3_3 (c : Dev nD) (t : Fin cfg3.N) : Vec Ideal S256x128 .f32 := iblk3 V c 3 t
/-- Window 3's array as the region finds it. -/
abbrev a3_3 (c : Dev nD) : Vec Ideal S256x128 .f32 := V c main_arg16
/-- Window 4's block at point t. -/
abbrev b3_4 (c : Dev nD) (t : Fin cfg3.N) : Vec Ideal S1x128 .f32 := iblk3 V c 4 t
/-- Window 4's array as the region finds it. -/
abbrev a3_4 (c : Dev nD) : Vec Ideal S1x128 .f32 := V c main_v44
/-- Window 5's block at point t. -/
abbrev b3_5 (c : Dev nD) (t : Fin cfg3.N) : Vec Ideal S256x128 .f32 := iblk3 V c 5 t
/-- Window 5's array as the region finds it. -/
abbrev a3_5 (c : Dev nD) : Vec Ideal S256x128 .f32 := V c main_arg18
/-- Window 6's block at point t. -/
abbrev b3_6 (c : Dev nD) (t : Fin cfg3.N) : Vec Ideal S1x128 .f32 := iblk3 V c 6 t
/-- Window 6's array as the region finds it. -/
abbrev a3_6 (c : Dev nD) : Vec Ideal S1x128 .f32 := V c main_v45
/-- Window 7's block at point t. -/
abbrev b3_7 (c : Dev nD) (t : Fin cfg3.N) : Vec Ideal S128x128 .f32 := iblk3 V c 7 t
/-- Window 7's array as the region finds it. -/
abbrev a3_7 (c : Dev nD) : Vec Ideal S128x128 .f32 := V c main_arg20
/-- Window 8's block at point t. -/
abbrev b3_8 (c : Dev nD) (t : Fin cfg3.N) : Vec Ideal S1x128 .f32 := iblk3 V c 8 t
/-- Window 8's array as the region finds it. -/
abbrev a3_8 (c : Dev nD) : Vec Ideal S1x128 .f32 := V c main_v46
/-- Window 9's block at point t. -/
abbrev b3_9 (c : Dev nD) (t : Fin cfg3.N) : Vec Ideal S1x128 .f32 := iblk3 V c 9 t
/-- Window 9's array as the region finds it. -/
abbrev a3_9 (c : Dev nD) : Vec Ideal S1x128 .f32 := V c main_v47
/-- Window 10's block at point t. -/
abbrev b3_10 (c : Dev nD) (t : Fin cfg3.N) : Vec Ideal S1x128 .f32 := iblk3 V c 10 t
/-- Window 10's array as the region finds it. -/
abbrev a3_10 (c : Dev nD) : Vec Ideal S1x128 .f32 := V c main_v48

theorem lt_N3 (t : Fin cfg3.N) : t.val < 100 := lt_of_lt_of_eq t.isLt N_3

/-- The printed index maps, decided once over the grid: the three row windows and the output sit at block (t, 0), the eight weight windows at block (0, 0). -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_11.index t (0 : Fin 2) = t.val
    ∧ win3_11.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0 :=
  (by decide +kernel : ∀ t : Fin grid3.N, _)

/-- Row r of window 0's block at point t is row 2000 t + r of its table. -/
theorem b3_0_apply (c : Dev nD) (t : Fin cfg3.N) (r : Fin 2000) (k : Fin 128) (h : t.val * 2000 + r.val < 200000) :
    b3_0 V c t (ix2 r k) = a3_0 V c (ix2 ⟨t.val * 2000 + r.val, h⟩ k) := by
  obtain ⟨e0, e1, -, -, -, -, -, -, -, -, -, -, -, -, -, -, -, -, -, -, -, -, -, -⟩ := idx_facts3 t
  show V c main_arg0 (((cfg3.win 0).blk t).view.emb (ix2 r k)) = V c main_arg0 _
  refine congrArg _ (funext fun a => Fin.ext ?_)
  match a with
  | ⟨0, _⟩ => show win3_0.index t (0 : Fin 2) * 2000 + 1 * r.val = t.val * 2000 + r.val; omega
  | ⟨1, _⟩ => show win3_0.index t (1 : Fin 2) * 128 + 1 * k.val = k.val; omega

/-- Row r of window 1's block at point t is row 2000 t + r of its table. -/
theorem b3_1_apply (c : Dev nD) (t : Fin cfg3.N) (r : Fin 2000) (k : Fin 128) (h : t.val * 2000 + r.val < 200000) :
    b3_1 V c t (ix2 r k) = a3_1 V c (ix2 ⟨t.val * 2000 + r.val, h⟩ k) := by
  obtain ⟨-, -, e0, e1, -, -, -, -, -, -, -, -, -, -, -, -, -, -, -, -, -, -, -, -⟩ := idx_facts3 t
  show V c main_v34 (((cfg3.win 1).blk t).view.emb (ix2 r k)) = V c main_v34 _
  refine congrArg _ (funext fun a => Fin.ext ?_)
  match a with
  | ⟨0, _⟩ => show win3_1.index t (0 : Fin 2) * 2000 + 1 * r.val = t.val * 2000 + r.val; omega
  | ⟨1, _⟩ => show win3_1.index t (1 : Fin 2) * 128 + 1 * k.val = k.val; omega

/-- Row r of window 2's block at point t is row 2000 t + r of its table. -/
theorem b3_2_apply (c : Dev nD) (t : Fin cfg3.N) (r : Fin 2000) (k : Fin 1) (h : t.val * 2000 + r.val < 200000) :
    b3_2 V c t (ix2 r k) = a3_2 V c (ix2 ⟨t.val * 2000 + r.val, h⟩ k) := by
  obtain ⟨-, -, -, -, e0, e1, -, -, -, -, -, -, -, -, -, -, -, -, -, -, -, -, -, -⟩ := idx_facts3 t
  show V c main_v43 (((cfg3.win 2).blk t).view.emb (ix2 r k)) = V c main_v43 _
  refine congrArg _ (funext fun a => Fin.ext ?_)
  match a with
  | ⟨0, _⟩ => show win3_2.index t (0 : Fin 2) * 2000 + 1 * r.val = t.val * 2000 + r.val; omega
  | ⟨1, _⟩ => show win3_2.index t (1 : Fin 2) * 1 + 1 * k.val = k.val; omega

/-- Window 3 is its whole table at every point. -/
theorem b3_3_eq (c : Dev nD) (t : Fin cfg3.N) : b3_3 V c t = a3_3 V c := by
  obtain ⟨-, -, -, -, -, -, -, -, e0, e1, -, -, -, -, -, -, -, -, -, -, -, -, -, -⟩ := idx_facts3 t
  funext y
  show V c main_arg16 (((cfg3.win 3).blk t).view.emb y) = V c main_arg16 y
  refine congrArg _ (funext fun a => Fin.ext ?_)
  match a with
  | ⟨0, _⟩ => show win3_3.index t (0 : Fin 2) * 256 + 1 * (y 0).val = (y 0).val; omega
  | ⟨1, _⟩ => show win3_3.index t (1 : Fin 2) * 128 + 1 * (y 1).val = (y 1).val; omega

/-- Window 4 is its whole table at every point. -/
theorem b3_4_eq (c : Dev nD) (t : Fin cfg3.N) : b3_4 V c t = a3_4 V c := by
  obtain ⟨-, -, -, -, -, -, -, -, -, -, e0, e1, -, -, -, -, -, -, -, -, -, -, -, -⟩ := idx_facts3 t
  funext y
  show V c main_v44 (((cfg3.win 4).blk t).view.emb y) = V c main_v44 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5 is its whole table at every point. -/
theorem b3_5_eq (c : Dev nD) (t : Fin cfg3.N) : b3_5 V c t = a3_5 V c := by
  obtain ⟨-, -, -, -, -, -, -, -, -, -, -, -, e0, e1, -, -, -, -, -, -, -, -, -, -⟩ := idx_facts3 t
  funext y
  show V c main_arg18 (((cfg3.win 5).blk t).view.emb y) = V c main_arg18 y
  refine congrArg _ (funext fun a => Fin.ext ?_)
  match a with
  | ⟨0, _⟩ => show win3_5.index t (0 : Fin 2) * 256 + 1 * (y 0).val = (y 0).val; omega
  | ⟨1, _⟩ => show win3_5.index t (1 : Fin 2) * 128 + 1 * (y 1).val = (y 1).val; omega

/-- Window 6 is its whole table at every point. -/
theorem b3_6_eq (c : Dev nD) (t : Fin cfg3.N) : b3_6 V c t = a3_6 V c := by
  obtain ⟨-, -, -, -, -, -, -, -, -, -, -, -, -, -, e0, e1, -, -, -, -, -, -, -, -⟩ := idx_facts3 t
  funext y
  show V c main_v45 (((cfg3.win 6).blk t).view.emb y) = V c main_v45 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega

/-- Window 7 is its whole table at every point. -/
theorem b3_7_eq (c : Dev nD) (t : Fin cfg3.N) : b3_7 V c t = a3_7 V c := by
  obtain ⟨-, -, -, -, -, -, -, -, -, -, -, -, -, -, -, -, e0, e1, -, -, -, -, -, -⟩ := idx_facts3 t
  funext y
  show V c main_arg20 (((cfg3.win 7).blk t).view.emb y) = V c main_arg20 y
  refine congrArg _ (funext fun a => Fin.ext ?_)
  match a with
  | ⟨0, _⟩ => show win3_7.index t (0 : Fin 2) * 128 + 1 * (y 0).val = (y 0).val; omega
  | ⟨1, _⟩ => show win3_7.index t (1 : Fin 2) * 128 + 1 * (y 1).val = (y 1).val; omega

/-- Window 8 is its whole table at every point. -/
theorem b3_8_eq (c : Dev nD) (t : Fin cfg3.N) : b3_8 V c t = a3_8 V c := by
  obtain ⟨-, -, -, -, -, -, -, -, -, -, -, -, -, -, -, -, -, -, e0, e1, -, -, -, -⟩ := idx_facts3 t
  funext y
  show V c main_v46 (((cfg3.win 8).blk t).view.emb y) = V c main_v46 y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Window 9 is its whole table at every point. -/
theorem b3_9_eq (c : Dev nD) (t : Fin cfg3.N) : b3_9 V c t = a3_9 V c := by
  obtain ⟨-, -, -, -, -, -, -, -, -, -, -, -, -, -, -, -, -, -, -, -, e0, e1, -, -⟩ := idx_facts3 t
  funext y
  show V c main_v47 (((cfg3.win 9).blk t).view.emb y) = V c main_v47 y
  refine congrArg _ (funext fun a => Fin.ext ?_)
  match a with
  | ⟨0, _⟩ => show win3_9.index t (0 : Fin 2) * 1 + 1 * (y 0).val = (y 0).val; omega
  | ⟨1, _⟩ => show win3_9.index t (1 : Fin 2) * 128 + 1 * (y 1).val = (y 1).val; omega

/-- Window 10 is its whole table at every point. -/
theorem b3_10_eq (c : Dev nD) (t : Fin cfg3.N) : b3_10 V c t = a3_10 V c := by
  obtain ⟨-, -, -, -, -, -, -, -, -, -, -, -, -, -, -, -, -, -, -, -, -, -, e0, e1⟩ := idx_facts3 t
  funext y
  show V c main_v48 (((cfg3.win 10).blk t).view.emb y) = V c main_v48 y
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 128 + 1 * (y 1).val = (y 1).val; omega

/-- What the body leaves at row r of point t's block is the updated table's row 2000 t + r. -/
theorem point3 (c : Dev nD) (t : Fin cfg3.N) (r : Fin 2000) (j : Fin 128) (h : t.val * 2000 + r.val < 200000) :
    k3_pay1 (b3_0 V c t) (k3_pay4 (b3_7 V c t)) (k3_pay5 (b3_0 V c t) (b3_1 V c t) (b3_2 V c t) (b3_3 V c t) (b3_4 V c t)) (k3_pay6 (b3_0 V c t) (b3_1 V c t) (b3_2 V c t) (b3_5 V c t) (b3_6 V c t))
        (constant (F := Ideal) S2000x128 .f32 0x00000000#32) (b3_8 V c t) (b3_9 V c t) (b3_10 V c t) (ix2 r j)
      = Cert.Spec.updArr (a3_0 V c) (a3_1 V c) (a3_2 V c) (a3_3 V c) (a3_4 V c) (a3_5 V c) (a3_6 V c) (a3_7 V c) (a3_8 V c) (a3_9 V c) (a3_10 V c) (ix2 ⟨t.val * 2000 + r.val, h⟩ j) := by
  refine (Cert.KernelIdeal.KUpdPay.pay3_apply (b3_0 V c t) (b3_1 V c t) (b3_2 V c t) (b3_3 V c t) (b3_4 V c t) (b3_5 V c t) (b3_6 V c t) (b3_7 V c t) (b3_8 V c t) (b3_9 V c t) (b3_10 V c t) r j).trans ?_
  rw [b3_3_eq V c t, b3_4_eq V c t, b3_5_eq V c t, b3_6_eq V c t, b3_7_eq V c t, b3_8_eq V c t, b3_9_eq V c t, b3_10_eq V c t]
  exact lnAt_combAt_congr (b3_0 V c t) (b3_1 V c t) (b3_2 V c t) (a3_0 V c) (a3_1 V c) (a3_2 V c) (a3_3 V c) (a3_4 V c) (a3_5 V c) (a3_6 V c) (a3_7 V c) (a3_8 V c) (a3_9 V c) (a3_10 V c) r ⟨t.val * 2000 + r.val, h⟩
    (fun k => b3_0_apply V c t r k h) (fun k => b3_1_apply V c t r k h) (b3_2_apply V c t r 0 h) j

/-- Row r of the output's block at point t is row 2000 t + r of the output table. -/
theorem emb3_11 (t : Fin cfg3.N) (r : Fin 2000) (j : Fin 128) (h : t.val * 2000 + r.val < 200000) :
    ((cfg3.win 11).blk t).view.emb (ix2 r j) = (ix2 ⟨t.val * 2000 + r.val, h⟩ j : S200000x128.Idx) := by
  obtain ⟨-, -, -, -, -, -, e0, e1, -, -, -, -, -, -, -, -, -, -, -, -, -, -, -, -⟩ := idx_facts3 t
  refine funext fun a => Fin.ext ?_
  match a with
  | ⟨0, _⟩ => show win3_11.index t (0 : Fin 2) * 2000 + 1 * r.val = t.val * 2000 + r.val; omega
  | ⟨1, _⟩ => show win3_11.index t (1 : Fin 2) * 128 + 1 * j.val = j.val; omega

/-- What the body leaves at point t, index by index, is the updated table read through the output's block at t. -/
theorem block3_apply (c : Dev nD) (t : Fin cfg3.N) (y : S2000x128.Idx) :
    k3_pay1 (b3_0 V c t) (k3_pay4 (b3_7 V c t)) (k3_pay5 (b3_0 V c t) (b3_1 V c t) (b3_2 V c t) (b3_3 V c t) (b3_4 V c t)) (k3_pay6 (b3_0 V c t) (b3_1 V c t) (b3_2 V c t) (b3_5 V c t) (b3_6 V c t))
        (constant (F := Ideal) S2000x128 .f32 0x00000000#32) (b3_8 V c t) (b3_9 V c t) (b3_10 V c t) y
      = Cert.Spec.updArr (a3_0 V c) (a3_1 V c) (a3_2 V c) (a3_3 V c) (a3_4 V c) (a3_5 V c) (a3_6 V c) (a3_7 V c) (a3_8 V c) (a3_9 V c) (a3_10 V c) (((cfg3.win 11).blk t).view.emb y) := by
  obtain ⟨r, j, rfl⟩ : ∃ (r : Fin 2000) (j : Fin 128), y = ix2 r j := ⟨y 0, y 1, eq_ix2 y⟩
  have ht : t.val < 100 := lt_N3 t
  have hr : t.val * 2000 + r.val < 200000 := by have := r.isLt; omega
  rw [emb3_11 t r j hr]
  exact point3 V c t r j hr

/-- What point t writes back is block t of the updated table. -/
theorem flushed3_eq (c : Dev nD) (t : Fin cfg3.N) :
    (dat3 (F := Ideal) V c).flushed 11 t = ((cfg3.win 11).blk t).view.read (Elt Ideal)
      (Cert.Spec.updArr (V c main_arg0) (V c main_v34) (V c main_v43) (V c main_arg16) (V c main_v44) (V c main_arg18) (V c main_v45) (V c main_arg20) (V c main_v46) (V c main_v47) (V c main_v48)) := by
  show (cfg3.win 11).cut (grid3.coords t) ((dat3 V c).after 11 t) = _
  rw [after3_11]
  unfold out3_11
  rw [View.canon_unit_zero hz]
  simp only [View.ld_unit_zero (S := S2000x128) hz, View.ld_unit_zero (S := S2000x1) hz, View.ld_unit_zero (S := S256x128) hz, View.ld_unit_zero (S := S128x128) hz, View.ld_unit_zero (S := S1x128) hz]
  funext y
  exact block3_apply V c t y

/-- An index of the output table is in point t's block iff each coordinate is in the block's range on its axis. -/
theorem mem_blk3 (t : Fin cfg3.N) (i : S200000x128.Idx) :
    i ∈ ((cfg3.win 11).blk t).view.set ↔ ∀ a : Fin 2, win3_11.index t a * S2000x128.size a ≤ (i a).val ∧ (i a).val < win3_11.index t a * S2000x128.size a + S2000x128.size a := by
  show i ∈ ((View.whole main_v49).slice (win3_11.rect t)).set ↔ _
  rw [View.set_slice_whole, Rect.mem_set_unit]
  exact Iff.rfl

/-- Row r of the output table is in the block of point r / 2000. -/
theorem cover3 (i : S200000x128.Idx) : ∃ t : Fin cfg3.N, (cfg3.win 11).flush t = true ∧ i ∈ ((cfg3.win 11).blk t).view.set := by
  have hi0 : (i 0).val < 200000 := (i 0).isLt
  have hi1 : (i 1).val < 128 := (i 1).isLt
  have hq : (i 0).val / 2000 < 100 := by omega
  refine ⟨⟨(i 0).val / 2000, lt_of_lt_of_eq hq N_3.symm⟩, flush3_11 _, ?_⟩
  rw [mem_blk3]
  obtain ⟨-, -, -, -, -, -, e0, e1, -, -, -, -, -, -, -, -, -, -, -, -, -, -, -, -⟩ := idx_facts3 ⟨(i 0).val / 2000, lt_of_lt_of_eq hq N_3.symm⟩
  have e0' : win3_11.index ⟨(i 0).val / 2000, lt_of_lt_of_eq hq N_3.symm⟩ (0 : Fin 2) = (i 0).val / 2000 := e0
  intro a
  match a with
  | ⟨0, _⟩ => show win3_11.index _ (0 : Fin 2) * 2000 ≤ (i 0).val ∧ (i 0).val < win3_11.index _ (0 : Fin 2) * 2000 + 2000; omega
  | ⟨1, _⟩ => show win3_11.index _ (1 : Fin 2) * 128 ≤ (i 1).val ∧ (i 1).val < win3_11.index _ (1 : Fin 2) * 128 + 128; omega

/-- The output table after the region: the updated table, whatever the region found. -/
theorem final3 (c : Dev nD) : (dat3 (F := Ideal) V c).arrAt 11 cfg3.N
    = Cert.Spec.updArr (V c main_arg0) (V c main_v34) (V c main_v43) (V c main_arg16) (V c main_v44) (V c main_arg18) (V c main_v45) (V c main_arg20) (V c main_v46) (V c main_v47) (V c main_v48) :=
  (dat3 (F := Ideal) V c).arrAt_eq_of_cover 11 _ (fun t _ => flushed3_eq V c t) (cover3)

end Cert.KernelIdeal.KUpd

end
-- ==== Proof.RefDefs.lean ====
/-
  The reference's operations, written out as plain functions of its inputs: for each direction of the layer
  the edge columns, the per-edge messages, their sums per destination, the edge counts, and the gated,
  normalised update of the destination rows. Each function composes the operations in the program's order.
-/
import proofs.«423421_j88751204204557_2_alg».proof.Proof.Gen.ReferenceIdeal

noncomputable section

namespace Cert.ReferenceIdeal.RefDefs

open Idealize.ShloMosaic Idealize.SL.Sem
open Cert.ReferenceIdeal Cert.ReferenceIdeal.Facts₀ Cert.ReferenceIdeal.Facts

variable {F : FTy → Type} [FloatOps F]

/-! ## Bottom-up: rows of the 200000-row table into the 50000 destinations -/

/-- The source-row column of the edge list: row 0 of the pair, a negative number moved up by the table's height. -/
def idxU (e : IVec S2x600000 32) : IVec S600000x1 32 :=
  have v0 : IVec S1x600000 32 := extractStridedSlice S1x600000 ![0, 0] e slices_S2x600000_S1x600000_0_0
  have v1 : IVec S600000 32 := shapeCast S600000 v0 shapeCasts_S1x600000_S600000
  have c : IVec S_ 32 := constantI S_ 32 0#32
  have v4 : IVec S600000 32 := broadcastInDim S600000 ![] bcast_S_S600000 c
  have v5 : IVec S600000 1 := cmpi .slt v1 v4
  have c_0 : IVec S_ 32 := constantI S_ 32 200000#32
  have v6 : IVec S600000 32 := broadcastInDim S600000 ![] bcast_S_S600000 c_0
  have v7 : IVec S600000 32 := addi v1 v6
  have v8 : IVec S600000 32 := select v5 v7 v1
  broadcastInDim S600000x1 ![0] bcast_S600000_S600000x1_0 v8

/-- The destination column of the edge list: row 1 of the pair. -/
def segU (e : IVec S2x600000 32) : IVec S600000x1 32 :=
  have v2 : IVec S1x600000 32 := extractStridedSlice S1x600000 ![1, 0] e slices_S2x600000_S1x600000_1_0
  have v3 : IVec S600000 32 := shapeCast S600000 v2 shapeCasts_S1x600000_S600000
  broadcastInDim S600000x1 ![0] bcast_S600000_S600000x1_0 v3

/-- One transformed source row per edge: the gathered rows times W, plus the bias row. -/
def msgU (X : FVec F S200000x128 .f32) (e : IVec S2x600000 32) (W : FVec F S128x128 .f32) (b : FVec F S128 .f32) :
    FVec F S600000x128 .f32 :=
  have v10 : FVec F S600000x128 .f32 := Host.gather gather_S200000x128_S600000x1_S600000x128_1_0_n_n_0_1_1128 X (idxU e)
  have v11 : FVec F S600000x128 .f32 := Host.dotGeneral dot_S600000x128_S128x128_S600000x128_1_0_0_1_n_n none v10 W
  have v12 : FVec F S1x128 .f32 := broadcastInDim S1x128 ![1] bcast_S128_S1x128_1 b
  have v13 : FVec F S600000x128 .f32 := broadcastInDim S600000x128 ![0, 1] bcast_S1x128_S600000x128_0_1 v12
  addf v11 v13

/-- The rows summed into their destinations, from the zero table. -/
def aggU (msgs : FVec F S600000x128 .f32) (e : IVec S2x600000 32) : FVec F S50000x128 .f32 :=
  have cst : FVec F S_ .f32 := constant S_ .f32 0x00000000#32
  have v15 : FVec F S50000x128 .f32 := broadcastInDim S50000x128 ![] bcast_S_S50000x128 cst
  Host.scatterAdd scatter_S50000x128_S600000x1_S600000x128_1_0_0_1 v15 (segU e) msgs

/-- The number of edges into each destination, and at least 1. -/
def cntU (e : IVec S2x600000 32) : FVec F S50000 .f32 :=
  have cst_1 : FVec F S_ .f32 := constant S_ .f32 0x3F800000#32
  have v18 : FVec F S600000 .f32 := broadcastInDim S600000 ![] bcast_S_S600000 cst_1
  have cst_2 : FVec F S_ .f32 := constant S_ .f32 0x00000000#32
  have v19 : FVec F S50000 .f32 := broadcastInDim S50000 ![] bcast_S_S50000 cst_2
  have v21 : FVec F S50000 .f32 := Host.scatterAdd scatter_S50000_S600000x1_S600000_n_0_0_1 v19 (segU e) v18
  have cst_3 : FVec F S_ .f32 := constant S_ .f32 0x3F800000#32
  have v22 : FVec F S50000 .f32 := broadcastInDim S50000 ![] bcast_S_S50000 cst_3
  maximumf v21 v22

/-- The gated update of the destination rows and its layer normalisation, stage by stage. -/
def tailU (dst agg : FVec F S50000x128 .f32) (mc : FVec F S50000 .f32) (gw : FVec F S256x128 .f32) (gb : FVec F S128 .f32)
    (u1w : FVec F S256x128 .f32) (u1b : FVec F S128 .f32) (u2w : FVec F S128x128 .f32) (u2b lng lnb : FVec F S128 .f32) :
    FVec F S50000x128 .f32 :=
  have v24 : FVec F S50000x1 .f32 := broadcastInDim S50000x1 ![0] bcast_S50000_S50000x1_0 mc
  have v25 : FVec F S50000x128 .f32 := broadcastInDim S50000x128 ![0, 1] bcast_S50000x1_S50000x128_0_1 v24
  have v26 : FVec F S50000x128 .f32 := Host.divf agg v25
  have v27 : FVec F S50000x256 .f32 :=
    concatenate S50000x256 1 [⟨S50000x128, dst⟩, ⟨S50000x128, v26⟩] concatenates_S50000x128_S50000x128_S50000x256_d1
  have v28 : FVec F S50000x128 .f32 := Host.dotGeneral dot_S50000x256_S256x128_S50000x128_1_0_0_1_n_n none v27 gw
  have v29 : FVec F S1x128 .f32 := broadcastInDim S1x128 ![1] bcast_S128_S1x128_1 gb
  have v30 : FVec F S50000x128 .f32 := broadcastInDim S50000x128 ![0, 1] bcast_S1x128_S50000x128_0_1 v29
  have v31 : FVec F S50000x128 .f32 := addf v28 v30
  have v32 : FVec F S50000x128 .f32 := Host.negf v31
  have v33 : FVec F S50000x128 .f32 := Host.exp v32
  have cst_4 : FVec F S_ .f32 := constant S_ .f32 0x3F800000#32
  have v34 : FVec F S50000x128 .f32 := broadcastInDim S50000x128 ![] bcast_S_S50000x128 cst_4
  have v35 : FVec F S50000x128 .f32 := addf v34 v33
  have cst_5 : FVec F S_ .f32 := constant S_ .f32 0x3F800000#32
  have v36 : FVec F S50000x128 .f32 := broadcastInDim S50000x128 ![] bcast_S_S50000x128 cst_5
  have v37 : FVec F S50000x128 .f32 := Host.divf v36 v35
  have v38 : FVec F S50000x128 .f32 := Host.dotGeneral dot_S50000x256_S256x128_S50000x128_1_0_0_1_n_n none v27 u1w
  have v39 : FVec F S1x128 .f32 := broadcastInDim S1x128 ![1] bcast_S128_S1x128_1 u1b
  have v40 : FVec F S50000x128 .f32 := broadcastInDim S50000x128 ![0, 1] bcast_S1x128_S50000x128_0_1 v39
  have v41 : FVec F S50000x128 .f32 := addf v38 v40
  have relu_cst : FVec F S_ .f32 := constant S_ .f32 0x00000000#32
  have relu_v0 : FVec F S50000x128 .f32 := broadcastInDim S50000x128 ![] bcast_S_S50000x128 relu_cst
  have v42 : FVec F S50000x128 .f32 := maximumf v41 relu_v0
  have v43 : FVec F S50000x128 .f32 := Host.dotGeneral dot_S50000x128_S128x128_S50000x128_1_0_0_1_n_n none v42 u2w
  have v44 : FVec F S1x128 .f32 := broadcastInDim S1x128 ![1] bcast_S128_S1x128_1 u2b
  have v45 : FVec F S50000x128 .f32 := broadcastInDim S50000x128 ![0, 1] bcast_S1x128_S50000x128_0_1 v44
  have v46 : FVec F S50000x128 .f32 := addf v43 v45
  have v47 : FVec F S50000x128 .f32 := mulf v37 dst
  have cst_6 : FVec F S_ .f32 := constant S_ .f32 0x3F800000#32
  have v48 : FVec F S50000x128 .f32 := broadcastInDim S50000x128 ![] bcast_S_S50000x128 cst_6
  have v49 : FVec F S50000x128 .f32 := subf v48 v37
  have v50 : FVec F S50000x128 .f32 := mulf v49 v46
  have v51 : FVec F S50000x128 .f32 := addf v47 v50
  have cst_7 : FVec F S_ .f32 := constant S_ .f32 0x00000000#32
  have v52 : FVec F S50000 .f32 := Host.reduceAdd v51 cst_7 reducesTo_S50000x128_S50000_d1 h_S_
  have v53 : FVec F S50000x1 .f32 := broadcastInDim S50000x1 ![0] bcast_S50000_S50000x1_0 v52
  have cst_8 : FVec F S_ .f32 := constant S_ .f32 0x43000000#32
  have v54 : FVec F S50000x1 .f32 := broadcastInDim S50000x1 ![] bcast_S_S50000x1 cst_8
  have v55 : FVec F S50000x1 .f32 := Host.divf v53 v54
  have c_9 : IVec S_ 32 := constantI S_ 32 0#32
  have var_cst : FVec F S_ .f32 := constant S_ .f32 0x00000000#32
  have var_v0 : FVec F S50000 .f32 := Host.reduceAdd v51 var_cst reducesTo_S50000x128_S50000_d1 h_S_
  have var_v1 : FVec F S50000x1 .f32 := broadcastInDim S50000x1 ![0] bcast_S50000_S50000x1_0 var_v0
  have var_cst_0 : FVec F S_ .f32 := constant S_ .f32 0x43000000#32
  have var_v2 : FVec F S50000x1 .f32 := broadcastInDim S50000x1 ![] bcast_S_S50000x1 var_cst_0
  have var_v3 : FVec F S50000x1 .f32 := Host.divf var_v1 var_v2
  have var_v4 : FVec F S50000x128 .f32 := broadcastInDim S50000x128 ![0, 1] bcast_S50000x1_S50000x128_0_1 var_v3
  have var_v5 : FVec F S50000x128 .f32 := subf v51 var_v4
  have var_v6 : FVec F S50000x128 .f32 := mulf var_v5 var_v5
  have var_v7 : FVec F S_ .f32 := sitofp .f32 c_9
  have var_cst_1 : FVec F S_ .f32 := constant S_ .f32 0x43000000#32
  have var_v8 : FVec F S_ .f32 := subf var_cst_1 var_v7
  have var_cst_2 : FVec F S_ .f32 := constant S_ .f32 0x00000000#32
  have var_v9 : FVec F S50000 .f32 := Host.reduceAdd var_v6 var_cst_2 reducesTo_S50000x128_S50000_d1 h_S_
  have var_v10 : FVec F S50000x1 .f32 := broadcastInDim S50000x1 ![0] bcast_S50000_S50000x1_0 var_v9
  have var_v11 : FVec F S50000x1 .f32 := broadcastInDim S50000x1 ![] bcast_S_S50000x1 var_v8
  have var_v12 : FVec F S50000x1 .f32 := Host.divf var_v10 var_v11
  have var_cst_3 : FVec F S_ .f32 := constant S_ .f32 0x00000000#32
  have var_v13 : IVec S_ 1 := cmpf .ogt var_v8 var_cst_3
  have var_cst_4 : FVec F S_ .f32 := constant S_ .f32 0x7FC00000#32
  have where_v0 : FVec F S_ .f32 := id var_cst_4
  have where_v1 : FVec F S50000x1 .f32 := broadcastInDim S50000x1 ![] bcast_S_S50000x1 where_v0
  have v56 : FVec F S50000x1 .f32 := select (broadcastInDim S50000x1 ![] bcast_S_S50000x1 var_v13) var_v12 where_v1
  have v57 : FVec F S50000x128 .f32 := broadcastInDim S50000x128 ![0, 1] bcast_S50000x1_S50000x128_0_1 v55
  have v58 : FVec F S50000x128 .f32 := subf v51 v57
  have cst_10 : FVec F S_ .f32 := constant S_ .f32 0x3727C5AC#32
  have v59 : FVec F S50000x1 .f32 := broadcastInDim S50000x1 ![] bcast_S_S50000x1 cst_10
  have v60 : FVec F S50000x1 .f32 := addf v56 v59
  have v61 : FVec F S50000x1 .f32 := Host.rsqrt v60
  have v62 : FVec F S50000x128 .f32 := broadcastInDim S50000x128 ![0, 1] bcast_S50000x1_S50000x128_0_1 v61
  have v63 : FVec F S50000x128 .f32 := mulf v58 v62
  have v64 : FVec F S1x128 .f32 := broadcastInDim S1x128 ![1] bcast_S128_S1x128_1 lng
  have v65 : FVec F S50000x128 .f32 := broadcastInDim S50000x128 ![0, 1] bcast_S1x128_S50000x128_0_1 v64
  have v66 : FVec F S50000x128 .f32 := mulf v63 v65
  have v67 : FVec F S1x128 .f32 := broadcastInDim S1x128 ![1] bcast_S128_S1x128_1 lnb
  have v68 : FVec F S50000x128 .f32 := broadcastInDim S50000x128 ![0, 1] bcast_S1x128_S50000x128_0_1 v67
  addf v66 v68

/-! ## Top-down: rows of the 50000-row table into the 200000 destinations -/

/-- The source-row column of the edge list: row 0 of the pair, a negative number moved up by the table's height. -/
def idxL (e : IVec S2x600000 32) : IVec S600000x1 32 :=
  have v0 : IVec S1x600000 32 := extractStridedSlice S1x600000 ![0, 0] e slices_S2x600000_S1x600000_0_0
  have v1 : IVec S600000 32 := shapeCast S600000 v0 shapeCasts_S1x600000_S600000
  have c : IVec S_ 32 := constantI S_ 32 0#32
  have v4 : IVec S600000 32 := broadcastInDim S600000 ![] bcast_S_S600000 c
  have v5 : IVec S600000 1 := cmpi .slt v1 v4
  have c_0 : IVec S_ 32 := constantI S_ 32 50000#32
  have v6 : IVec S600000 32 := broadcastInDim S600000 ![] bcast_S_S600000 c_0
  have v7 : IVec S600000 32 := addi v1 v6
  have v8 : IVec S600000 32 := select v5 v7 v1
  broadcastInDim S600000x1 ![0] bcast_S600000_S600000x1_0 v8

/-- The destination column of the edge list: row 1 of the pair. -/
def segL (e : IVec S2x600000 32) : IVec S600000x1 32 :=
  have v2 : IVec S1x600000 32 := extractStridedSlice S1x600000 ![1, 0] e slices_S2x600000_S1x600000_1_0
  have v3 : IVec S600000 32 := shapeCast S600000 v2 shapeCasts_S1x600000_S600000
  broadcastInDim S600000x1 ![0] bcast_S600000_S600000x1_0 v3

/-- One transformed source row per edge: the gathered rows times W, plus the bias row. -/
def msgL (X : FVec F S50000x128 .f32) (e : IVec S2x600000 32) (W : FVec F S128x128 .f32) (b : FVec F S128 .f32) :
    FVec F S600000x128 .f32 :=
  have v10 : FVec F S600000x128 .f32 := Host.gather gather_S50000x128_S600000x1_S600000x128_1_0_n_n_0_1_1128 X (idxL e)
  have v11 : FVec F S600000x128 .f32 := Host.dotGeneral dot_S600000x128_S128x128_S600000x128_1_0_0_1_n_n none v10 W
  have v12 : FVec F S1x128 .f32 := broadcastInDim S1x128 ![1] bcast_S128_S1x128_1 b
  have v13 : FVec F S600000x128 .f32 := broadcastInDim S600000x128 ![0, 1] bcast_S1x128_S600000x128_0_1 v12
  addf v11 v13

/-- The rows summed into their destinations, from the zero table. -/
def aggL (msgs : FVec F S600000x128 .f32) (e : IVec S2x600000 32) : FVec F S200000x128 .f32 :=
  have cst : FVec F S_ .f32 := constant S_ .f32 0x00000000#32
  have v15 : FVec F S200000x128 .f32 := broadcastInDim S200000x128 ![] bcast_S_S200000x128 cst
  Host.scatterAdd scatter_S200000x128_S600000x1_S600000x128_1_0_0_1 v15 (segL e) msgs

/-- The number of edges into each destination, and at least 1. -/
def cntL (e : IVec S2x600000 32) : FVec F S200000 .f32 :=
  have cst_1 : FVec F S_ .f32 := constant S_ .f32 0x3F800000#32
  have v18 : FVec F S600000 .f32 := broadcastInDim S600000 ![] bcast_S_S600000 cst_1
  have cst_2 : FVec F S_ .f32 := constant S_ .f32 0x00000000#32
  have v19 : FVec F S200000 .f32 := broadcastInDim S200000 ![] bcast_S_S200000 cst_2
  have v21 : FVec F S200000 .f32 := Host.scatterAdd scatter_S200000_S600000x1_S600000_n_0_0_1 v19 (segL e) v18
  have cst_3 : FVec F S_ .f32 := constant S_ .f32 0x3F800000#32
  have v22 : FVec F S200000 .f32 := broadcastInDim S200000 ![] bcast_S_S200000 cst_3
  maximumf v21 v22

/-- The gated update of the destination rows and its layer normalisation, stage by stage. -/
def tailL (dst agg : FVec F S200000x128 .f32) (mc : FVec F S200000 .f32) (gw : FVec F S256x128 .f32) (gb : FVec F S128 .f32)
    (u1w : FVec F S256x128 .f32) (u1b : FVec F S128 .f32) (u2w : FVec F S128x128 .f32) (u2b lng lnb : FVec F S128 .f32) :
    FVec F S200000x128 .f32 :=
  have v24 : FVec F S200000x1 .f32 := broadcastInDim S200000x1 ![0] bcast_S200000_S200000x1_0 mc
  have v25 : FVec F S200000x128 .f32 := broadcastInDim S200000x128 ![0, 1] bcast_S200000x1_S200000x128_0_1 v24
  have v26 : FVec F S200000x128 .f32 := Host.divf agg v25
  have v27 : FVec F S200000x256 .f32 :=
    concatenate S200000x256 1 [⟨S200000x128, dst⟩, ⟨S200000x128, v26⟩] concatenates_S200000x128_S200000x128_S200000x256_d1
  have v28 : FVec F S200000x128 .f32 := Host.dotGeneral dot_S200000x256_S256x128_S200000x128_1_0_0_1_n_n none v27 gw
  have v29 : FVec F S1x128 .f32 := broadcastInDim S1x128 ![1] bcast_S128_S1x128_1 gb
  have v30 : FVec F S200000x128 .f32 := broadcastInDim S200000x128 ![0, 1] bcast_S1x128_S200000x128_0_1 v29
  have v31 : FVec F S200000x128 .f32 := addf v28 v30
  have v32 : FVec F S200000x128 .f32 := Host.negf v31
  have v33 : FVec F S200000x128 .f32 := Host.exp v32
  have cst_4 : FVec F S_ .f32 := constant S_ .f32 0x3F800000#32
  have v34 : FVec F S200000x128 .f32 := broadcastInDim S200000x128 ![] bcast_S_S200000x128 cst_4
  have v35 : FVec F S200000x128 .f32 := addf v34 v33
  have cst_5 : FVec F S_ .f32 := constant S_ .f32 0x3F800000#32
  have v36 : FVec F S200000x128 .f32 := broadcastInDim S200000x128 ![] bcast_S_S200000x128 cst_5
  have v37 : FVec F S200000x128 .f32 := Host.divf v36 v35
  have v38 : FVec F S200000x128 .f32 := Host.dotGeneral dot_S200000x256_S256x128_S200000x128_1_0_0_1_n_n none v27 u1w
  have v39 : FVec F S1x128 .f32 := broadcastInDim S1x128 ![1] bcast_S128_S1x128_1 u1b
  have v40 : FVec F S200000x128 .f32 := broadcastInDim S200000x128 ![0, 1] bcast_S1x128_S200000x128_0_1 v39
  have v41 : FVec F S200000x128 .f32 := addf v38 v40
  have relu_cst : FVec F S_ .f32 := constant S_ .f32 0x00000000#32
  have relu_v0 : FVec F S200000x128 .f32 := broadcastInDim S200000x128 ![] bcast_S_S200000x128 relu_cst
  have v42 : FVec F S200000x128 .f32 := maximumf v41 relu_v0
  have v43 : FVec F S200000x128 .f32 := Host.dotGeneral dot_S200000x128_S128x128_S200000x128_1_0_0_1_n_n none v42 u2w
  have v44 : FVec F S1x128 .f32 := broadcastInDim S1x128 ![1] bcast_S128_S1x128_1 u2b
  have v45 : FVec F S200000x128 .f32 := broadcastInDim S200000x128 ![0, 1] bcast_S1x128_S200000x128_0_1 v44
  have v46 : FVec F S200000x128 .f32 := addf v43 v45
  have v47 : FVec F S200000x128 .f32 := mulf v37 dst
  have cst_6 : FVec F S_ .f32 := constant S_ .f32 0x3F800000#32
  have v48 : FVec F S200000x128 .f32 := broadcastInDim S200000x128 ![] bcast_S_S200000x128 cst_6
  have v49 : FVec F S200000x128 .f32 := subf v48 v37
  have v50 : FVec F S200000x128 .f32 := mulf v49 v46
  have v51 : FVec F S200000x128 .f32 := addf v47 v50
  have cst_7 : FVec F S_ .f32 := constant S_ .f32 0x00000000#32
  have v52 : FVec F S200000 .f32 := Host.reduceAdd v51 cst_7 reducesTo_S200000x128_S200000_d1 h_S_
  have v53 : FVec F S200000x1 .f32 := broadcastInDim S200000x1 ![0] bcast_S200000_S200000x1_0 v52
  have cst_8 : FVec F S_ .f32 := constant S_ .f32 0x43000000#32
  have v54 : FVec F S200000x1 .f32 := broadcastInDim S200000x1 ![] bcast_S_S200000x1 cst_8
  have v55 : FVec F S200000x1 .f32 := Host.divf v53 v54
  have c_9 : IVec S_ 32 := constantI S_ 32 0#32
  have var_cst : FVec F S_ .f32 := constant S_ .f32 0x00000000#32
  have var_v0 : FVec F S200000 .f32 := Host.reduceAdd v51 var_cst reducesTo_S200000x128_S200000_d1 h_S_
  have var_v1 : FVec F S200000x1 .f32 := broadcastInDim S200000x1 ![0] bcast_S200000_S200000x1_0 var_v0
  have var_cst_0 : FVec F S_ .f32 := constant S_ .f32 0x43000000#32
  have var_v2 : FVec F S200000x1 .f32 := broadcastInDim S200000x1 ![] bcast_S_S200000x1 var_cst_0
  have var_v3 : FVec F S200000x1 .f32 := Host.divf var_v1 var_v2
  have var_v4 : FVec F S200000x128 .f32 := broadcastInDim S200000x128 ![0, 1] bcast_S200000x1_S200000x128_0_1 var_v3
  have var_v5 : FVec F S200000x128 .f32 := subf v51 var_v4
  have var_v6 : FVec F S200000x128 .f32 := mulf var_v5 var_v5
  have var_v7 : FVec F S_ .f32 := sitofp .f32 c_9
  have var_cst_1 : FVec F S_ .f32 := constant S_ .f32 0x43000000#32
  have var_v8 : FVec F S_ .f32 := subf var_cst_1 var_v7
  have var_cst_2 : FVec F S_ .f32 := constant S_ .f32 0x00000000#32
  have var_v9 : FVec F S200000 .f32 := Host.reduceAdd var_v6 var_cst_2 reducesTo_S200000x128_S200000_d1 h_S_
  have var_v10 : FVec F S200000x1 .f32 := broadcastInDim S200000x1 ![0] bcast_S200000_S200000x1_0 var_v9
  have var_v11 : FVec F S200000x1 .f32 := broadcastInDim S200000x1 ![] bcast_S_S200000x1 var_v8
  have var_v12 : FVec F S200000x1 .f32 := Host.divf var_v10 var_v11
  have var_cst_3 : FVec F S_ .f32 := constant S_ .f32 0x00000000#32
  have var_v13 : IVec S_ 1 := cmpf .ogt var_v8 var_cst_3
  have var_cst_4 : FVec F S_ .f32 := constant S_ .f32 0x7FC00000#32
  have where_v0 : FVec F S_ .f32 := id var_cst_4
  have where_v1 : FVec F S200000x1 .f32 := broadcastInDim S200000x1 ![] bcast_S_S200000x1 where_v0
  have v56 : FVec F S200000x1 .f32 := select (broadcastInDim S200000x1 ![] bcast_S_S200000x1 var_v13) var_v12 where_v1
  have v57 : FVec F S200000x128 .f32 := broadcastInDim S200000x128 ![0, 1] bcast_S200000x1_S200000x128_0_1 v55
  have v58 : FVec F S200000x128 .f32 := subf v51 v57
  have cst_10 : FVec F S_ .f32 := constant S_ .f32 0x3727C5AC#32
  have v59 : FVec F S200000x1 .f32 := broadcastInDim S200000x1 ![] bcast_S_S200000x1 cst_10
  have v60 : FVec F S200000x1 .f32 := addf v56 v59
  have v61 : FVec F S200000x1 .f32 := Host.rsqrt v60
  have v62 : FVec F S200000x128 .f32 := broadcastInDim S200000x128 ![0, 1] bcast_S200000x1_S200000x128_0_1 v61
  have v63 : FVec F S200000x128 .f32 := mulf v58 v62
  have v64 : FVec F S1x128 .f32 := broadcastInDim S1x128 ![1] bcast_S128_S1x128_1 lng
  have v65 : FVec F S200000x128 .f32 := broadcastInDim S200000x128 ![0, 1] bcast_S1x128_S200000x128_0_1 v64
  have v66 : FVec F S200000x128 .f32 := mulf v63 v65
  have v67 : FVec F S1x128 .f32 := broadcastInDim S1x128 ![1] bcast_S128_S1x128_1 lnb
  have v68 : FVec F S200000x128 .f32 := broadcastInDim S200000x128 ![0, 1] bcast_S1x128_S200000x128_0_1 v67
  addf v66 v68

end Cert.ReferenceIdeal.RefDefs

end
-- ==== Proof.RefOps.lean ====
import proofs.«423421_j88751204204557_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 214 operations in order, each call's body listed at the call over that call's buffers. -/
abbrev ops : List (HloOp τ sig (Elt F)) :=
  [ StableHlo.unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 200000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S200000x128_S600000x1_S600000x128_1_0_n_n_0_1_1128 x i) : (⟨S200000x128, .f32⟩ : BufTy).Contents (Elt F) → (⟨S600000x1, .i32⟩ : BufTy).Contents (Elt F) → (⟨S600000x128, .f32⟩ : BufTy).Contents (Elt F)),
    StableHlo.binary main_v10 main_arg4 main_v11 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg5 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S600000x128 ![0, 1] bcast_S1x128_S600000x128_0_1 : (⟨S1x128, .f32⟩ : BufTy).Contents (Elt F) → (⟨S600000x128, .f32⟩ : BufTy).Contents (Elt F)),
    StableHlo.binary main_v11 main_v13 main_v14 (addf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v15 (broadcastInDim S50000x128 ![] bcast_S_S50000x128 : (⟨S_, .f32⟩ : BufTy).Contents (Elt F) → (⟨S50000x128, .f32⟩ : BufTy).Contents (Elt F)),
    StableHlo.unary main_v3 main_v16 (broadcastInDim S600000x1 ![0] bcast_S600000_S600000x1_0 : (⟨S600000, .i32⟩ : BufTy).Contents (Elt F) → (⟨S600000x1, .i32⟩ : BufTy).Contents (Elt F)),
    StableHlo.ternary main_v15 main_v16 main_v14 main_v17 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_1 (constant S_ .f32 0x3F800000#32),
    StableHlo.unary main_cst_1 main_v18 (broadcastInDim S600000 ![] bcast_S_S600000 : (⟨S_, .f32⟩ : BufTy).Contents (Elt F) → (⟨S600000, .f32⟩ : BufTy).Contents (Elt F)),
    StableHlo.nullary main_cst_2 (constant S_ .f32 0x00000000#32),
    StableHlo.unary main_cst_2 main_v19 (broadcastInDim S50000 ![] bcast_S_S50000 : (⟨S_, .f32⟩ : BufTy).Contents (Elt F) → (⟨S50000, .f32⟩ : BufTy).Contents (Elt F)),
    StableHlo.unary main_v3 main_v20 (broadcastInDim S600000x1 ![0] bcast_S600000_S600000x1_0 : (⟨S600000, .i32⟩ : BufTy).Contents (Elt F) → (⟨S600000x1, .i32⟩ : BufTy).Contents (Elt F)),
    StableHlo.ternary main_v19 main_v20 main_v18 main_v21 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_3 (constant S_ .f32 0x3F800000#32),
    StableHlo.unary main_cst_3 main_v22 (broadcastInDim S50000 ![] bcast_S_S50000 : (⟨S_, .f32⟩ : BufTy).Contents (Elt F) → (⟨S50000, .f32⟩ : BufTy).Contents (Elt F)),
    StableHlo.binary main_v21 main_v22 main_v23 (maximumf : (⟨S50000, .f32⟩ : BufTy).Contents (Elt F) → (⟨S50000, .f32⟩ : BufTy).Contents (Elt F) → (⟨S50000, .f32⟩ : BufTy).Contents (Elt F)),
    StableHlo.unary main_v23 main_v24 (broadcastInDim S50000x1 ![0] bcast_S50000_S50000x1_0 : (⟨S50000, .f32⟩ : BufTy).Contents (Elt F) → (⟨S50000x1, .f32⟩ : BufTy).Contents (Elt F)),
    StableHlo.unary main_v24 main_v25 (broadcastInDim S50000x128 ![0, 1] bcast_S50000x1_S50000x128_0_1 : (⟨S50000x1, .f32⟩ : BufTy).Contents (Elt F) → (⟨S50000x128, .f32⟩ : BufTy).Contents (Elt F)),
    StableHlo.binary main_v17 main_v25 main_v26 (Host.divf : (⟨S50000x128, .f32⟩ : BufTy).Contents (Elt F) → (⟨S50000x128, .f32⟩ : BufTy).Contents (Elt F) → (⟨S50000x128, .f32⟩ : BufTy).Contents (Elt F)),
    StableHlo.binary main_arg1 main_v26 main_v27 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v27 main_arg6 main_v28 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v30 main_v31 (addf : (⟨S50000x128, .f32⟩ : BufTy).Contents (Elt F) → (⟨S50000x128, .f32⟩ : BufTy).Contents (Elt F) → (⟨S50000x128, .f32⟩ : BufTy).Contents (Elt F)),
    StableHlo.unary main_v31 main_v32 (Host.negf : (⟨S50000x128, .f32⟩ : BufTy).Contents (Elt F) → (⟨S50000x128, .f32⟩ : BufTy).Contents (Elt F)),
    StableHlo.unary main_v32 main_v33 (Host.exp : (⟨S50000x128, .f32⟩ : BufTy).Contents (Elt F) → (⟨S50000x128, .f32⟩ : BufTy).Contents (Elt F)),
    StableHlo.nullary main_cst_4 (constant S_ .f32 0x3F800000#32),
    StableHlo.unary main_cst_4 main_v34 (broadcastInDim S50000x128 ![] bcast_S_S50000x128 : (⟨S_, .f32⟩ : BufTy).Contents (Elt F) → (⟨S50000x128, .f32⟩ : BufTy).Contents (Elt F)),
    StableHlo.binary main_v34 main_v33 main_v35 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3F800000#32),
    StableHlo.unary main_cst_5 main_v36 (broadcastInDim S50000x128 ![] bcast_S_S50000x128 : (⟨S_, .f32⟩ : BufTy).Contents (Elt F) → (⟨S50000x128, .f32⟩ : BufTy).Contents (Elt F)),
    StableHlo.binary main_v36 main_v35 main_v37 (Host.divf : (⟨S50000x128, .f32⟩ : BufTy).Contents (Elt F) → (⟨S50000x128, .f32⟩ : BufTy).Contents (Elt F) → (⟨S50000x128, .f32⟩ : BufTy).Contents (Elt F)),
    StableHlo.binary main_v27 main_arg8 main_v38 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v40 main_v41 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x128, .f32⟩) (broadcastInDim S50000x128 ![] bcast_S_S50000x128),
    StableHlo.TRef.binary (.of main_v41 : StableHlo.TRef sig ⟨S50000x128, .f32⟩) (.of main_call0_v0 : StableHlo.TRef sig ⟨S50000x128, .f32⟩) (.of main_v42 : StableHlo.TRef sig ⟨S50000x128, .f32⟩) maximumf,
    StableHlo.binary main_v42 main_arg10 main_v43 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.binary main_v37 main_arg1 main_v47 (mulf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3F800000#32),
    StableHlo.unary main_cst_6 main_v48 (broadcastInDim S50000x128 ![] bcast_S_S50000x128 : (⟨S_, .f32⟩ : BufTy).Contents (Elt F) → (⟨S50000x128, .f32⟩ : BufTy).Contents (Elt F)),
    StableHlo.binary main_v48 main_v37 main_v49 (subf : (⟨S50000x128, .f32⟩ : BufTy).Contents (Elt F) → (⟨S50000x128, .f32⟩ : BufTy).Contents (Elt F) → (⟨S50000x128, .f32⟩ : BufTy).Contents (Elt F)),
    StableHlo.binary main_v49 main_v46 main_v50 (mulf : (⟨S50000x128, .f32⟩ : BufTy).Contents (Elt F) → (⟨S50000x128, .f32⟩ : BufTy).Contents (Elt F) → (⟨S50000x128, .f32⟩ : BufTy).Contents (Elt F)),
    StableHlo.binary main_v47 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x00000000#32),
    StableHlo.binary main_v51 main_cst_7 main_v52 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v52 main_v53 (broadcastInDim S50000x1 ![0] bcast_S50000_S50000x1_0 : (⟨S50000, .f32⟩ : BufTy).Contents (Elt F) → (⟨S50000x1, .f32⟩ : BufTy).Contents (Elt F)),
    StableHlo.nullary main_cst_8 (constant S_ .f32 0x43000000#32),
    StableHlo.unary main_cst_8 main_v54 (broadcastInDim S50000x1 ![] bcast_S_S50000x1 : (⟨S_, .f32⟩ : BufTy).Contents (Elt F) → (⟨S50000x1, .f32⟩ : BufTy).Contents (Elt F)),
    StableHlo.binary main_v53 main_v54 main_v55 (Host.divf : (⟨S50000x1, .f32⟩ : BufTy).Contents (Elt F) → (⟨S50000x1, .f32⟩ : BufTy).Contents (Elt F) → (⟨S50000x1, .f32⟩ : BufTy).Contents (Elt F)),
    StableHlo.nullary main_c_9 (constantI S_ 32 0#32),
    StableHlo.TRef.nullary (.of main_call1_cst : StableHlo.TRef sig ⟨S_, .f32⟩) (constant S_ .f32 0x00000000#32),
    StableHlo.TRef.binary (.of main_v51 : StableHlo.TRef sig ⟨S50000x128, .f32⟩) (.of main_call1_cst : StableHlo.TRef sig ⟨S_, .f32⟩) (.of main_call1_v0 : StableHlo.TRef sig ⟨S50000, .f32⟩) (fun x v => Host.reduceAdd x v reducesTo_S50000x128_S50000_d1 h_S_),
    StableHlo.TRef.unary (.of main_call1_v0 : StableHlo.TRef sig ⟨S50000, .f32⟩) (.of main_call1_v1 : StableHlo.TRef sig ⟨S50000x1, .f32⟩) (broadcastInDim S50000x1 ![0] bcast_S50000_S50000x1_0),
    StableHlo.TRef.nullary (.of main_call1_cst_0 : StableHlo.TRef sig ⟨S_, .f32⟩) (constant S_ .f32 0x43000000#32),
    StableHlo.TRef.unary (.of main_call1_cst_0 : StableHlo.TRef sig ⟨S_, .f32⟩) (.of main_call1_v2 : StableHlo.TRef sig ⟨S50000x1, .f32⟩) (broadcastInDim S50000x1 ![] bcast_S_S50000x1),
    StableHlo.TRef.binary (.of main_call1_v1 : StableHlo.TRef sig ⟨S50000x1, .f32⟩) (.of main_call1_v2 : StableHlo.TRef sig ⟨S50000x1, .f32⟩) (.of main_call1_v3 : StableHlo.TRef sig ⟨S50000x1, .f32⟩) Host.divf,
    StableHlo.TRef.unary (.of main_call1_v3 : StableHlo.TRef sig ⟨S50000x1, .f32⟩) (.of main_call1_v4 : StableHlo.TRef sig ⟨S50000x128, .f32⟩) (broadcastInDim S50000x128 ![0, 1] bcast_S50000x1_S50000x128_0_1),
    StableHlo.TRef.binary (.of main_v51 : StableHlo.TRef sig ⟨S50000x128, .f32⟩) (.of main_call1_v4 : StableHlo.TRef sig ⟨S50000x128, .f32⟩) (.of main_call1_v5 : StableHlo.TRef sig ⟨S50000x128, .f32⟩) subf,
    StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf,
    StableHlo.TRef.unary (.of main_c_9 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x43000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x128, .f32⟩) (.of main_call1_cst_2 : StableHlo.TRef sig ⟨S_, .f32⟩) (.of main_call1_v9 : StableHlo.TRef sig ⟨S50000, .f32⟩) (fun x v => Host.reduceAdd x v reducesTo_S50000x128_S50000_d1 h_S_),
    StableHlo.TRef.unary (.of main_call1_v9 : StableHlo.TRef sig ⟨S50000, .f32⟩) (.of main_call1_v10 : StableHlo.TRef sig ⟨S50000x1, .f32⟩) (broadcastInDim S50000x1 ![0] bcast_S50000_S50000x1_0),
    StableHlo.TRef.unary (.of main_call1_v8 : StableHlo.TRef sig ⟨S_, .f32⟩) (.of main_call1_v11 : StableHlo.TRef sig ⟨S50000x1, .f32⟩) (broadcastInDim S50000x1 ![] bcast_S_S50000x1),
    StableHlo.TRef.binary (.of main_call1_v10 : StableHlo.TRef sig ⟨S50000x1, .f32⟩) (.of main_call1_v11 : StableHlo.TRef sig ⟨S50000x1, .f32⟩) (.of main_call1_v12 : StableHlo.TRef sig ⟨S50000x1, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S50000x1, .f32⟩) (broadcastInDim S50000x1 ![] bcast_S_S50000x1),
    StableHlo.TRef.ternary (.of main_call1_v13 : StableHlo.TRef sig ⟨S_, .i1⟩) (.of main_call1_v12 : StableHlo.TRef sig ⟨S50000x1, .f32⟩) (.of main_call1_call0_v1 : StableHlo.TRef sig ⟨S50000x1, .f32⟩) (.of main_v56 : StableHlo.TRef sig ⟨S50000x1, .f32⟩) (fun p a b => select (broadcastInDim S50000x1 ![] bcast_S_S50000x1 p) a b),
    StableHlo.unary main_v55 main_v57 (broadcastInDim S50000x128 ![0, 1] bcast_S50000x1_S50000x128_0_1 : (⟨S50000x1, .f32⟩ : BufTy).Contents (Elt F) → (⟨S50000x128, .f32⟩ : BufTy).Contents (Elt F)),
    StableHlo.binary main_v51 main_v57 main_v58 (subf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v59 (broadcastInDim S50000x1 ![] bcast_S_S50000x1 : (⟨S_, .f32⟩ : BufTy).Contents (Elt F) → (⟨S50000x1, .f32⟩ : BufTy).Contents (Elt F)),
    StableHlo.binary main_v56 main_v59 main_v60 (addf : (⟨S50000x1, .f32⟩ : BufTy).Contents (Elt F) → (⟨S50000x1, .f32⟩ : BufTy).Contents (Elt F) → (⟨S50000x1, .f32⟩ : BufTy).Contents (Elt F)),
    StableHlo.unary main_v60 main_v61 (Host.rsqrt : (⟨S50000x1, .f32⟩ : BufTy).Contents (Elt F) → (⟨S50000x1, .f32⟩ : BufTy).Contents (Elt F)),
    StableHlo.unary main_v61 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v58 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg12 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (mulf : (⟨S50000x128, .f32⟩ : BufTy).Contents (Elt F) → (⟨S50000x128, .f32⟩ : BufTy).Contents (Elt F) → (⟨S50000x128, .f32⟩ : BufTy).Contents (Elt F)),
    StableHlo.unary main_arg13 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v68 main_v69 (addf : (⟨S50000x128, .f32⟩ : BufTy).Contents (Elt F) → (⟨S50000x128, .f32⟩ : BufTy).Contents (Elt F) → (⟨S50000x128, .f32⟩ : BufTy).Contents (Elt F)),
    StableHlo.unary main_arg3 main_v70 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v70 main_v71 rfl shapeCasts_S1x600000_S600000,
    StableHlo.unary main_arg3 main_v72 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v72 main_v73 rfl shapeCasts_S1x600000_S600000,
    StableHlo.nullary main_c_11 (constantI S_ 32 0#32),
    StableHlo.unary main_c_11 main_v74 (broadcastInDim S600000 ![] bcast_S_S600000 : (⟨S_, .i32⟩ : BufTy).Contents (Elt F) → (⟨S600000, .i32⟩ : BufTy).Contents (Elt F)),
    StableHlo.binary main_v71 main_v74 main_v75 (cmpi .slt : (⟨S600000, .i32⟩ : BufTy).Contents (Elt F) → (⟨S600000, .i32⟩ : BufTy).Contents (Elt F) → (⟨S600000, .i1⟩ : BufTy).Contents (Elt F)),
    StableHlo.nullary main_c_12 (constantI S_ 32 50000#32),
    StableHlo.unary main_c_12 main_v76 (broadcastInDim S600000 ![] bcast_S_S600000 : (⟨S_, .i32⟩ : BufTy).Contents (Elt F) → (⟨S600000, .i32⟩ : BufTy).Contents (Elt F)),
    StableHlo.binary main_v71 main_v76 main_v77 (addi : (⟨S600000, .i32⟩ : BufTy).Contents (Elt F) → (⟨S600000, .i32⟩ : BufTy).Contents (Elt F) → (⟨S600000, .i32⟩ : BufTy).Contents (Elt F)),
    StableHlo.ternary main_v75 main_v77 main_v71 main_v78 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v78 main_v79 (broadcastInDim S600000x1 ![0] bcast_S600000_S600000x1_0 : (⟨S600000, .i32⟩ : BufTy).Contents (Elt F) → (⟨S600000x1, .i32⟩ : BufTy).Contents (Elt F)),
    StableHlo.binary main_arg1 main_v79 main_v80 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v80 main_arg14 main_v81 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg15 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S600000x128 ![0, 1] bcast_S1x128_S600000x128_0_1 : (⟨S1x128, .f32⟩ : BufTy).Contents (Elt F) → (⟨S600000x128, .f32⟩ : BufTy).Contents (Elt F)),
    StableHlo.binary main_v81 main_v83 main_v84 (addf : (⟨S600000x128, .f32⟩ : BufTy).Contents (Elt F) → (⟨S600000x128, .f32⟩ : BufTy).Contents (Elt F) → (⟨S600000x128, .f32⟩ : BufTy).Contents (Elt F)),
    StableHlo.nullary main_cst_13 (constant S_ .f32 0x00000000#32),
    StableHlo.unary main_cst_13 main_v85 (broadcastInDim S200000x128 ![] bcast_S_S200000x128 : (⟨S_, .f32⟩ : BufTy).Contents (Elt F) → (⟨S200000x128, .f32⟩ : BufTy).Contents (Elt F)),
    StableHlo.unary main_v73 main_v86 (broadcastInDim S600000x1 ![0] bcast_S600000_S600000x1_0 : (⟨S600000, .i32⟩ : BufTy).Contents (Elt F) → (⟨S600000x1, .i32⟩ : BufTy).Contents (Elt F)),
    StableHlo.ternary main_v85 main_v86 main_v84 main_v87 ((fun x i u => Host.scatterAdd scatter_S200000x128_S600000x1_S600000x128_1_0_0_1 x i u) : (⟨S200000x128, .f32⟩ : BufTy).Contents (Elt F) → (⟨S600000x1, .i32⟩ : BufTy).Contents (Elt F) → (⟨S600000x128, .f32⟩ : BufTy).Contents (Elt F) → (⟨S200000x128, .f32⟩ : BufTy).Contents (Elt F)),
    StableHlo.nullary main_cst_14 (constant S_ .f32 0x3F800000#32),
    StableHlo.unary main_cst_14 main_v88 (broadcastInDim S600000 ![] bcast_S_S600000 : (⟨S_, .f32⟩ : BufTy).Contents (Elt F) → (⟨S600000, .f32⟩ : BufTy).Contents (Elt F)),
    StableHlo.nullary main_cst_15 (constant S_ .f32 0x00000000#32),
    StableHlo.unary main_cst_15 main_v89 (broadcastInDim S200000 ![] bcast_S_S200000 : (⟨S_, .f32⟩ : BufTy).Contents (Elt F) → (⟨S200000, .f32⟩ : BufTy).Contents (Elt F)),
    StableHlo.unary main_v73 main_v90 (broadcastInDim S600000x1 ![0] bcast_S600000_S600000x1_0 : (⟨S600000, .i32⟩ : BufTy).Contents (Elt F) → (⟨S600000x1, .i32⟩ : BufTy).Contents (Elt F)),
    StableHlo.ternary main_v89 main_v90 main_v88 main_v91 ((fun x i u => Host.scatterAdd scatter_S200000_S600000x1_S600000_n_0_0_1 x i u) : (⟨S200000, .f32⟩ : BufTy).Contents (Elt F) → (⟨S600000x1, .i32⟩ : BufTy).Contents (Elt F) → (⟨S600000, .f32⟩ : BufTy).Contents (Elt F) → (⟨S200000, .f32⟩ : BufTy).Contents (Elt F)),
    StableHlo.nullary main_cst_16 (constant S_ .f32 0x3F800000#32),
    StableHlo.unary main_cst_16 main_v92 (broadcastInDim S200000 ![] bcast_S_S200000 : (⟨S_, .f32⟩ : BufTy).Contents (Elt F) → (⟨S200000, .f32⟩ : BufTy).Contents (Elt F)),
    StableHlo.binary main_v91 main_v92 main_v93 (maximumf : (⟨S200000, .f32⟩ : BufTy).Contents (Elt F) → (⟨S200000, .f32⟩ : BufTy).Contents (Elt F) → (⟨S200000, .f32⟩ : BufTy).Contents (Elt F)),
    StableHlo.unary main_v93 main_v94 (broadcastInDim S200000x1 ![0] bcast_S200000_S200000x1_0 : (⟨S200000, .f32⟩ : BufTy).Contents (Elt F) → (⟨S200000x1, .f32⟩ : BufTy).Contents (Elt F)),
    StableHlo.unary main_v94 main_v95 (broadcastInDim S200000x128 ![0, 1] bcast_S200000x1_S200000x128_0_1 : (⟨S200000x1, .f32⟩ : BufTy).Contents (Elt F) → (⟨S200000x128, .f32⟩ : BufTy).Contents (Elt F)),
    StableHlo.binary main_v87 main_v95 main_v96 (Host.divf : (⟨S200000x128, .f32⟩ : BufTy).Contents (Elt F) → (⟨S200000x128, .f32⟩ : BufTy).Contents (Elt F) → (⟨S200000x128, .f32⟩ : BufTy).Contents (Elt F)),
    StableHlo.binary main_arg0 main_v96 main_v97 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    StableHlo.binary main_v97 main_arg16 main_v98 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    StableHlo.unary main_arg17 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S200000x128 ![0, 1] bcast_S1x128_S200000x128_0_1 : (⟨S1x128, .f32⟩ : BufTy).Contents (Elt F) → (⟨S200000x128, .f32⟩ : BufTy).Contents (Elt F)),
    StableHlo.binary main_v98 main_v100 main_v101 (addf : (⟨S200000x128, .f32⟩ : BufTy).Contents (Elt F) → (⟨S200000x128, .f32⟩ : BufTy).Contents (Elt F) → (⟨S200000x128, .f32⟩ : BufTy).Contents (Elt F)),
    StableHlo.unary main_v101 main_v102 (Host.negf : (⟨S200000x128, .f32⟩ : BufTy).Contents (Elt F) → (⟨S200000x128, .f32⟩ : BufTy).Contents (Elt F)),
    StableHlo.unary main_v102 main_v103 (Host.exp : (⟨S200000x128, .f32⟩ : BufTy).Contents (Elt F) → (⟨S200000x128, .f32⟩ : BufTy).Contents (Elt F)),
    StableHlo.nullary main_cst_17 (constant S_ .f32 0x3F800000#32),
    StableHlo.unary main_cst_17 main_v104 (broadcastInDim S200000x128 ![] bcast_S_S200000x128 : (⟨S_, .f32⟩ : BufTy).Contents (Elt F) → (⟨S200000x128, .f32⟩ : BufTy).Contents (Elt F)),
    StableHlo.binary main_v104 main_v103 main_v105 (addf : (⟨S200000x128, .f32⟩ : BufTy).Contents (Elt F) → (⟨S200000x128, .f32⟩ : BufTy).Contents (Elt F) → (⟨S200000x128, .f32⟩ : BufTy).Contents (Elt F)),
    StableHlo.nullary main_cst_18 (constant S_ .f32 0x3F800000#32),
    StableHlo.unary main_cst_18 main_v106 (broadcastInDim S200000x128 ![] bcast_S_S200000x128 : (⟨S_, .f32⟩ : BufTy).Contents (Elt F) → (⟨S200000x128, .f32⟩ : BufTy).Contents (Elt F)),
    StableHlo.binary main_v106 main_v105 main_v107 (Host.divf : (⟨S200000x128, .f32⟩ : BufTy).Contents (Elt F) → (⟨S200000x128, .f32⟩ : BufTy).Contents (Elt F) → (⟨S200000x128, .f32⟩ : BufTy).Contents (Elt F)),
    StableHlo.binary main_v97 main_arg18 main_v108 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    StableHlo.unary main_arg19 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S200000x128 ![0, 1] bcast_S1x128_S200000x128_0_1 : (⟨S1x128, .f32⟩ : BufTy).Contents (Elt F) → (⟨S200000x128, .f32⟩ : BufTy).Contents (Elt F)),
    StableHlo.binary main_v108 main_v110 main_v111 (addf : (⟨S200000x128, .f32⟩ : BufTy).Contents (Elt F) → (⟨S200000x128, .f32⟩ : BufTy).Contents (Elt F) → (⟨S200000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S200000x128, .f32⟩) (broadcastInDim S200000x128 ![] bcast_S_S200000x128),
    StableHlo.TRef.binary (.of main_v111 : StableHlo.TRef sig ⟨S200000x128, .f32⟩) (.of main_call2_v0 : StableHlo.TRef sig ⟨S200000x128, .f32⟩) (.of main_v112 : StableHlo.TRef sig ⟨S200000x128, .f32⟩) maximumf,
    StableHlo.binary main_v112 main_arg20 main_v113 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_arg21 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S200000x128 ![0, 1] bcast_S1x128_S200000x128_0_1 : (⟨S1x128, .f32⟩ : BufTy).Contents (Elt F) → (⟨S200000x128, .f32⟩ : BufTy).Contents (Elt F)),
    StableHlo.binary main_v113 main_v115 main_v116 (addf : (⟨S200000x128, .f32⟩ : BufTy).Contents (Elt F) → (⟨S200000x128, .f32⟩ : BufTy).Contents (Elt F) → (⟨S200000x128, .f32⟩ : BufTy).Contents (Elt F)),
    StableHlo.binary main_v107 main_arg0 main_v117 (mulf : (⟨S200000x128, .f32⟩ : BufTy).Contents (Elt F) → (⟨S200000x128, .f32⟩ : BufTy).Contents (Elt F) → (⟨S200000x128, .f32⟩ : BufTy).Contents (Elt F)),
    StableHlo.nullary main_cst_19 (constant S_ .f32 0x3F800000#32),
    StableHlo.unary main_cst_19 main_v118 (broadcastInDim S200000x128 ![] bcast_S_S200000x128 : (⟨S_, .f32⟩ : BufTy).Contents (Elt F) → (⟨S200000x128, .f32⟩ : BufTy).Contents (Elt F)),
    StableHlo.binary main_v118 main_v107 main_v119 (subf : (⟨S200000x128, .f32⟩ : BufTy).Contents (Elt F) → (⟨S200000x128, .f32⟩ : BufTy).Contents (Elt F) → (⟨S200000x128, .f32⟩ : BufTy).Contents (Elt F)),
    StableHlo.binary main_v119 main_v116 main_v120 (mulf : (⟨S200000x128, .f32⟩ : BufTy).Contents (Elt F) → (⟨S200000x128, .f32⟩ : BufTy).Contents (Elt F) → (⟨S200000x128, .f32⟩ : BufTy).Contents (Elt F)),
    StableHlo.binary main_v117 main_v120 main_v121 (addf : (⟨S200000x128, .f32⟩ : BufTy).Contents (Elt F) → (⟨S200000x128, .f32⟩ : BufTy).Contents (Elt F) → (⟨S200000x128, .f32⟩ : BufTy).Contents (Elt F)),
    StableHlo.nullary main_cst_20 (constant S_ .f32 0x00000000#32),
    StableHlo.binary main_v121 main_cst_20 main_v122 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)),
    StableHlo.unary main_v122 main_v123 (broadcastInDim S200000x1 ![0] bcast_S200000_S200000x1_0 : (⟨S200000, .f32⟩ : BufTy).Contents (Elt F) → (⟨S200000x1, .f32⟩ : BufTy).Contents (Elt F)),
    StableHlo.nullary main_cst_21 (constant S_ .f32 0x43000000#32),
    StableHlo.unary main_cst_21 main_v124 (broadcastInDim S200000x1 ![] bcast_S_S200000x1 : (⟨S_, .f32⟩ : BufTy).Contents (Elt F) → (⟨S200000x1, .f32⟩ : BufTy).Contents (Elt F)),
    StableHlo.binary main_v123 main_v124 main_v125 (Host.divf : (⟨S200000x1, .f32⟩ : BufTy).Contents (Elt F) → (⟨S200000x1, .f32⟩ : BufTy).Contents (Elt F) → (⟨S200000x1, .f32⟩ : BufTy).Contents (Elt F)),
    StableHlo.nullary main_c_22 (constantI S_ 32 0#32),
    StableHlo.TRef.nullary (.of main_call3_cst : StableHlo.TRef sig ⟨S_, .f32⟩) (constant S_ .f32 0x00000000#32),
    StableHlo.TRef.binary (.of main_v121 : StableHlo.TRef sig ⟨S200000x128, .f32⟩) (.of main_call3_cst : StableHlo.TRef sig ⟨S_, .f32⟩) (.of main_call3_v0 : StableHlo.TRef sig ⟨S200000, .f32⟩) (fun x v => Host.reduceAdd x v reducesTo_S200000x128_S200000_d1 h_S_),
    StableHlo.TRef.unary (.of main_call3_v0 : StableHlo.TRef sig ⟨S200000, .f32⟩) (.of main_call3_v1 : StableHlo.TRef sig ⟨S200000x1, .f32⟩) (broadcastInDim S200000x1 ![0] bcast_S200000_S200000x1_0),
    StableHlo.TRef.nullary (.of main_call3_cst_0 : StableHlo.TRef sig ⟨S_, .f32⟩) (constant S_ .f32 0x43000000#32),
    StableHlo.TRef.unary (.of main_call3_cst_0 : StableHlo.TRef sig ⟨S_, .f32⟩) (.of main_call3_v2 : StableHlo.TRef sig ⟨S200000x1, .f32⟩) (broadcastInDim S200000x1 ![] bcast_S_S200000x1),
    StableHlo.TRef.binary (.of main_call3_v1 : StableHlo.TRef sig ⟨S200000x1, .f32⟩) (.of main_call3_v2 : StableHlo.TRef sig ⟨S200000x1, .f32⟩) (.of main_call3_v3 : StableHlo.TRef sig ⟨S200000x1, .f32⟩) Host.divf,
    StableHlo.TRef.unary (.of main_call3_v3 : StableHlo.TRef sig ⟨S200000x1, .f32⟩) (.of main_call3_v4 : StableHlo.TRef sig ⟨S200000x128, .f32⟩) (broadcastInDim S200000x128 ![0, 1] bcast_S200000x1_S200000x128_0_1),
    StableHlo.TRef.binary (.of main_v121 : StableHlo.TRef sig ⟨S200000x128, .f32⟩) (.of main_call3_v4 : StableHlo.TRef sig ⟨S200000x128, .f32⟩) (.of main_call3_v5 : StableHlo.TRef sig ⟨S200000x128, .f32⟩) subf,
    StableHlo.TRef.binary (.of main_call3_v5 : StableHlo.TRef sig ⟨S200000x128, .f32⟩) (.of main_call3_v5 : StableHlo.TRef sig ⟨S200000x128, .f32⟩) (.of main_call3_v6 : StableHlo.TRef sig ⟨S200000x128, .f32⟩) mulf,
    StableHlo.TRef.unary (.of main_c_22 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x43000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S200000x128, .f32⟩) (.of main_call3_cst_2 : StableHlo.TRef sig ⟨S_, .f32⟩) (.of main_call3_v9 : StableHlo.TRef sig ⟨S200000, .f32⟩) (fun x v => Host.reduceAdd x v reducesTo_S200000x128_S200000_d1 h_S_),
    StableHlo.TRef.unary (.of main_call3_v9 : StableHlo.TRef sig ⟨S200000, .f32⟩) (.of main_call3_v10 : StableHlo.TRef sig ⟨S200000x1, .f32⟩) (broadcastInDim S200000x1 ![0] bcast_S200000_S200000x1_0),
    StableHlo.TRef.unary (.of main_call3_v8 : StableHlo.TRef sig ⟨S_, .f32⟩) (.of main_call3_v11 : StableHlo.TRef sig ⟨S200000x1, .f32⟩) (broadcastInDim S200000x1 ![] bcast_S_S200000x1),
    StableHlo.TRef.binary (.of main_call3_v10 : StableHlo.TRef sig ⟨S200000x1, .f32⟩) (.of main_call3_v11 : StableHlo.TRef sig ⟨S200000x1, .f32⟩) (.of main_call3_v12 : StableHlo.TRef sig ⟨S200000x1, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S200000x1, .f32⟩) (broadcastInDim S200000x1 ![] bcast_S_S200000x1),
    StableHlo.TRef.ternary (.of main_call3_v13 : StableHlo.TRef sig ⟨S_, .i1⟩) (.of main_call3_v12 : StableHlo.TRef sig ⟨S200000x1, .f32⟩) (.of main_call3_call0_v1 : StableHlo.TRef sig ⟨S200000x1, .f32⟩) (.of main_v126 : StableHlo.TRef sig ⟨S200000x1, .f32⟩) (fun p a b => select (broadcastInDim S200000x1 ![] bcast_S_S200000x1 p) a b),
    StableHlo.unary main_v125 main_v127 (broadcastInDim S200000x128 ![0, 1] bcast_S200000x1_S200000x128_0_1 : (⟨S200000x1, .f32⟩ : BufTy).Contents (Elt F) → (⟨S200000x128, .f32⟩ : BufTy).Contents (Elt F)),
    StableHlo.binary main_v121 main_v127 main_v128 (subf : (⟨S200000x128, .f32⟩ : BufTy).Contents (Elt F) → (⟨S200000x128, .f32⟩ : BufTy).Contents (Elt F) → (⟨S200000x128, .f32⟩ : BufTy).Contents (Elt F)),
    StableHlo.nullary main_cst_23 (constant S_ .f32 0x3727C5AC#32),
    StableHlo.unary main_cst_23 main_v129 (broadcastInDim S200000x1 ![] bcast_S_S200000x1 : (⟨S_, .f32⟩ : BufTy).Contents (Elt F) → (⟨S200000x1, .f32⟩ : BufTy).Contents (Elt F)),
    StableHlo.binary main_v126 main_v129 main_v130 (addf : (⟨S200000x1, .f32⟩ : BufTy).Contents (Elt F) → (⟨S200000x1, .f32⟩ : BufTy).Contents (Elt F) → (⟨S200000x1, .f32⟩ : BufTy).Contents (Elt F)),
    StableHlo.unary main_v130 main_v131 (Host.rsqrt : (⟨S200000x1, .f32⟩ : BufTy).Contents (Elt F) → (⟨S200000x1, .f32⟩ : BufTy).Contents (Elt F)),
    StableHlo.unary main_v131 main_v132 (broadcastInDim S200000x128 ![0, 1] bcast_S200000x1_S200000x128_0_1 : (⟨S200000x1, .f32⟩ : BufTy).Contents (Elt F) → (⟨S200000x128, .f32⟩ : BufTy).Contents (Elt F)),
    StableHlo.binary main_v128 main_v132 main_v133 (mulf : (⟨S200000x128, .f32⟩ : BufTy).Contents (Elt F) → (⟨S200000x128, .f32⟩ : BufTy).Contents (Elt F) → (⟨S200000x128, .f32⟩ : BufTy).Contents (Elt F)),
    StableHlo.unary main_arg22 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S200000x128 ![0, 1] bcast_S1x128_S200000x128_0_1 : (⟨S1x128, .f32⟩ : BufTy).Contents (Elt F) → (⟨S200000x128, .f32⟩ : BufTy).Contents (Elt F)),
    StableHlo.binary main_v133 main_v135 main_v136 (mulf : (⟨S200000x128, .f32⟩ : BufTy).Contents (Elt F) → (⟨S200000x128, .f32⟩ : BufTy).Contents (Elt F) → (⟨S200000x128, .f32⟩ : BufTy).Contents (Elt F)),
    StableHlo.unary main_arg23 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S200000x128 ![0, 1] bcast_S1x128_S200000x128_0_1 : (⟨S1x128, .f32⟩ : BufTy).Contents (Elt F) → (⟨S200000x128, .f32⟩ : BufTy).Contents (Elt F)),
    StableHlo.binary main_v136 main_v138 main_v139 (addf : (⟨S200000x128, .f32⟩ : BufTy).Contents (Elt F) → (⟨S200000x128, .f32⟩ : BufTy).Contents (Elt F) → (⟨S200000x128, .f32⟩ : BufTy).Contents (Elt F)) ]

set_option maxRecDepth 8192 in
set_option maxHeartbeats 4000000 in
/-- @main is that straight line: its windows in order, each call its callee's body. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation touches TensorCore references only. -/
theorem ops_sub : (ops : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

end Cert.ReferenceIdeal.RefOps

end
-- ==== Proof.RefRun.lean ====
import proofs.«423421_j88751204204557_2_alg».proof.Proof.Gen.ReferenceIdeal
import Idealize.ShloMosaic.Lib.StableHlo.Run
import proofs.«423421_j88751204204557_2_alg».proof.Proof.RefDefs
import proofs.«423421_j88751204204557_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- The buffers the line writes: one per operation, in the operations' order. -/
abbrev W : List (Ref sig .tc) := [main_v0, main_v1, main_v2, main_v3, main_c, main_v4, main_v5, main_c_0, main_v6, main_v7, main_v8, main_v9, main_v10, main_v11, main_v12, main_v13, main_v14, main_cst, main_v15, main_v16, main_v17, main_cst_1, main_v18, main_cst_2, main_v19, main_v20, main_v21, main_cst_3, main_v22, main_v23, main_v24, main_v25, main_v26, main_v27, main_v28, main_v29, main_v30, main_v31, main_v32, main_v33, main_cst_4, main_v34, main_v35, main_cst_5, main_v36, main_v37, main_v38, main_v39, main_v40, main_v41, main_call0_cst, main_call0_v0, main_v42, main_v43, main_v44, main_v45, main_v46, main_v47, main_cst_6, main_v48, main_v49, main_v50, main_v51, main_cst_7, main_v52, main_v53, main_cst_8, main_v54, main_v55, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v56, main_v57, main_v58, main_cst_10, main_v59, main_v60, main_v61, main_v62, main_v63, main_v64, main_v65, main_v66, main_v67, main_v68, main_v69, main_v70, main_v71, main_v72, main_v73, main_c_11, main_v74, main_v75, main_c_12, main_v76, main_v77, main_v78, main_v79, main_v80, main_v81, main_v82, main_v83, main_v84, main_cst_13, main_v85, main_v86, main_v87, main_cst_14, main_v88, main_cst_15, main_v89, main_v90, main_v91, main_cst_16, main_v92, main_v93, main_v94, main_v95, main_v96, main_v97, main_v98, main_v99, main_v100, main_v101, main_v102, main_v103, main_cst_17, main_v104, main_v105, main_cst_18, main_v106, main_v107, main_v108, main_v109, main_v110, main_v111, main_call2_cst, main_call2_v0, main_v112, main_v113, main_v114, main_v115, main_v116, main_v117, main_cst_19, main_v118, main_v119, main_v120, main_v121, main_cst_20, main_v122, main_v123, main_cst_21, main_v124, main_v125, main_c_22, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v126, main_v127, main_v128, main_cst_23, main_v129, main_v130, main_v131, main_v132, main_v133, main_v134, main_v135, main_v136, main_v137, main_v138, main_v139]

/-- A buffer of the list, as a set of one device buffer, lies in the list's set. -/
theorem wr (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
/-- Each operation writes its own buffer of the list and nothing else. -/
theorem ops_writes : (ops : List (HloOp τ sig (Elt F))).Forall fun op =>
    op.writes ⊆ (W.map (Proc.devRef (τ := τ) .tc)).toFinset :=
  ⟨wr main_v0 (by decide), wr main_v1 (by decide), wr main_v2 (by decide), wr main_v3 (by decide), wr main_c (by decide), wr main_v4 (by decide), wr main_v5 (by decide), wr main_c_0 (by decide), wr main_v6 (by decide), wr main_v7 (by decide), wr main_v8 (by decide), wr main_v9 (by decide), wr main_v10 (by decide), wr main_v11 (by decide), wr main_v12 (by decide), wr main_v13 (by decide), wr main_v14 (by decide), wr main_cst (by decide), wr main_v15 (by decide), wr main_v16 (by decide), wr main_v17 (by decide), wr main_cst_1 (by decide), wr main_v18 (by decide), wr main_cst_2 (by decide), wr main_v19 (by decide), wr main_v20 (by decide), wr main_v21 (by decide), wr main_cst_3 (by decide), wr main_v22 (by decide), wr main_v23 (by decide), wr main_v24 (by decide), wr main_v25 (by decide), wr main_v26 (by decide), wr main_v27 (by decide), wr main_v28 (by decide), wr main_v29 (by decide), wr main_v30 (by decide), wr main_v31 (by decide), wr main_v32 (by decide), wr main_v33 (by decide), wr main_cst_4 (by decide), wr main_v34 (by decide), wr main_v35 (by decide), wr main_cst_5 (by decide), wr main_v36 (by decide), wr main_v37 (by decide), wr main_v38 (by decide), wr main_v39 (by decide), wr main_v40 (by decide), wr main_v41 (by decide), wr main_call0_cst (by decide), wr main_call0_v0 (by decide), wr main_v42 (by decide), wr main_v43 (by decide), wr main_v44 (by decide), wr main_v45 (by decide), wr main_v46 (by decide), wr main_v47 (by decide), wr main_cst_6 (by decide), wr main_v48 (by decide), wr main_v49 (by decide), wr main_v50 (by decide), wr main_v51 (by decide), wr main_cst_7 (by decide), wr main_v52 (by decide), wr main_v53 (by decide), wr main_cst_8 (by decide), wr main_v54 (by decide), wr main_v55 (by decide), wr main_c_9 (by decide), wr main_call1_cst (by decide), wr main_call1_v0 (by decide), wr main_call1_v1 (by decide), wr main_call1_cst_0 (by decide), wr main_call1_v2 (by decide), wr main_call1_v3 (by decide), wr main_call1_v4 (by decide), wr main_call1_v5 (by decide), wr main_call1_v6 (by decide), wr main_call1_v7 (by decide), wr main_call1_cst_1 (by decide), wr main_call1_v8 (by decide), wr main_call1_cst_2 (by decide), wr main_call1_v9 (by decide), wr main_call1_v10 (by decide), wr main_call1_v11 (by decide), wr main_call1_v12 (by decide), wr main_call1_cst_3 (by decide), wr main_call1_v13 (by decide), wr main_call1_cst_4 (by decide), wr main_call1_call0_v0 (by decide), wr main_call1_call0_v1 (by decide), wr main_v56 (by decide), wr main_v57 (by decide), wr main_v58 (by decide), wr main_cst_10 (by decide), wr main_v59 (by decide), wr main_v60 (by decide), wr main_v61 (by decide), wr main_v62 (by decide), wr main_v63 (by decide), wr main_v64 (by decide), wr main_v65 (by decide), wr main_v66 (by decide), wr main_v67 (by decide), wr main_v68 (by decide), wr main_v69 (by decide), wr main_v70 (by decide), wr main_v71 (by decide), wr main_v72 (by decide), wr main_v73 (by decide), wr main_c_11 (by decide), wr main_v74 (by decide), wr main_v75 (by decide), wr main_c_12 (by decide), wr main_v76 (by decide), wr main_v77 (by decide), wr main_v78 (by decide), wr main_v79 (by decide), wr main_v80 (by decide), wr main_v81 (by decide), wr main_v82 (by decide), wr main_v83 (by decide), wr main_v84 (by decide), wr main_cst_13 (by decide), wr main_v85 (by decide), wr main_v86 (by decide), wr main_v87 (by decide), wr main_cst_14 (by decide), wr main_v88 (by decide), wr main_cst_15 (by decide), wr main_v89 (by decide), wr main_v90 (by decide), wr main_v91 (by decide), wr main_cst_16 (by decide), wr main_v92 (by decide), wr main_v93 (by decide), wr main_v94 (by decide), wr main_v95 (by decide), wr main_v96 (by decide), wr main_v97 (by decide), wr main_v98 (by decide), wr main_v99 (by decide), wr main_v100 (by decide), wr main_v101 (by decide), wr main_v102 (by decide), wr main_v103 (by decide), wr main_cst_17 (by decide), wr main_v104 (by decide), wr main_v105 (by decide), wr main_cst_18 (by decide), wr main_v106 (by decide), wr main_v107 (by decide), wr main_v108 (by decide), wr main_v109 (by decide), wr main_v110 (by decide), wr main_v111 (by decide), wr main_call2_cst (by decide), wr main_call2_v0 (by decide), wr main_v112 (by decide), wr main_v113 (by decide), wr main_v114 (by decide), wr main_v115 (by decide), wr main_v116 (by decide), wr main_v117 (by decide), wr main_cst_19 (by decide), wr main_v118 (by decide), wr main_v119 (by decide), wr main_v120 (by decide), wr main_v121 (by decide), wr main_cst_20 (by decide), wr main_v122 (by decide), wr main_v123 (by decide), wr main_cst_21 (by decide), wr main_v124 (by decide), wr main_v125 (by decide), wr main_c_22 (by decide), wr main_call3_cst (by decide), wr main_call3_v0 (by decide), wr main_call3_v1 (by decide), wr main_call3_cst_0 (by decide), wr main_call3_v2 (by decide), wr main_call3_v3 (by decide), wr main_call3_v4 (by decide), wr main_call3_v5 (by decide), wr main_call3_v6 (by decide), wr main_call3_v7 (by decide), wr main_call3_cst_1 (by decide), wr main_call3_v8 (by decide), wr main_call3_cst_2 (by decide), wr main_call3_v9 (by decide), wr main_call3_v10 (by decide), wr main_call3_v11 (by decide), wr main_call3_v12 (by decide), wr main_call3_cst_3 (by decide), wr main_call3_v13 (by decide), wr main_call3_cst_4 (by decide), wr main_call3_call0_v0 (by decide), wr main_call3_call0_v1 (by decide), wr main_v126 (by decide), wr main_v127 (by decide), wr main_v128 (by decide), wr main_cst_23 (by decide), wr main_v129 (by decide), wr main_v130 (by decide), wr main_v131 (by decide), wr main_v132 (by decide), wr main_v133 (by decide), wr main_v134 (by decide), wr main_v135 (by decide), wr main_v136 (by decide), wr main_v137 (by decide), wr main_v138 (by decide), wr main_v139 (by decide)⟩

/-- A buffer outside the list keeps its contents through the line. -/
theorem kept (V : Valuation τ sig (Elt F)) (r : Ref sig .tc) (h : r ∉ W) :
    after ops V (Proc.devRef .tc r) = V (Proc.devRef .tc r) :=
  after_of_writes_sub ops V ops_writes h

set_option maxRecDepth 8192 in
set_option maxHeartbeats 32800000 in
/-- The top-down result, the fold read at its buffer: the update of the 200000 rows as one function of the arguments. -/
theorem outL (m : (ℓ : Loc nD τ sig) → Buf (Elt F) ℓ) (c : Dev nD) :
    after (ops (F := F)) (launchContents m c) (Proc.devRef .tc main_v139) = RefDefs.tailL (m ((c.tc : Thread nD τ).loc main_arg0)) (RefDefs.aggL (RefDefs.msgL (m ((c.tc : Thread nD τ).loc main_arg1)) (m ((c.tc : Thread nD τ).loc main_arg3)) (m ((c.tc : Thread nD τ).loc main_arg14)) (m ((c.tc : Thread nD τ).loc main_arg15))) (m ((c.tc : Thread nD τ).loc main_arg3))) (RefDefs.cntL (m ((c.tc : Thread nD τ).loc main_arg3))) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  after_results_simp
  rfl

set_option maxRecDepth 8192 in
set_option maxHeartbeats 32800000 in
/-- The bottom-up result, the fold read at its buffer: the update of the 50000 rows as one function of the arguments. -/
theorem outU (m : (ℓ : Loc nD τ sig) → Buf (Elt F) ℓ) (c : Dev nD) :
    after (ops (F := F)) (launchContents m c) (Proc.devRef .tc main_v69) = RefDefs.tailU (m ((c.tc : Thread nD τ).loc main_arg1)) (RefDefs.aggU (RefDefs.msgU (m ((c.tc : Thread nD τ).loc main_arg0)) (m ((c.tc : Thread nD τ).loc main_arg2)) (m ((c.tc : Thread nD τ).loc main_arg4)) (m ((c.tc : Thread nD τ).loc main_arg5))) (m ((c.tc : Thread nD τ).loc main_arg2))) (RefDefs.cntU (m ((c.tc : Thread nD τ).loc main_arg2))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  after_results_simp
  rfl

set_option maxRecDepth 8192 in
set_option maxHeartbeats 32800000 in
/-- On every device, for any float values, from any memory with zero counters: every weakly fair execution of
    @main terminates with the two results at the composed functions of the arguments' launch contents — the
    top-down update of the 200000 rows, the bottom-up update of the 50000 rows — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v139) = RefDefs.tailL (m ((c.tc : Thread nD τ).loc main_arg0)) (RefDefs.aggL (RefDefs.msgL (m ((c.tc : Thread nD τ).loc main_arg1)) (m ((c.tc : Thread nD τ).loc main_arg3)) (m ((c.tc : Thread nD τ).loc main_arg14)) (m ((c.tc : Thread nD τ).loc main_arg15))) (m ((c.tc : Thread nD τ).loc main_arg3))) (RefDefs.cntL (m ((c.tc : Thread nD τ).loc main_arg3))) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v69) = RefDefs.tailU (m ((c.tc : Thread nD τ).loc main_arg1)) (RefDefs.aggU (RefDefs.msgU (m ((c.tc : Thread nD τ).loc main_arg0)) (m ((c.tc : Thread nD τ).loc main_arg2)) (m ((c.tc : Thread nD τ).loc main_arg4)) (m ((c.tc : Thread nD τ).loc main_arg5))) (m ((c.tc : Thread nD τ).loc main_arg2))) (RefDefs.cntU (m ((c.tc : Thread nD τ).loc main_arg2))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v139).trans (outL m c), (h c main_v69).trans (outU m c),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide)),
      (h c main_arg11).trans (kept _ main_arg11 (by decide)),
      (h c main_arg12).trans (kept _ main_arg12 (by decide)),
      (h c main_arg13).trans (kept _ main_arg13 (by decide)),
      (h c main_arg14).trans (kept _ main_arg14 (by decide)),
      (h c main_arg15).trans (kept _ main_arg15 (by decide)),
      (h c main_arg16).trans (kept _ main_arg16 (by decide)),
      (h c main_arg17).trans (kept _ main_arg17 (by decide)),
      (h c main_arg18).trans (kept _ main_arg18 (by decide)),
      (h c main_arg19).trans (kept _ main_arg19 (by decide)),
      (h c main_arg20).trans (kept _ main_arg20 (by decide)),
      (h c main_arg21).trans (kept _ main_arg21 (by decide)),
      (h c main_arg22).trans (kept _ main_arg22 (by decide)),
      (h c main_arg23).trans (kept _ main_arg23 (by decide))⟩)
    (run_seq scopedRefs_eq scopedSems_eq defs main (fun _ => ops) main_eq (fun _ => ops_sub) m ρ)

end Cert.ReferenceIdeal.RefRun

end
-- ==== Proof.RefTail.lean ====
/-
  The reference's gated update and layer normalisation, read entry by entry, is the specification's row formula.

  The update is split into named stages (the averaged aggregate, the two linear maps of the stacked columns, the gate,
  the hidden layer, the mixture, the row mean, the row variance, the normalisation); the reference's function is their
  composition by definition, and each stage is read at (r, j). The reference divides the aggregate by the count where
  the specification multiplies by its reciprocal: a / c = a · (1 / c) for c ≠ 0. A product of the 256 stacked columns
  is the sum of its two halves of 128.
-/
import proofs.«423421_j88751204204557_2_alg».proof.Proof.RefDefs
import proofs.«423421_j88751204204557_2_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost
import Idealize.ShloMosaic.PureOps.Ideal.Laws

noncomputable section

open scoped BigOperators

namespace Cert.ReferenceIdeal.RefTail

open Idealize.ShloMosaic Idealize.ShloMosaic.ValueIdx
open Cert.ReferenceIdeal Cert.ReferenceIdeal.Facts₀ Cert.ReferenceIdeal.Facts

/-! ## Constants and the quotient -/

theorem one_word : Ideal.ofBits .f32 0x3F800000#32 = 1 := by
  simp [Ideal.ofBits, Ideal.ieee, -EReal.coe_mul]; norm_num

theorem w128_word : Ideal.ofBits .f32 0x43000000#32 = ((128 : ℝ) : EReal) := by
  simp [Ideal.ofBits, Ideal.ieee, -EReal.coe_mul]; norm_num

theorem div_one_mul (x c : EReal) (hc : c ≠ 0) :
    Ideal.div x c = x * Ideal.div (Ideal.ofBits .f32 0x3F800000#32) c := by
  rw [one_word, Ideal.div, Ideal.div, if_neg hc, if_neg hc, one_mul]

theorem sitofp_zero_word : (FloatOps.sitofp (F := Ideal) .f32 (0#32 : BitVec 32) : Ideal .f32) = 0 := by
  show ((((0#32 : BitVec 32).toInt : ℤ) : ℝ) : EReal) = 0
  simp

/-! ## Bottom-up: the 50000 destination rows -/

namespace Up

theorem rowB_apply (b : FVec Ideal S128 .f32) (r : Fin 50000) (j : Fin 128) :
    broadcastInDim S50000x128 ![0, 1] bcast_S1x128_S50000x128_0_1 (broadcastInDim S1x128 ![1] bcast_S128_S1x128_1 b) (ix2 r j)
      = b (ix1 j) := by
  rw [broadcastInDim_oneRow_apply]
  refine broadcastInDim_apply _ bcast_S128_S1x128_1 b _ (ix1 j) ?_
  intro a
  fin_cases a
  rfl

theorem col1_apply (c : FVec Ideal S50000 .f32) (r : Fin 50000) :
    broadcastInDim S50000x1 ![0] bcast_S50000_S50000x1_0 c (ix2 r (0 : Fin 1)) = c (ix1 r) := by
  refine broadcastInDim_apply _ bcast_S50000_S50000x1_0 c _ (ix1 r) ?_
  intro a
  fin_cases a
  rfl

theorem colB_apply (y : FVec Ideal S50000x1 .f32) (r : Fin 50000) (j : Fin 128) :
    broadcastInDim S50000x128 ![0, 1] bcast_S50000x1_S50000x128_0_1 y (ix2 r j) = y (ix2 r (0 : Fin 1)) := by
  refine broadcastInDim_apply _ bcast_S50000x1_S50000x128_0_1 y _ (ix2 r (0 : Fin 1)) ?_
  intro a
  fin_cases a
  · rfl
  · rfl

theorem rowSum_apply (x : FVec Ideal S50000x128 .f32) (r : Fin 50000) :
    Host.reduceAdd x (constant (F := Ideal) S_ .f32 0x00000000#32) reducesTo_S50000x128_S50000_d1 h_S_ (ix1 r)
      = ∑ k : Fin 128, x (ix2 r k) := by
  have h : S50000x128.Reduces [1] S50000 := by decide
  show Ideal.hostReduceAdd reducesTo_S50000x128_S50000_d1 x (Ideal.ofBits .f32 0x00000000#32) (ix1 r) = _
  rw [Ideal.hostReduceAdd_single _ h, Ideal.ofBits_zero_f32, zero_add]
  refine Finset.sum_congr rfl fun k _ => congrArg x ?_
  funext c
  apply Fin.ext
  rw [h.lift_val]
  unfold Shape.Reduces.liftVal
  match c with
  | ⟨0, _⟩ => simp
  | ⟨1, _⟩ => simp

theorem catDot_apply (d a : FVec Ideal S50000x128 .f32) (w : FVec Ideal S256x128 .f32) (r : Fin 50000) (j : Fin 128) :
    Host.dotGeneral dot_S50000x256_S256x128_S50000x128_1_0_0_1_n_n none
        (concatenate S50000x256 1 [⟨S50000x128, d⟩, ⟨S50000x128, a⟩] concatenates_S50000x128_S50000x128_S50000x256_d1) w (ix2 r j)
      = (∑ k : Fin 128, d (ix2 r k) * w (ix2 (Spec.lo k) j)) + ∑ k : Fin 128, a (ix2 r k) * w (ix2 (Spec.hi k) j) := by
  refine (StackMember.dotGeneral_plain_apply (m := 50000) (n := 128) (k := 256) none
    (concatenate S50000x256 1 [⟨S50000x128, d⟩, ⟨S50000x128, a⟩] concatenates_S50000x128_S50000x128_S50000x256_d1) w r j).trans ?_
  refine (Fin.sum_univ_add (M := EReal) (a := 128) (b := 128) fun c : Fin (128 + 128) =>
    concatenate S50000x256 1 [⟨S50000x128, d⟩, ⟨S50000x128, a⟩] concatenates_S50000x128_S50000x128_S50000x256_d1 (ix2 r c)
      * w (ix2 c j)).trans ?_
  congr 1
  · refine Finset.sum_congr rfl fun k _ => ?_
    rw [concatenate_pair_apply_left (1 : Fin 2) d a concatenates_S50000x128_S50000x128_S50000x256_d1
      (ix2 r (Fin.castAdd 128 k)) rfl (ix2 r k) (by intro b; fin_cases b <;> rfl)]
    rfl
  · refine Finset.sum_congr rfl fun k _ => ?_
    rw [concatenate_pair_apply_right (1 : Fin 2) d a concatenates_S50000x128_S50000x128_S50000x256_d1
      (ix2 r (Fin.natAdd 128 k)) rfl rfl (ix2 r k)
      (by intro b hb; fin_cases b
          · rfl
          · exact absurd rfl hb)
      (by show k.val + 128 = 128 + k.val; omega)]
    have e : (Fin.natAdd 128 k : Fin (128 + 128)) = Spec.hi k := Fin.ext (by show 128 + k.val = k.val + 128; omega)
    rw [e]

/-! ## The stages of the update, named -/

/-- The aggregate divided, row by row, by its count. -/
def avgS (agg : FVec Ideal S50000x128 .f32) (mc : FVec Ideal S50000 .f32) : FVec Ideal S50000x128 .f32 :=
  Host.divf agg (broadcastInDim S50000x128 ![0, 1] bcast_S50000x1_S50000x128_0_1
    (broadcastInDim S50000x1 ![0] bcast_S50000_S50000x1_0 mc))

/-- The old row and the averaged aggregate side by side: 256 columns. -/
def catS (dst agg : FVec Ideal S50000x128 .f32) (mc : FVec Ideal S50000 .f32) : FVec Ideal S50000x256 .f32 :=
  concatenate S50000x256 1 [⟨S50000x128, dst⟩, ⟨S50000x128, avgS agg mc⟩] concatenates_S50000x128_S50000x128_S50000x256_d1

/-- A linear map of the 256 stacked columns, plus the bias row. -/
def linS (cat : FVec Ideal S50000x256 .f32) (w : FVec Ideal S256x128 .f32) (b : FVec Ideal S128 .f32) :
    FVec Ideal S50000x128 .f32 :=
  addf (Host.dotGeneral dot_S50000x256_S256x128_S50000x128_1_0_0_1_n_n none cat w)
    (broadcastInDim S50000x128 ![0, 1] bcast_S1x128_S50000x128_0_1 (broadcastInDim S1x128 ![1] bcast_S128_S1x128_1 b))

/-- 1 / (1 + exp (−x)), entry by entry. -/
def gateS (x : FVec Ideal S50000x128 .f32) : FVec Ideal S50000x128 .f32 :=
  Host.divf (broadcastInDim S50000x128 ![] bcast_S_S50000x128 (constant S_ .f32 0x3F800000#32))
    (addf (broadcastInDim S50000x128 ![] bcast_S_S50000x128 (constant S_ .f32 0x3F800000#32)) (Host.exp (Host.negf x)))

/-- The maximum with zero, entry by entry. -/
def reluS (x : FVec Ideal S50000x128 .f32) : FVec Ideal S50000x128 .f32 :=
  maximumf x (broadcastInDim S50000x128 ![] bcast_S_S50000x128 (constant S_ .f32 0x00000000#32))

/-- A linear map of 128 columns, plus the bias row. -/
def lin1S (h : FVec Ideal S50000x128 .f32) (w : FVec Ideal S128x128 .f32) (b : FVec Ideal S128 .f32) :
    FVec Ideal S50000x128 .f32 :=
  addf (Host.dotGeneral dot_S50000x128_S128x128_S50000x128_1_0_0_1_n_n none h w)
    (broadcastInDim S50000x128 ![0, 1] bcast_S1x128_S50000x128_0_1 (broadcastInDim S1x128 ![1] bcast_S128_S1x128_1 b))

/-- g·d + (1 − g)·u, entry by entry. -/
def mixS (g d u : FVec Ideal S50000x128 .f32) : FVec Ideal S50000x128 .f32 :=
  addf (mulf g d) (mulf (subf (broadcastInDim S50000x128 ![] bcast_S_S50000x128 (constant S_ .f32 0x3F800000#32)) g) u)

/-- The mean of each row, as a column. -/
def meanS (x : FVec Ideal S50000x128 .f32) : FVec Ideal S50000x1 .f32 :=
  Host.divf (broadcastInDim S50000x1 ![0] bcast_S50000_S50000x1_0
      (Host.reduceAdd x (constant (F := Ideal) S_ .f32 0x00000000#32) reducesTo_S50000x128_S50000_d1 h_S_))
    (broadcastInDim S50000x1 ![] bcast_S_S50000x1 (constant S_ .f32 0x43000000#32))

/-- The deviation of each entry from its row's mean. -/
def devS (x : FVec Ideal S50000x128 .f32) : FVec Ideal S50000x128 .f32 :=
  subf x (broadcastInDim S50000x128 ![0, 1] bcast_S50000x1_S50000x128_0_1 (meanS x))

/-- The variance of each row, as a column: the mean of the squared deviations, chosen by the test 128 − 0 > 0. -/
def varS (x : FVec Ideal S50000x128 .f32) : FVec Ideal S50000x1 .f32 :=
  select (broadcastInDim S50000x1 ![] bcast_S_S50000x1
      (cmpf .ogt (subf (constant (F := Ideal) S_ .f32 0x43000000#32) (sitofp .f32 (constantI S_ 32 0#32)))
        (constant (F := Ideal) S_ .f32 0x00000000#32)))
    (Host.divf (broadcastInDim S50000x1 ![0] bcast_S50000_S50000x1_0
        (Host.reduceAdd (mulf (devS x) (devS x)) (constant (F := Ideal) S_ .f32 0x00000000#32) reducesTo_S50000x128_S50000_d1 h_S_))
      (broadcastInDim S50000x1 ![] bcast_S_S50000x1
        (subf (constant (F := Ideal) S_ .f32 0x43000000#32) (sitofp .f32 (constantI S_ 32 0#32)))))
    (broadcastInDim S50000x1 ![] bcast_S_S50000x1 (id (constant (F := Ideal) S_ .f32 0x7FC00000#32)))

/-- Layer normalisation of each row, then the affine map. -/
def lnS (x : FVec Ideal S50000x128 .f32) (g b : FVec Ideal S128 .f32) : FVec Ideal S50000x128 .f32 :=
  addf
    (mulf
      (mulf (devS x)
        (broadcastInDim S50000x128 ![0, 1] bcast_S50000x1_S50000x128_0_1
          (Host.rsqrt (addf (varS x) (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

/-- The reference's update is the composition of the named stages. -/
theorem tailU_stages (dst agg : FVec Ideal S50000x128 .f32) (mc : FVec Ideal S50000 .f32) (gw : FVec Ideal S256x128 .f32)
    (gb : FVec Ideal S128 .f32) (u1w : FVec Ideal S256x128 .f32) (u1b : FVec Ideal S128 .f32) (u2w : FVec Ideal S128x128 .f32)
    (u2b lng lnb : FVec Ideal S128 .f32) :
    RefDefs.tailU dst agg mc gw gb u1w u1b u2w u2b lng lnb
      = lnS (mixS (gateS (linS (catS dst agg mc) gw gb)) dst
          (lin1S (reluS (linS (catS dst agg mc) u1w u1b)) u2w u2b)) lng lnb := rfl

/-! ## Each stage read at (r, j) -/

theorem avgS_apply (agg : FVec Ideal S50000x128 .f32) (mc : FVec Ideal S50000 .f32) (r : Fin 50000) (k : Fin 128) :
    avgS agg mc (ix2 r k) = Ideal.div (agg (ix2 r k)) (mc (ix1 r)) := by
  show Ideal.div (agg (ix2 r k)) (broadcastInDim S50000x128 ![0, 1] bcast_S50000x1_S50000x128_0_1
    (broadcastInDim S50000x1 ![0] bcast_S50000_S50000x1_0 mc) (ix2 r k)) = _
  rw [colB_apply, col1_apply]

theorem linS_cat_apply (dst agg : FVec Ideal S50000x128 .f32) (mc : FVec Ideal S50000 .f32) (w : FVec Ideal S256x128 .f32)
    (b : FVec Ideal S128 .f32) (hmc : ∀ i, mc i ≠ 0) (r : Fin 50000) (j : Fin 128) :
    linS (catS dst agg mc) w b (ix2 r j)
      = Spec.lin2At dst agg (fun i => Ideal.div (Ideal.ofBits .f32 0x3F800000#32) (mc (ix1 (i 0)))) w
          (fun i => b (ix1 (i 1))) r j := by
  show Host.dotGeneral dot_S50000x256_S256x128_S50000x128_1_0_0_1_n_n none (catS dst agg mc) w (ix2 r j)
      + broadcastInDim S50000x128 ![0, 1] bcast_S1x128_S50000x128_0_1 (broadcastInDim S1x128 ![1] bcast_S128_S1x128_1 b) (ix2 r j) = _
  rw [rowB_apply, catS, catDot_apply]
  unfold Spec.lin2At Spec.aggAt
  refine congrArg₂ (· + ·) (congrArg₂ (· + ·) rfl (Finset.sum_congr rfl fun k _ => ?_)) rfl
  rw [avgS_apply, div_one_mul _ _ (hmc (ix1 r))]

theorem gateS_apply (x : FVec Ideal S50000x128 .f32) (i : S50000x128.Idx) : gateS x i = Ideal.logistic (x i) := by
  show Ideal.div (Ideal.ofBits .f32 0x3F800000#32) (Ideal.ofBits .f32 0x3F800000#32 + Ideal.exp (-(x i))) = _
  rw [one_word]
  rfl

theorem reluS_apply (x : FVec Ideal S50000x128 .f32) (i : S50000x128.Idx) :
    reluS x i = max (x i) (Ideal.ofBits .f32 0x00000000#32) := rfl

theorem lin1S_apply (h : FVec Ideal S50000x128 .f32) (w : FVec Ideal S128x128 .f32) (b : FVec Ideal S128 .f32)
    (r : Fin 50000) (j : Fin 128) :
    lin1S h w b (ix2 r j) = (∑ k : Fin 128, h (ix2 r k) * w (ix2 k j)) + b (ix1 j) := by
  show Host.dotGeneral dot_S50000x128_S128x128_S50000x128_1_0_0_1_n_n none h w (ix2 r j)
      + broadcastInDim S50000x128 ![0, 1] bcast_S1x128_S50000x128_0_1 (broadcastInDim S1x128 ![1] bcast_S128_S1x128_1 b) (ix2 r j) = _
  rw [rowB_apply]
  exact congrArg (· + b (ix1 j)) (StackMember.dotGeneral_plain_apply (m := 50000) (n := 128) (k := 128) none h w r j)

theorem mixS_apply (g d u : FVec Ideal S50000x128 .f32) (i : S50000x128.Idx) :
    mixS g d u i = g i * d i + (Ideal.ofBits .f32 0x3F800000#32 - g i) * u i := rfl

theorem meanS_apply (x : FVec Ideal S50000x128 .f32) (r : Fin 50000) :
    meanS x (ix2 r (0 : Fin 1)) = Spec.meanAt (fun j => x (ix2 r j)) := by
  show Ideal.div (broadcastInDim S50000x1 ![0] bcast_S50000_S50000x1_0
      (Host.reduceAdd x (constant (F := Ideal) S_ .f32 0x00000000#32) reducesTo_S50000x128_S50000_d1 h_S_) (ix2 r (0 : Fin 1)))
    (Ideal.ofBits .f32 0x43000000#32) = _
  rw [col1_apply, rowSum_apply]
  rfl

theorem devS_apply (x : FVec Ideal S50000x128 .f32) (r : Fin 50000) (j : Fin 128) :
    devS x (ix2 r j) = x (ix2 r j) - Spec.meanAt (fun j' => x (ix2 r j')) := by
  show x (ix2 r j) - broadcastInDim S50000x128 ![0, 1] bcast_S50000x1_S50000x128_0_1 (meanS x) (ix2 r j) = _
  rw [colB_apply, meanS_apply]

theorem varS_apply (x : FVec Ideal S50000x128 .f32) (r : Fin 50000) :
    varS x (ix2 r (0 : Fin 1))
      = Spec.meanAt (fun j' => (x (ix2 r j') - Spec.meanAt (fun j => x (ix2 r j)))
          * (x (ix2 r j') - Spec.meanAt (fun j => x (ix2 r j)))) := by
  show Scalar.select
      (Ideal.cmp .ogt (Ideal.ofBits .f32 0x43000000#32 - FloatOps.sitofp (F := Ideal) .f32 (0#32 : BitVec 32))
        (Ideal.ofBits .f32 0x00000000#32))
      (Ideal.div (broadcastInDim S50000x1 ![0] bcast_S50000_S50000x1_0
          (Host.reduceAdd (mulf (devS x) (devS x)) (constant (F := Ideal) S_ .f32 0x00000000#32)
            reducesTo_S50000x128_S50000_d1 h_S_) (ix2 r (0 : Fin 1)))
        (Ideal.ofBits .f32 0x43000000#32 - FloatOps.sitofp (F := Ideal) .f32 (0#32 : BitVec 32)))
      (Ideal.ofBits .f32 0x7FC00000#32) = _
  rw [sitofp_zero_word, sub_zero, col1_apply, rowSum_apply]
  have hc : Ideal.cmp .ogt (Ideal.ofBits .f32 0x43000000#32) (Ideal.ofBits .f32 0x00000000#32) = 1#1 := by
    rw [w128_word, Ideal.ofBits_zero_f32]
    show BitVec.ofBool (decide ((0 : EReal) < ((128 : ℝ) : EReal))) = 1#1
    rw [decide_eq_true (by exact_mod_cast (by norm_num : (0 : ℝ) < 128))]
    rfl
  rw [hc, select_one]
  unfold Spec.meanAt
  refine congrArg (Ideal.div · _) (Finset.sum_congr rfl fun k _ => ?_)
  show devS x (ix2 r k) * devS x (ix2 r k) = _
  rw [devS_apply]
  rfl

theorem lnS_apply (x : FVec Ideal S50000x128 .f32) (g b : FVec Ideal S128 .f32) (r : Fin 50000) (j : Fin 128) :
    lnS x g b (ix2 r j)
      = Spec.lnAt (fun j' => x (ix2 r j')) (fun i => g (ix1 (i 1))) (fun i => b (ix1 (i 1))) j := by
  show devS x (ix2 r j)
        * broadcastInDim S50000x128 ![0, 1] bcast_S50000x1_S50000x128_0_1
            (Host.rsqrt (addf (varS x) (broadcastInDim S50000x1 ![] bcast_S_S50000x1 (constant S_ .f32 0x3727C5AC#32)))) (ix2 r j)
        * broadcastInDim S50000x128 ![0, 1] bcast_S1x128_S50000x128_0_1 (broadcastInDim S1x128 ![1] bcast_S128_S1x128_1 g) (ix2 r j)
      + broadcastInDim S50000x128 ![0, 1] bcast_S1x128_S50000x128_0_1 (broadcastInDim S1x128 ![1] bcast_S128_S1x128_1 b) (ix2 r j) = _
  rw [rowB_apply, rowB_apply, colB_apply, devS_apply]
  show _ * Ideal.rsqrt (varS x (ix2 r (0 : Fin 1)) + Ideal.ofBits .f32 0x3727C5AC#32) * _ + _ = _
  rw [varS_apply]
  rfl

/-- The reference's update read at row r, column j. -/
theorem tailU_apply (dst agg : FVec Ideal S50000x128 .f32) (mc : FVec Ideal S50000 .f32) (gw : FVec Ideal S256x128 .f32)
    (gb : FVec Ideal S128 .f32) (u1w : FVec Ideal S256x128 .f32) (u1b : FVec Ideal S128 .f32) (u2w : FVec Ideal S128x128 .f32)
    (u2b lng lnb : FVec Ideal S128 .f32) (hmc : ∀ i, mc i ≠ 0) (r : Fin 50000) (j : Fin 128) :
    RefDefs.tailU dst agg mc gw gb u1w u1b u2w u2b lng lnb (ix2 r j)
      = Cert.Spec.updArr dst agg (fun i => Ideal.div (Ideal.ofBits .f32 0x3F800000#32) (mc (ValueIdx.ix1 (i 0)))) gw
          (fun i => gb (ValueIdx.ix1 (i 1))) u1w (fun i => u1b (ValueIdx.ix1 (i 1))) u2w (fun i => u2b (ValueIdx.ix1 (i 1)))
          (fun i => lng (ValueIdx.ix1 (i 1))) (fun i => lnb (ValueIdx.ix1 (i 1))) (ix2 r j) := by
  rw [tailU_stages, Spec.updArr_apply, lnS_apply]
  refine congrArg (fun f => Spec.lnAt f _ _ j) (funext fun j' => ?_)
  rw [mixS_apply, gateS_apply, linS_cat_apply _ _ _ _ _ hmc, lin1S_apply]
  unfold Spec.combAt Spec.gateAt Spec.updAt Spec.reluAt
  refine congrArg₂ (· + ·) rfl (congrArg₂ (· * ·) rfl (congrArg₂ (· + ·) (Finset.sum_congr rfl fun k _ => ?_) rfl))
  rw [reluS_apply, linS_cat_apply _ _ _ _ _ hmc]

end Up

/-! ## Top-down: the 200000 destination rows -/

namespace Down

theorem rowB_apply (b : FVec Ideal S128 .f32) (r : Fin 200000) (j : Fin 128) :
    broadcastInDim S200000x128 ![0, 1] bcast_S1x128_S200000x128_0_1 (broadcastInDim S1x128 ![1] bcast_S128_S1x128_1 b) (ix2 r j)
      = b (ix1 j) := by
  rw [broadcastInDim_oneRow_apply]
  refine broadcastInDim_apply _ bcast_S128_S1x128_1 b _ (ix1 j) ?_
  intro a
  fin_cases a
  rfl

theorem col1_apply (c : FVec Ideal S200000 .f32) (r : Fin 200000) :
    broadcastInDim S200000x1 ![0] bcast_S200000_S200000x1_0 c (ix2 r (0 : Fin 1)) = c (ix1 r) := by
  refine broadcastInDim_apply _ bcast_S200000_S200000x1_0 c _ (ix1 r) ?_
  intro a
  fin_cases a
  rfl

theorem colB_apply (y : FVec Ideal S200000x1 .f32) (r : Fin 200000) (j : Fin 128) :
    broadcastInDim S200000x128 ![0, 1] bcast_S200000x1_S200000x128_0_1 y (ix2 r j) = y (ix2 r (0 : Fin 1)) := by
  refine broadcastInDim_apply _ bcast_S200000x1_S200000x128_0_1 y _ (ix2 r (0 : Fin 1)) ?_
  intro a
  fin_cases a
  · rfl
  · rfl

theorem rowSum_apply (x : FVec Ideal S200000x128 .f32) (r : Fin 200000) :
    Host.reduceAdd x (constant (F := Ideal) S_ .f32 0x00000000#32) reducesTo_S200000x128_S200000_d1 h_S_ (ix1 r)
      = ∑ k : Fin 128, x (ix2 r k) := by
  have h : S200000x128.Reduces [1] S200000 := by decide
  show Ideal.hostReduceAdd reducesTo_S200000x128_S200000_d1 x (Ideal.ofBits .f32 0x00000000#32) (ix1 r) = _
  rw [Ideal.hostReduceAdd_single _ h, Ideal.ofBits_zero_f32, zero_add]
  refine Finset.sum_congr rfl fun k _ => congrArg x ?_
  funext c
  apply Fin.ext
  rw [h.lift_val]
  unfold Shape.Reduces.liftVal
  match c with
  | ⟨0, _⟩ => simp
  | ⟨1, _⟩ => simp

theorem catDot_apply (d a : FVec Ideal S200000x128 .f32) (w : FVec Ideal S256x128 .f32) (r : Fin 200000) (j : Fin 128) :
    Host.dotGeneral dot_S200000x256_S256x128_S200000x128_1_0_0_1_n_n none
        (concatenate S200000x256 1 [⟨S200000x128, d⟩, ⟨S200000x128, a⟩] concatenates_S200000x128_S200000x128_S200000x256_d1) w (ix2 r j)
      = (∑ k : Fin 128, d (ix2 r k) * w (ix2 (Spec.lo k) j)) + ∑ k : Fin 128, a (ix2 r k) * w (ix2 (Spec.hi k) j) := by
  refine (StackMember.dotGeneral_plain_apply (m := 200000) (n := 128) (k := 256) none
    (concatenate S200000x256 1 [⟨S200000x128, d⟩, ⟨S200000x128, a⟩] concatenates_S200000x128_S200000x128_S200000x256_d1) w r j).trans ?_
  refine (Fin.sum_univ_add (M := EReal) (a := 128) (b := 128) fun c : Fin (128 + 128) =>
    concatenate S200000x256 1 [⟨S200000x128, d⟩, ⟨S200000x128, a⟩] concatenates_S200000x128_S200000x128_S200000x256_d1 (ix2 r c)
      * w (ix2 c j)).trans ?_
  congr 1
  · refine Finset.sum_congr rfl fun k _ => ?_
    rw [concatenate_pair_apply_left (1 : Fin 2) d a concatenates_S200000x128_S200000x128_S200000x256_d1
      (ix2 r (Fin.castAdd 128 k)) rfl (ix2 r k) (by intro b; fin_cases b <;> rfl)]
    rfl
  · refine Finset.sum_congr rfl fun k _ => ?_
    rw [concatenate_pair_apply_right (1 : Fin 2) d a concatenates_S200000x128_S200000x128_S200000x256_d1
      (ix2 r (Fin.natAdd 128 k)) rfl rfl (ix2 r k)
      (by intro b hb; fin_cases b
          · rfl
          · exact absurd rfl hb)
      (by show k.val + 128 = 128 + k.val; omega)]
    have e : (Fin.natAdd 128 k : Fin (128 + 128)) = Spec.hi k := Fin.ext (by show 128 + k.val = k.val + 128; omega)
    rw [e]

/-! ## The stages of the update, named -/

/-- The aggregate divided, row by row, by its count. -/
def avgS (agg : FVec Ideal S200000x128 .f32) (mc : FVec Ideal S200000 .f32) : FVec Ideal S200000x128 .f32 :=
  Host.divf agg (broadcastInDim S200000x128 ![0, 1] bcast_S200000x1_S200000x128_0_1
    (broadcastInDim S200000x1 ![0] bcast_S200000_S200000x1_0 mc))

/-- The old row and the averaged aggregate side by side: 256 columns. -/
def catS (dst agg : FVec Ideal S200000x128 .f32) (mc : FVec Ideal S200000 .f32) : FVec Ideal S200000x256 .f32 :=
  concatenate S200000x256 1 [⟨S200000x128, dst⟩, ⟨S200000x128, avgS agg mc⟩] concatenates_S200000x128_S200000x128_S200000x256_d1

/-- A linear map of the 256 stacked columns, plus the bias row. -/
def linS (cat : FVec Ideal S200000x256 .f32) (w : FVec Ideal S256x128 .f32) (b : FVec Ideal S128 .f32) :
    FVec Ideal S200000x128 .f32 :=
  addf (Host.dotGeneral dot_S200000x256_S256x128_S200000x128_1_0_0_1_n_n none cat w)
    (broadcastInDim S200000x128 ![0, 1] bcast_S1x128_S200000x128_0_1 (broadcastInDim S1x128 ![1] bcast_S128_S1x128_1 b))

/-- 1 / (1 + exp (−x)), entry by entry. -/
def gateS (x : FVec Ideal S200000x128 .f32) : FVec Ideal S200000x128 .f32 :=
  Host.divf (broadcastInDim S200000x128 ![] bcast_S_S200000x128 (constant S_ .f32 0x3F800000#32))
    (addf (broadcastInDim S200000x128 ![] bcast_S_S200000x128 (constant S_ .f32 0x3F800000#32)) (Host.exp (Host.negf x)))

/-- The maximum with zero, entry by entry. -/
def reluS (x : FVec Ideal S200000x128 .f32) : FVec Ideal S200000x128 .f32 :=
  maximumf x (broadcastInDim S200000x128 ![] bcast_S_S200000x128 (constant S_ .f32 0x00000000#32))

/-- A linear map of 128 columns, plus the bias row. -/
def lin1S (h : FVec Ideal S200000x128 .f32) (w : FVec Ideal S128x128 .f32) (b : FVec Ideal S128 .f32) :
    FVec Ideal S200000x128 .f32 :=
  addf (Host.dotGeneral dot_S200000x128_S128x128_S200000x128_1_0_0_1_n_n none h w)
    (broadcastInDim S200000x128 ![0, 1] bcast_S1x128_S200000x128_0_1 (broadcastInDim S1x128 ![1] bcast_S128_S1x128_1 b))

/-- g·d + (1 − g)·u, entry by entry. -/
def mixS (g d u : FVec Ideal S200000x128 .f32) : FVec Ideal S200000x128 .f32 :=
  addf (mulf g d) (mulf (subf (broadcastInDim S200000x128 ![] bcast_S_S200000x128 (constant S_ .f32 0x3F800000#32)) g) u)

/-- The mean of each row, as a column. -/
def meanS (x : FVec Ideal S200000x128 .f32) : FVec Ideal S200000x1 .f32 :=
  Host.divf (broadcastInDim S200000x1 ![0] bcast_S200000_S200000x1_0
      (Host.reduceAdd x (constant (F := Ideal) S_ .f32 0x00000000#32) reducesTo_S200000x128_S200000_d1 h_S_))
    (broadcastInDim S200000x1 ![] bcast_S_S200000x1 (constant S_ .f32 0x43000000#32))

/-- The deviation of each entry from its row's mean. -/
def devS (x : FVec Ideal S200000x128 .f32) : FVec Ideal S200000x128 .f32 :=
  subf x (broadcastInDim S200000x128 ![0, 1] bcast_S200000x1_S200000x128_0_1 (meanS x))

/-- The variance of each row, as a column: the mean of the squared deviations, chosen by the test 128 − 0 > 0. -/
def varS (x : FVec Ideal S200000x128 .f32) : FVec Ideal S200000x1 .f32 :=
  select (broadcastInDim S200000x1 ![] bcast_S_S200000x1
      (cmpf .ogt (subf (constant (F := Ideal) S_ .f32 0x43000000#32) (sitofp .f32 (constantI S_ 32 0#32)))
        (constant (F := Ideal) S_ .f32 0x00000000#32)))
    (Host.divf (broadcastInDim S200000x1 ![0] bcast_S200000_S200000x1_0
        (Host.reduceAdd (mulf (devS x) (devS x)) (constant (F := Ideal) S_ .f32 0x00000000#32) reducesTo_S200000x128_S200000_d1 h_S_))
      (broadcastInDim S200000x1 ![] bcast_S_S200000x1
        (subf (constant (F := Ideal) S_ .f32 0x43000000#32) (sitofp .f32 (constantI S_ 32 0#32)))))
    (broadcastInDim S200000x1 ![] bcast_S_S200000x1 (id (constant (F := Ideal) S_ .f32 0x7FC00000#32)))

/-- Layer normalisation of each row, then the affine map. -/
def lnS (x : FVec Ideal S200000x128 .f32) (g b : FVec Ideal S128 .f32) : FVec Ideal S200000x128 .f32 :=
  addf
    (mulf
      (mulf (devS x)
        (broadcastInDim S200000x128 ![0, 1] bcast_S200000x1_S200000x128_0_1
          (Host.rsqrt (addf (varS x) (broadcastInDim S200000x1 ![] bcast_S_S200000x1 (constant S_ .f32 0x3727C5AC#32))))))
      (broadcastInDim S200000x128 ![0, 1] bcast_S1x128_S200000x128_0_1 (broadcastInDim S1x128 ![1] bcast_S128_S1x128_1 g)))
    (broadcastInDim S200000x128 ![0, 1] bcast_S1x128_S200000x128_0_1 (broadcastInDim S1x128 ![1] bcast_S128_S1x128_1 b))

/-- The reference's update is the composition of the named stages. -/
theorem tailL_stages (dst agg : FVec Ideal S200000x128 .f32) (mc : FVec Ideal S200000 .f32) (gw : FVec Ideal S256x128 .f32)
    (gb : FVec Ideal S128 .f32) (u1w : FVec Ideal S256x128 .f32) (u1b : FVec Ideal S128 .f32) (u2w : FVec Ideal S128x128 .f32)
    (u2b lng lnb : FVec Ideal S128 .f32) :
    RefDefs.tailL dst agg mc gw gb u1w u1b u2w u2b lng lnb
      = lnS (mixS (gateS (linS (catS dst agg mc) gw gb)) dst
          (lin1S (reluS (linS (catS dst agg mc) u1w u1b)) u2w u2b)) lng lnb := rfl

/-! ## Each stage read at (r, j) -/

theorem avgS_apply (agg : FVec Ideal S200000x128 .f32) (mc : FVec Ideal S200000 .f32) (r : Fin 200000) (k : Fin 128) :
    avgS agg mc (ix2 r k) = Ideal.div (agg (ix2 r k)) (mc (ix1 r)) := by
  show Ideal.div (agg (ix2 r k)) (broadcastInDim S200000x128 ![0, 1] bcast_S200000x1_S200000x128_0_1
    (broadcastInDim S200000x1 ![0] bcast_S200000_S200000x1_0 mc) (ix2 r k)) = _
  rw [colB_apply, col1_apply]

theorem linS_cat_apply (dst agg : FVec Ideal S200000x128 .f32) (mc : FVec Ideal S200000 .f32) (w : FVec Ideal S256x128 .f32)
    (b : FVec Ideal S128 .f32) (hmc : ∀ i, mc i ≠ 0) (r : Fin 200000) (j : Fin 128) :
    linS (catS dst agg mc) w b (ix2 r j)
      = Spec.lin2At dst agg (fun i => Ideal.div (Ideal.ofBits .f32 0x3F800000#32) (mc (ix1 (i 0)))) w
          (fun i => b (ix1 (i 1))) r j := by
  show Host.dotGeneral dot_S200000x256_S256x128_S200000x128_1_0_0_1_n_n none (catS dst agg mc) w (ix2 r j)
      + broadcastInDim S200000x128 ![0, 1] bcast_S1x128_S200000x128_0_1 (broadcastInDim S1x128 ![1] bcast_S128_S1x128_1 b) (ix2 r j) = _
  rw [rowB_apply, catS, catDot_apply]
  unfold Spec.lin2At Spec.aggAt
  refine congrArg₂ (· + ·) (congrArg₂ (· + ·) rfl (Finset.sum_congr rfl fun k _ => ?_)) rfl
  rw [avgS_apply, div_one_mul _ _ (hmc (ix1 r))]

theorem gateS_apply (x : FVec Ideal S200000x128 .f32) (i : S200000x128.Idx) : gateS x i = Ideal.logistic (x i) := by
  show Ideal.div (Ideal.ofBits .f32 0x3F800000#32) (Ideal.ofBits .f32 0x3F800000#32 + Ideal.exp (-(x i))) = _
  rw [one_word]
  rfl

theorem reluS_apply (x : FVec Ideal S200000x128 .f32) (i : S200000x128.Idx) :
    reluS x i = max (x i) (Ideal.ofBits .f32 0x00000000#32) := rfl

theorem lin1S_apply (h : FVec Ideal S200000x128 .f32) (w : FVec Ideal S128x128 .f32) (b : FVec Ideal S128 .f32)
    (r : Fin 200000) (j : Fin 128) :
    lin1S h w b (ix2 r j) = (∑ k : Fin 128, h (ix2 r k) * w (ix2 k j)) + b (ix1 j) := by
  show Host.dotGeneral dot_S200000x128_S128x128_S200000x128_1_0_0_1_n_n none h w (ix2 r j)
      + broadcastInDim S200000x128 ![0, 1] bcast_S1x128_S200000x128_0_1 (broadcastInDim S1x128 ![1] bcast_S128_S1x128_1 b) (ix2 r j) = _
  rw [rowB_apply]
  exact congrArg (· + b (ix1 j)) (StackMember.dotGeneral_plain_apply (m := 200000) (n := 128) (k := 128) none h w r j)

theorem mixS_apply (g d u : FVec Ideal S200000x128 .f32) (i : S200000x128.Idx) :
    mixS g d u i = g i * d i + (Ideal.ofBits .f32 0x3F800000#32 - g i) * u i := rfl

theorem meanS_apply (x : FVec Ideal S200000x128 .f32) (r : Fin 200000) :
    meanS x (ix2 r (0 : Fin 1)) = Spec.meanAt (fun j => x (ix2 r j)) := by
  show Ideal.div (broadcastInDim S200000x1 ![0] bcast_S200000_S200000x1_0
      (Host.reduceAdd x (constant (F := Ideal) S_ .f32 0x00000000#32) reducesTo_S200000x128_S200000_d1 h_S_) (ix2 r (0 : Fin 1)))
    (Ideal.ofBits .f32 0x43000000#32) = _
  rw [col1_apply, rowSum_apply]
  rfl

theorem devS_apply (x : FVec Ideal S200000x128 .f32) (r : Fin 200000) (j : Fin 128) :
    devS x (ix2 r j) = x (ix2 r j) - Spec.meanAt (fun j' => x (ix2 r j')) := by
  show x (ix2 r j) - broadcastInDim S200000x128 ![0, 1] bcast_S200000x1_S200000x128_0_1 (meanS x) (ix2 r j) = _
  rw [colB_apply, meanS_apply]

theorem varS_apply (x : FVec Ideal S200000x128 .f32) (r : Fin 200000) :
    varS x (ix2 r (0 : Fin 1))
      = Spec.meanAt (fun j' => (x (ix2 r j') - Spec.meanAt (fun j => x (ix2 r j)))
          * (x (ix2 r j') - Spec.meanAt (fun j => x (ix2 r j)))) := by
  show Scalar.select
      (Ideal.cmp .ogt (Ideal.ofBits .f32 0x43000000#32 - FloatOps.sitofp (F := Ideal) .f32 (0#32 : BitVec 32))
        (Ideal.ofBits .f32 0x00000000#32))
      (Ideal.div (broadcastInDim S200000x1 ![0] bcast_S200000_S200000x1_0
          (Host.reduceAdd (mulf (devS x) (devS x)) (constant (F := Ideal) S_ .f32 0x00000000#32)
            reducesTo_S200000x128_S200000_d1 h_S_) (ix2 r (0 : Fin 1)))
        (Ideal.ofBits .f32 0x43000000#32 - FloatOps.sitofp (F := Ideal) .f32 (0#32 : BitVec 32)))
      (Ideal.ofBits .f32 0x7FC00000#32) = _
  rw [sitofp_zero_word, sub_zero, col1_apply, rowSum_apply]
  have hc : Ideal.cmp .ogt (Ideal.ofBits .f32 0x43000000#32) (Ideal.ofBits .f32 0x00000000#32) = 1#1 := by
    rw [w128_word, Ideal.ofBits_zero_f32]
    show BitVec.ofBool (decide ((0 : EReal) < ((128 : ℝ) : EReal))) = 1#1
    rw [decide_eq_true (by exact_mod_cast (by norm_num : (0 : ℝ) < 128))]
    rfl
  rw [hc, select_one]
  unfold Spec.meanAt
  refine congrArg (Ideal.div · _) (Finset.sum_congr rfl fun k _ => ?_)
  show devS x (ix2 r k) * devS x (ix2 r k) = _
  rw [devS_apply]
  rfl

theorem lnS_apply (x : FVec Ideal S200000x128 .f32) (g b : FVec Ideal S128 .f32) (r : Fin 200000) (j : Fin 128) :
    lnS x g b (ix2 r j)
      = Spec.lnAt (fun j' => x (ix2 r j')) (fun i => g (ix1 (i 1))) (fun i => b (ix1 (i 1))) j := by
  show devS x (ix2 r j)
        * broadcastInDim S200000x128 ![0, 1] bcast_S200000x1_S200000x128_0_1
            (Host.rsqrt (addf (varS x) (broadcastInDim S200000x1 ![] bcast_S_S200000x1 (constant S_ .f32 0x3727C5AC#32)))) (ix2 r j)
        * broadcastInDim S200000x128 ![0, 1] bcast_S1x128_S200000x128_0_1 (broadcastInDim S1x128 ![1] bcast_S128_S1x128_1 g) (ix2 r j)
      + broadcastInDim S200000x128 ![0, 1] bcast_S1x128_S200000x128_0_1 (broadcastInDim S1x128 ![1] bcast_S128_S1x128_1 b) (ix2 r j) = _
  rw [rowB_apply, rowB_apply, colB_apply, devS_apply]
  show _ * Ideal.rsqrt (varS x (ix2 r (0 : Fin 1)) + Ideal.ofBits .f32 0x3727C5AC#32) * _ + _ = _
  rw [varS_apply]
  rfl

/-- The reference's update read at row r, column j. -/
theorem tailL_apply (dst agg : FVec Ideal S200000x128 .f32) (mc : FVec Ideal S200000 .f32) (gw : FVec Ideal S256x128 .f32)
    (gb : FVec Ideal S128 .f32) (u1w : FVec Ideal S256x128 .f32) (u1b : FVec Ideal S128 .f32) (u2w : FVec Ideal S128x128 .f32)
    (u2b lng lnb : FVec Ideal S128 .f32) (hmc : ∀ i, mc i ≠ 0) (r : Fin 200000) (j : Fin 128) :
    RefDefs.tailL dst agg mc gw gb u1w u1b u2w u2b lng lnb (ix2 r j)
      = Cert.Spec.updArr dst agg (fun i => Ideal.div (Ideal.ofBits .f32 0x3F800000#32) (mc (ValueIdx.ix1 (i 0)))) gw
          (fun i => gb (ValueIdx.ix1 (i 1))) u1w (fun i => u1b (ValueIdx.ix1 (i 1))) u2w (fun i => u2b (ValueIdx.ix1 (i 1)))
          (fun i => lng (ValueIdx.ix1 (i 1))) (fun i => lnb (ValueIdx.ix1 (i 1))) (ix2 r j) := by
  rw [tailL_stages, Spec.updArr_apply, lnS_apply]
  refine congrArg (fun f => Spec.lnAt f _ _ j) (funext fun j' => ?_)
  rw [mixS_apply, gateS_apply, linS_cat_apply _ _ _ _ _ hmc, lin1S_apply]
  unfold Spec.combAt Spec.gateAt Spec.updAt Spec.reluAt
  refine congrArg₂ (· + ·) rfl (congrArg₂ (· * ·) rfl (congrArg₂ (· + ·) (Finset.sum_congr rfl fun k _ => ?_) rfl))
  rw [reluS_apply, linS_cat_apply _ _ _ _ _ hmc]

end Down

/-- The reference's update of the 50000 destination rows is the specification's. -/
theorem tailU_eq (dst agg : FVec Ideal S50000x128 .f32) (mc : FVec Ideal S50000 .f32) (gw : FVec Ideal S256x128 .f32)
    (gb : FVec Ideal S128 .f32) (u1w : FVec Ideal S256x128 .f32) (u1b : FVec Ideal S128 .f32) (u2w : FVec Ideal S128x128 .f32)
    (u2b lng lnb : FVec Ideal S128 .f32) (hmc : ∀ i, mc i ≠ 0) :
    RefDefs.tailU dst agg mc gw gb u1w u1b u2w u2b lng lnb
      = Cert.Spec.updArr dst agg (fun i => Ideal.div (Ideal.ofBits .f32 0x3F800000#32) (mc (ValueIdx.ix1 (i 0)))) gw
          (fun i => gb (ValueIdx.ix1 (i 1))) u1w (fun i => u1b (ValueIdx.ix1 (i 1))) u2w (fun i => u2b (ValueIdx.ix1 (i 1)))
          (fun i => lng (ValueIdx.ix1 (i 1))) (fun i => lnb (ValueIdx.ix1 (i 1))) := by
  funext i
  have hi : i = ix2 (i 0 : Fin 50000) (i 1 : Fin 128) := eq_ix2 i
  rw [hi]
  exact Up.tailU_apply dst agg mc gw gb u1w u1b u2w u2b lng lnb hmc (i 0) (i 1)

/-- The reference's update of the 200000 destination rows is the specification's. -/
theorem tailL_eq (dst agg : FVec Ideal S200000x128 .f32) (mc : FVec Ideal S200000 .f32) (gw : FVec Ideal S256x128 .f32)
    (gb : FVec Ideal S128 .f32) (u1w : FVec Ideal S256x128 .f32) (u1b : FVec Ideal S128 .f32) (u2w : FVec Ideal S128x128 .f32)
    (u2b lng lnb : FVec Ideal S128 .f32) (hmc : ∀ i, mc i ≠ 0) :
    RefDefs.tailL dst agg mc gw gb u1w u1b u2w u2b lng lnb
      = Cert.Spec.updArr dst agg (fun i => Ideal.div (Ideal.ofBits .f32 0x3F800000#32) (mc (ValueIdx.ix1 (i 0)))) gw
          (fun i => gb (ValueIdx.ix1 (i 1))) u1w (fun i => u1b (ValueIdx.ix1 (i 1))) u2w (fun i => u2b (ValueIdx.ix1 (i 1)))
          (fun i => lng (ValueIdx.ix1 (i 1))) (fun i => lnb (ValueIdx.ix1 (i 1))) := by
  funext i
  have hi : i = ix2 (i 0 : Fin 200000) (i 1 : Fin 128) := eq_ix2 i
  rw [hi]
  exact Down.tailL_apply dst agg mc gw gb u1w u1b u2w u2b lng lnb hmc (i 0) (i 1)

end Cert.ReferenceIdeal.RefTail
end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.MsgBridge.lean ====
/-
  The two programs' lookups, sums and counts over an edge list, compared. The kernel looks the transformed rows up in a
  table it has already built (row r of X through W, plus the bias row), and guards the lookup: a row number outside the
  table reads as a quiet NaN. The reference looks the rows of X up first and transforms them afterwards, unguarded. When
  every row number in the first row of the edge list is at least 0 and below the table's height the guard never fires
  and a negative number is never wrapped, so edge p reads, in both, row idx[p] of X through W plus the bias. The sums
  over the destinations and the edge counts are the same operations in both programs.
-/
import proofs.«423421_j88751204204557_2_alg».proof.Proof.KDefs
import proofs.«423421_j88751204204557_2_alg».proof.Proof.RefDefs
import proofs.«423421_j88751204204557_2_alg».proof.Proof.Spec
import proofs.«423421_j88751204204557_2_alg».proof.Proof.LibRows
import Idealize.ShloMosaic.Lib.ValueIdx
import Idealize.ShloMosaic.Lib.StableHlo.Predicate
import Idealize.ShloMosaic.Lib.StackMember
import Idealize.ShloMosaic.Lib.IdealHost
import Idealize.ShloMosaic.PureOps.Ideal.Laws

noncomputable section

open scoped BigOperators

namespace Cert.MsgBridge

open Idealize.ShloMosaic Idealize.ShloMosaic.ValueIdx
open Cert.KernelIdeal Cert.KernelIdeal.Gen
open Cert.KernelIdeal (KDefs.rowv KDefs.takeU KDefs.aggU KDefs.invU KDefs.takeL KDefs.aggL KDefs.invL)
open Cert.ReferenceIdeal (RefDefs.idxU RefDefs.segU RefDefs.msgU RefDefs.aggU RefDefs.cntU RefDefs.idxL RefDefs.segL RefDefs.msgL
  RefDefs.aggL RefDefs.cntL)

/-! ## Words -/

/-- A non-negative number is not wrapped: the select on "below 0" keeps it. -/
theorem wrap_nonneg (w k : BitVec 32) (h : 0 ≤ w.toInt) :
    Scalar.select (IntOp.cmpi .slt w 0#32) (IntOp.addi w k) w = w := by
  have e : IntOp.cmpi .slt w 0#32 = 0#1 := by
    unfold IntOp.cmpi
    have : w.slt 0#32 = false := by
      simp only [BitVec.slt, BitVec.toInt_zero, decide_eq_false_iff_not, not_lt]
      exact h
    rw [this]
    rfl
  rw [e, select_zero]

/-- A number in [0, n] passes the two-sided check against 0 and n. -/
theorem inrange_one (w : BitVec 32) (n : ℕ) (hn : n < 2 ^ 31) (h0 : 0 ≤ w.toInt) (h1 : w.toInt ≤ n) :
    IntOp.andi (IntOp.cmpi .sge w 0#32) (IntOp.cmpi .sle w (BitVec.ofNat 32 n)) = 1#1 := by
  have a : IntOp.cmpi .sge w 0#32 = 1#1 := by
    unfold IntOp.cmpi
    have : (0#32 : BitVec 32).sle w = true := by
      simp only [BitVec.sle, BitVec.toInt_zero, decide_eq_true_eq]
      exact h0
    rw [this]
    rfl
  have b : IntOp.cmpi .sle w (BitVec.ofNat 32 n) = 1#1 := by
    unfold IntOp.cmpi
    have : w.sle (BitVec.ofNat 32 n) = true := by
      simp only [BitVec.sle, StableHlo.Predicate.toInt_ofNat_small n hn, decide_eq_true_eq]
      exact h1
    rw [this]
    rfl
  rw [a, b]
  rfl

/-- A conjunction of ones, from one, is one. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- "All of them" over an array of ones is one. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The first row of the edge list, and the column of row numbers made from it -/

/-- Entry p of the first row of a [2, 600000] array: the slice of that row, reshaped to a vector, read at p. -/
theorem row0_apply {α : Type} (x : S2x600000.Idx → α) (hs : S2x600000.Slices ![0, 0] S1x600000)
    (hc : S1x600000.ShapeCasts S600000) (p : Fin 600000) :
    shapeCast S600000 (extractStridedSlice S1x600000 ![0, 0] x hs) hc (ix1 p) = x (ix2 (0 : Fin 2) p) := by
  unfold shapeCast
  have e : Shape.reshapeEquiv hc (ix1 p) = ix2 (0 : Fin 1) p :=
    Shape.reshapeEquiv_eq_of_rowMajor hc (by
      rw [Shape.rowMajor_val_two, Shape.rowMajor_val_one]
      show 0 * 600000 + p.val = p.val
      omega)
  rw [e]
  unfold extractStridedSlice
  refine congrArg x (funext fun a => ?_)
  match a with
  | ⟨0, _⟩ => exact Fin.ext rfl
  | ⟨1, _⟩ => exact Fin.ext (Nat.zero_add _)

/-- A vector stood up as a column reads, at (p, 0), the vector at p. -/
theorem col_apply {α : Type} (v : S600000.Idx → α) (hb : S600000.BroadcastsInDim S600000x1 ![0]) (p : Fin 600000) (z : Fin 1) :
    broadcastInDim S600000x1 ![0] hb v (ix2 p z) = v (ix1 p) := by
  refine broadcastInDim_apply ![0] hb v (ix2 p z) (ix1 p) ?_
  intro a
  match a with
  | ⟨0, _⟩ =>
    show p.val = if (600000 : ℕ) = 1 then 0 else p.val
    rw [if_neg (by norm_num)]

/-- The column of row numbers: row 0 of the edge list, a negative number moved up by k. -/
def idxCol (k : BitVec 32) (e : IVec S2x600000 32) : IVec S600000x1 32 :=
  broadcastInDim S600000x1 ![0] bcast_S600000_S600000x1_0
    (select
      (cmpi .slt (shapeCast S600000 (extractStridedSlice S1x600000 ![0, 0] e slices_S2x600000_S1x600000_0_0) shapeCasts_S1x600000_S600000)
        (broadcastInDim S600000 ![] bcast_S_S600000 (constantI S_ 32 0#32)))
      (addi (shapeCast S600000 (extractStridedSlice S1x600000 ![0, 0] e slices_S2x600000_S1x600000_0_0) shapeCasts_S1x600000_S600000)
        (broadcastInDim S600000 ![] bcast_S_S600000 (constantI S_ 32 k)))
      (shapeCast S600000 (extractStridedSlice S1x600000 ![0, 0] e slices_S2x600000_S1x600000_0_0) shapeCasts_S1x600000_S600000))

/-- Where the edge's number is not negative the column holds it unchanged. -/
theorem idxCol_apply (k : BitVec 32) (e : IVec S2x600000 32) (p : Fin 600000) (z : Fin 1)
    (h : 0 ≤ (e (ix2 (0 : Fin 2) p)).toInt) : idxCol k e (ix2 p z) = e (ix2 (0 : Fin 2) p) := by
  unfold idxCol
  rw [col_apply]
  show Scalar.select
      (IntOp.cmpi .slt (shapeCast S600000 (extractStridedSlice S1x600000 ![0, 0] e slices_S2x600000_S1x600000_0_0) shapeCasts_S1x600000_S600000 (ix1 p)) 0#32)
      (IntOp.addi (shapeCast S600000 (extractStridedSlice S1x600000 ![0, 0] e slices_S2x600000_S1x600000_0_0) shapeCasts_S1x600000_S600000 (ix1 p)) k)
      (shapeCast S600000 (extractStridedSlice S1x600000 ![0, 0] e slices_S2x600000_S1x600000_0_0) shapeCasts_S1x600000_S600000 (ix1 p)) = _
  rw [row0_apply]
  exact wrap_nonneg _ _ h

/-- The two-sided check of the column against [0, n], taken over each row of the column, is one everywhere when every
    number in the edge list's first row is in [0, n]. -/
theorem mask_one (k : BitVec 32) (n : ℕ) (hn : n < 2 ^ 31) (e : IVec S2x600000 32)
    (hr : ∀ p : Fin 600000, 0 ≤ (e (ix2 (0 : Fin 2) p)).toInt ∧ (e (ix2 (0 : Fin 2) p)).toInt ≤ n) (p : Fin 600000) :
    Host.reduce IntOp.andi
        (andi (cmpi .sge (idxCol k e) (broadcastInDim S600000x1 ![] bcast_S_S600000x1 (constantI S_ 32 0#32)))
          (cmpi .sle (idxCol k e)
            (broadcastInDim S600000x1 ![0, 1] bcast_S1x1_S600000x1_0_1
              (broadcastInDim S1x1 ![1] bcast_S1_S1x1_1 (constantI S1 32 (BitVec.ofNat 32 n))))))
        (constantI S_ 1 1#1) reducesTo_S600000x1_S600000_d1 h_S_ (ix1 p) = 1#1 := by
  refine reduce_andi_of_all _ _ _ _ ?_ rfl _
  intro i
  obtain ⟨q, z, rfl⟩ : ∃ (q : Fin 600000) (z : Fin 1), i = ix2 q z := ⟨i 0, i 1, eq_ix2 i⟩
  show IntOp.andi (IntOp.cmpi .sge (idxCol k e (ix2 q z)) 0#32) (IntOp.cmpi .sle (idxCol k e (ix2 q z)) (BitVec.ofNat 32 n)) = 1#1
  rw [idxCol_apply k e q z (hr q).1]
  exact inrange_one _ n hn (hr q).1 (hr q).2

/-- A per-row bit laid along the 128 columns reads, at (p, c), the bit at p. -/
theorem rowbit_apply {α : Type} (v : S600000.Idx → α) (hb : S600000.BroadcastsInDim S600000x128 ![0]) (p : Fin 600000) (c : Fin 128) :
    broadcastInDim S600000x128 ![0] hb v (ix2 p c) = v (ix1 p) := by
  refine broadcastInDim_apply ![0] hb v (ix2 p c) (ix1 p) ?_
  intro a
  match a with
  | ⟨0, _⟩ =>
    show p.val = if (600000 : ℕ) = 1 then 0 else p.val
    rw [if_neg (by norm_num)]

/-- A 128-vector as a 1 × 128 row reads, at (0, c), the vector at c. -/
theorem rowv_apply (b : FVec Ideal S128 .f32) (c : Fin 128) : KDefs.rowv b (ix2 (0 : Fin 1) c) = b (ix1 c) := by
  unfold KDefs.rowv
  exact shapeCast_apply b shapeCasts_S128_S1x128 (ix2 (0 : Fin 1) c) (ix1 c) (by
    rw [Shape.rowMajor_val_two, Shape.rowMajor_val_one]
    show c.val = 0 * 128 + c.val
    omega)

/-- A 128-vector laid along every one of the 600000 rows reads, at (p, c), the vector at c. -/
theorem biasrows_apply (b : FVec Ideal S128 .f32) (h1 : S128.BroadcastsInDim S1x128 ![1])
    (h2 : S1x128.BroadcastsInDim S600000x128 ![0, 1]) (p : Fin 600000) (c : Fin 128) :
    broadcastInDim S600000x128 ![0, 1] h2 (broadcastInDim S1x128 ![1] h1 b) (ix2 p c) = b (ix1 c) := by
  have e1 := broadcastInDim_apply ![0, 1] h2 (broadcastInDim S1x128 ![1] h1 b) (ix2 p c) (ix2 (0 : Fin 1) c) (by
    intro a
    match a with
    | ⟨0, _⟩ => rfl
    | ⟨1, _⟩ =>
      show c.val = if (128 : ℕ) = 1 then 0 else c.val
      rw [if_neg (by norm_num)])
  have e2 := broadcastInDim_apply ![1] h1 b (ix2 (0 : Fin 1) c) (ix1 c) (by
    intro a
    match a with
    | ⟨0, _⟩ =>
      show c.val = if (128 : ℕ) = 1 then 0 else c.val
      rw [if_neg (by norm_num)])
  exact e1.trans e2

/-- A splat of the word of 1 reads 1 everywhere. -/
theorem ones_apply {t : Shape} (h : S_.BroadcastsInDim t ![]) (j : t.Idx) :
    broadcastInDim t ![] h (constant (F := Ideal) S_ .f32 0x3F800000#32) j = Ideal.ofBits .f32 0x3F800000#32 := rfl

/-- A maximum with the splat of 1 is at least 1, so it is not 0. -/
theorem maximumf_ones_ne {t : Shape} (a : FVec Ideal t .f32) (h : S_.BroadcastsInDim t ![]) (i : t.Idx) :
    maximumf a (broadcastInDim t ![] h (constant (F := Ideal) S_ .f32 0x3F800000#32)) i ≠ 0 := by
  rw [maximumf_apply, ones_apply, Ideal.ofBits_one_f32]
  exact (lt_of_lt_of_le zero_lt_one (le_max_right _ _)).ne'

/-- The host's quotient at an index is the quotient of the elements. -/
theorem hostDivf_apply {s : Shape} (a b : FVec Ideal s .f32) (i : s.Idx) : Host.divf a b i = Ideal.div (a i) (b i) := rfl

/-- The reference's product is the plain 600000 × 128 by 128 × 128 one. -/
theorem dot_eq : Cert.ReferenceIdeal.dot_S600000x128_S128x128_S600000x128_1_0_0_1_n_n = DotDims.plain 600000 128 128 := rfl

/-! ## Bottom-up: the 200000-row table into the 50000 destinations -/

theorem idxU_eq (e : IVec S2x600000 32) : RefDefs.idxU e = idxCol 200000#32 e := rfl

theorem gatherKU_eq : Cert.KernelIdeal.gather_S200000x128_S600000x1_S600000x128_1_0_n_n_0_1_1128
    = rowGatherDims 200000 600000 128 gather_S200000x128_S600000x1_S600000x128_1_0_n_n_0_1_1128_wf := rfl

theorem gatherRU_eq : Cert.ReferenceIdeal.gather_S200000x128_S600000x1_S600000x128_1_0_n_n_0_1_1128
    = rowGatherDims 200000 600000 128 gather_S200000x128_S600000x1_S600000x128_1_0_n_n_0_1_1128_wf := rfl

/-- The kernel's lookup, with the column of row numbers named. -/
theorem takeU_eq {F : FTy → Type} [FloatOps F] (T : FVec F S200000x128 .f32) (e : IVec S2x600000 32) :
    KDefs.takeU T e
      = select
        (broadcastInDim S600000x128 ![0] bcast_S600000_S600000x128_0
          (Host.reduce IntOp.andi
            (andi (cmpi .sge (idxCol 200000#32 e) (broadcastInDim S600000x1 ![] bcast_S_S600000x1 (constantI S_ 32 0#32)))
              (cmpi .sle (idxCol 200000#32 e)
                (broadcastInDim S600000x1 ![0, 1] bcast_S1x1_S600000x1_0_1
                  (broadcastInDim S1x1 ![1] bcast_S1_S1x1_1 (constantI S1 32 (BitVec.ofNat 32 199999))))))
            (constantI S_ 1 1#1) reducesTo_S600000x1_S600000_d1 h_S_))
        (Host.gather gather_S200000x128_S600000x1_S600000x128_1_0_n_n_0_1_1128 T (idxCol 200000#32 e))
        (broadcastInDim S600000x128 ![] bcast_S_S600000x128 (constant (F := F) S_ .f32 0x7FC00000#32)) := rfl

/-- The reference's messages, stage by stage. -/
theorem msgU_eq {F : FTy → Type} [FloatOps F] (X : FVec F S200000x128 .f32) (e : IVec S2x600000 32) (W : FVec F S128x128 .f32)
    (b : FVec F S128 .f32) :
    RefDefs.msgU X e W b
      = addf
        (Host.dotGeneral Cert.ReferenceIdeal.dot_S600000x128_S128x128_S600000x128_1_0_0_1_n_n none
          (Host.gather Cert.ReferenceIdeal.gather_S200000x128_S600000x1_S600000x128_1_0_n_n_0_1_1128 X (RefDefs.idxU e)) W)
        (broadcastInDim S600000x128 ![0, 1] Cert.ReferenceIdeal.Gen.bcast_S1x128_S600000x128_0_1
          (broadcastInDim S1x128 ![1] Cert.ReferenceIdeal.Gen.bcast_S128_S1x128_1 b)) := rfl

/-- The kernel's column of reciprocals, with the reference's count named. -/
theorem invU_eq {F : FTy → Type} [FloatOps F] (e : IVec S2x600000 32) :
    KDefs.invU (F := F) e
      = shapeCast S50000x1
          (Host.divf (broadcastInDim S50000 ![] bcast_S_S50000 (constant (F := F) S_ .f32 0x3F800000#32)) (RefDefs.cntU (F := F) e))
          shapeCasts_S50000_S50000x1 := rfl

/-- The row of the table edge p names: its number read signed and kept inside the table. -/
def rowU (e : IVec S2x600000 32) (p : Fin 600000) : Fin 200000 :=
  ⟨min (idxCol 200000#32 e (ix2 p (0 : Fin 1))).toInt.toNat (200000 - 1), by omega⟩

/-- The kernel's guarded lookup, read at (p, c): the table at the row edge p names. -/
theorem takeU_apply (T : FVec Ideal S200000x128 .f32) (e : IVec S2x600000 32)
    (hr : ∀ p : Fin 600000, 0 ≤ (e (ix2 (0 : Fin 2) p)).toInt ∧ (e (ix2 (0 : Fin 2) p)).toInt < 200000)
    (p : Fin 600000) (c : Fin 128) : KDefs.takeU T e (ix2 p c) = T (ix2 (rowU e p) c) := by
  have hm := mask_one 200000#32 199999 (by norm_num) e (fun q => ⟨(hr q).1, by have := (hr q).2; omega⟩) p
  rw [takeU_eq, select_apply, rowbit_apply, hm, select_one, gatherKU_eq]
  exact rowGather_apply (by norm_num) _ T (idxCol 200000#32 e) p c

/-- The reference's unguarded lookup of X, read at (p, k): X at the row edge p names. -/
theorem gatherU_apply (X : FVec Ideal S200000x128 .f32) (e : IVec S2x600000 32) (p : Fin 600000) (k : Fin 128) :
    Host.gather Cert.ReferenceIdeal.gather_S200000x128_S600000x1_S600000x128_1_0_n_n_0_1_1128 X (RefDefs.idxU e) (ix2 p k)
      = X (ix2 (rowU e p) k) := by
  rw [gatherRU_eq, idxU_eq]
  exact rowGather_apply (by norm_num) _ X (idxCol 200000#32 e) p k

/-- Looking the transformed rows up is transforming the looked-up rows. -/
theorem msgU_bridge (X : FVec Ideal S200000x128 .f32) (W : FVec Ideal S128x128 .f32) (b : FVec Ideal S128 .f32)
    (e : IVec S2x600000 32)
    (hr : ∀ p : Fin 600000, 0 ≤ (e (ix2 (0 : Fin 2) p)).toInt ∧ (e (ix2 (0 : Fin 2) p)).toInt < 200000) :
    KDefs.takeU (Cert.Spec.msgTab X W (KDefs.rowv b)) e = RefDefs.msgU X e W b := by
  funext i
  obtain ⟨p, c, rfl⟩ : ∃ (p : Fin 600000) (c : Fin 128), i = ix2 p c := ⟨i 0, i 1, eq_ix2 i⟩
  rw [takeU_apply _ e hr, Cert.Spec.msgTab_apply, msgU_eq, addf_apply, biasrows_apply, dot_eq,
    StackMember.dotGeneral_plain_apply]
  unfold Cert.Spec.msgAt
  rw [rowv_apply]
  congr 1
  refine Finset.sum_congr rfl fun k _ => ?_
  rw [gatherU_apply]

/-- The sums over the destinations are the same operations. -/
theorem aggU_bridge (msgs : FVec Ideal S600000x128 .f32) (e : IVec S2x600000 32) : KDefs.aggU msgs e = RefDefs.aggU msgs e := rfl

/-- The count of edges into a destination, kept at least 1, is not 0. -/
theorem cntU_ne (e : IVec S2x600000 32) : ∀ i, RefDefs.cntU (F := Ideal) e i ≠ 0 :=
  fun i => maximumf_ones_ne _ _ i

/-- The kernel's column of reciprocals is 1 over the reference's count. -/
theorem invU_bridge (e : IVec S2x600000 32) :
    KDefs.invU (F := Ideal) e
      = fun i => Ideal.div (Ideal.ofBits .f32 0x3F800000#32) (RefDefs.cntU (F := Ideal) e (ix1 (i 0))) := by
  funext i
  obtain ⟨r, z, rfl⟩ : ∃ (r : Fin 50000) (z : Fin 1), i = ix2 r z := ⟨i 0, i 1, eq_ix2 i⟩
  show _ = Ideal.div (Ideal.ofBits .f32 0x3F800000#32) (RefDefs.cntU (F := Ideal) e (ix1 r))
  have hk : (S50000.rowMajor (ix1 r)).val = (S50000x1.rowMajor (ix2 r z)).val := by
    rw [Shape.rowMajor_val_two, Shape.rowMajor_val_one]
    have hz : z.val = 0 := by have := z.isLt; omega
    show r.val = r.val * 1 + z.val
    omega
  rw [invU_eq, shapeCast_apply _ shapeCasts_S50000_S50000x1 (ix2 r z) (ix1 r) hk, hostDivf_apply, ones_apply]

/-! ## Top-down: the 50000-row table into the 200000 destinations -/

theorem idxL_eq (e : IVec S2x600000 32) : RefDefs.idxL e = idxCol 50000#32 e := rfl

theorem gatherKL_eq : Cert.KernelIdeal.gather_S50000x128_S600000x1_S600000x128_1_0_n_n_0_1_1128
    = rowGatherDims 50000 600000 128 gather_S50000x128_S600000x1_S600000x128_1_0_n_n_0_1_1128_wf := rfl

theorem gatherRL_eq : Cert.ReferenceIdeal.gather_S50000x128_S600000x1_S600000x128_1_0_n_n_0_1_1128
    = rowGatherDims 50000 600000 128 gather_S50000x128_S600000x1_S600000x128_1_0_n_n_0_1_1128_wf := rfl

/-- The kernel's lookup, with the column of row numbers named. -/
theorem takeL_eq {F : FTy → Type} [FloatOps F] (T : FVec F S50000x128 .f32) (e : IVec S2x600000 32) :
    KDefs.takeL T e
      = select
        (broadcastInDim S600000x128 ![0] bcast_S600000_S600000x128_0
          (Host.reduce IntOp.andi
            (andi (cmpi .sge (idxCol 50000#32 e) (broadcastInDim S600000x1 ![] bcast_S_S600000x1 (constantI S_ 32 0#32)))
              (cmpi .sle (idxCol 50000#32 e)
                (broadcastInDim S600000x1 ![0, 1] bcast_S1x1_S600000x1_0_1
                  (broadcastInDim S1x1 ![1] bcast_S1_S1x1_1 (constantI S1 32 (BitVec.ofNat 32 49999))))))
            (constantI S_ 1 1#1) reducesTo_S600000x1_S600000_d1 h_S_))
        (Host.gather gather_S50000x128_S600000x1_S600000x128_1_0_n_n_0_1_1128 T (idxCol 50000#32 e))
        (broadcastInDim S600000x128 ![] bcast_S_S600000x128 (constant (F := F) S_ .f32 0x7FC00000#32)) := rfl

/-- The reference's messages, stage by stage. -/
theorem msgL_eq {F : FTy → Type} [FloatOps F] (X : FVec F S50000x128 .f32) (e : IVec S2x600000 32) (W : FVec F S128x128 .f32)
    (b : FVec F S128 .f32) :
    RefDefs.msgL X e W b
      = addf
        (Host.dotGeneral Cert.ReferenceIdeal.dot_S600000x128_S128x128_S600000x128_1_0_0_1_n_n none
          (Host.gather Cert.ReferenceIdeal.gather_S50000x128_S600000x1_S600000x128_1_0_n_n_0_1_1128 X (RefDefs.idxL e)) W)
        (broadcastInDim S600000x128 ![0, 1] Cert.ReferenceIdeal.Gen.bcast_S1x128_S600000x128_0_1
          (broadcastInDim S1x128 ![1] Cert.ReferenceIdeal.Gen.bcast_S128_S1x128_1 b)) := rfl

/-- The kernel's column of reciprocals, with the reference's count named. -/
theorem invL_eq {F : FTy → Type} [FloatOps F] (e : IVec S2x600000 32) :
    KDefs.invL (F := F) e
      = shapeCast S200000x1
          (Host.divf (broadcastInDim S200000 ![] bcast_S_S200000 (constant (F := F) S_ .f32 0x3F800000#32)) (RefDefs.cntL (F := F) e))
          shapeCasts_S200000_S200000x1 := rfl

/-- The row of the table edge p names: its number read signed and kept inside the table. -/
def rowL (e : IVec S2x600000 32) (p : Fin 600000) : Fin 50000 :=
  ⟨min (idxCol 50000#32 e (ix2 p (0 : Fin 1))).toInt.toNat (50000 - 1), by omega⟩

/-- The kernel's guarded lookup, read at (p, c): the table at the row edge p names. -/
theorem takeL_apply (T : FVec Ideal S50000x128 .f32) (e : IVec S2x600000 32)
    (hr : ∀ p : Fin 600000, 0 ≤ (e (ix2 (0 : Fin 2) p)).toInt ∧ (e (ix2 (0 : Fin 2) p)).toInt < 50000)
    (p : Fin 600000) (c : Fin 128) : KDefs.takeL T e (ix2 p c) = T (ix2 (rowL e p) c) := by
  have hm := mask_one 50000#32 49999 (by norm_num) e (fun q => ⟨(hr q).1, by have := (hr q).2; omega⟩) p
  rw [takeL_eq, select_apply, rowbit_apply, hm, select_one, gatherKL_eq]
  exact rowGather_apply (by norm_num) _ T (idxCol 50000#32 e) p c

/-- The reference's unguarded lookup of X, read at (p, k): X at the row edge p names. -/
theorem gatherL_apply (X : FVec Ideal S50000x128 .f32) (e : IVec S2x600000 32) (p : Fin 600000) (k : Fin 128) :
    Host.gather Cert.ReferenceIdeal.gather_S50000x128_S600000x1_S600000x128_1_0_n_n_0_1_1128 X (RefDefs.idxL e) (ix2 p k)
      = X (ix2 (rowL e p) k) := by
  rw [gatherRL_eq, idxL_eq]
  exact rowGather_apply (by norm_num) _ X (idxCol 50000#32 e) p k

/-- Looking the transformed rows up is transforming the looked-up rows. -/
theorem msgL_bridge (X : FVec Ideal S50000x128 .f32) (W : FVec Ideal S128x128 .f32) (b : FVec Ideal S128 .f32)
    (e : IVec S2x600000 32)
    (hr : ∀ p : Fin 600000, 0 ≤ (e (ix2 (0 : Fin 2) p)).toInt ∧ (e (ix2 (0 : Fin 2) p)).toInt < 50000) :
    KDefs.takeL (Cert.Spec.msgTab X W (KDefs.rowv b)) e = RefDefs.msgL X e W b := by
  funext i
  obtain ⟨p, c, rfl⟩ : ∃ (p : Fin 600000) (c : Fin 128), i = ix2 p c := ⟨i 0, i 1, eq_ix2 i⟩
  rw [takeL_apply _ e hr, Cert.Spec.msgTab_apply, msgL_eq, addf_apply, biasrows_apply, dot_eq,
    StackMember.dotGeneral_plain_apply]
  unfold Cert.Spec.msgAt
  rw [rowv_apply]
  congr 1
  refine Finset.sum_congr rfl fun k _ => ?_
  rw [gatherL_apply]

/-- The sums over the destinations are the same operations. -/
theorem aggL_bridge (msgs : FVec Ideal S600000x128 .f32) (e : IVec S2x600000 32) : KDefs.aggL msgs e = RefDefs.aggL msgs e := rfl

/-- The count of edges into a destination, kept at least 1, is not 0. -/
theorem cntL_ne (e : IVec S2x600000 32) : ∀ i, RefDefs.cntL (F := Ideal) e i ≠ 0 :=
  fun i => maximumf_ones_ne _ _ i

/-- The kernel's column of reciprocals is 1 over the reference's count. -/
theorem invL_bridge (e : IVec S2x600000 32) :
    KDefs.invL (F := Ideal) e
      = fun i => Ideal.div (Ideal.ofBits .f32 0x3F800000#32) (RefDefs.cntL (F := Ideal) e (ix1 (i 0))) := by
  funext i
  obtain ⟨r, z, rfl⟩ : ∃ (r : Fin 200000) (z : Fin 1), i = ix2 r z := ⟨i 0, i 1, eq_ix2 i⟩
  show _ = Ideal.div (Ideal.ofBits .f32 0x3F800000#32) (RefDefs.cntL (F := Ideal) e (ix1 r))
  have hk : (S200000.rowMajor (ix1 r)).val = (S200000x1.rowMajor (ix2 r z)).val := by
    rw [Shape.rowMajor_val_two, Shape.rowMajor_val_one]
    have hz : z.val = 0 := by have := z.isLt; omega
    show r.val = r.val * 1 + z.val
    omega
  rw [invL_eq, shapeCast_apply _ shapeCasts_S200000_S200000x1 (ix2 r z) (ix1 r) hk, hostDivf_apply, ones_apply]

end Cert.MsgBridge

end
-- ==== Proof.PreIdx.lean ====
/-
  The index ranges the precondition states, read back. The last four conjuncts of the printed precondition say of the
  first row of each of the two edge arrays, entry by entry, that the number there is at least 0 and below the extent of
  the table it indexes: 200000 for the first array, 50000 for the second. Each conjunct is a conjunction over all
  600000 entries of a signed comparison against a constant, so the precondition gives, for every position p, the two
  signed bounds on the entry (0, p).
-/
import proofs.«423421_j88751204204557_2_alg».proof.Defs
import proofs.«423421_j88751204204557_2_alg».proof.Proof.Gen.Pre_finite_inputs
import Idealize.ShloMosaic.Lib.StableHlo.Predicate
import Idealize.ShloMosaic.Lib.ReduceAll
import Idealize.ShloMosaic.Lib.ValueIdx

noncomputable section

namespace Cert.PreIdx

open Idealize.ShloMosaic Idealize.ShloMosaic.ValueIdx Idealize.SL.Sem
open Cert.Pre_finite_inputs (S2x600000 S1x600000 S600000 S_ S128)

/-- The shape with no axes has one index. -/
instance : Subsingleton S_.Idx := ⟨fun a b => funext fun d => d.elim0⟩

/-- Entry p of the first row of a [2, 600000] array: the slice of that row, reshaped to a vector, read at p. -/
theorem row0_apply {α : Type} (x : S2x600000.Idx → α) (hs : S2x600000.Slices ![0, 0] S1x600000)
    (hc : S1x600000.ShapeCasts S600000) (p : Fin 600000) :
    shapeCast S600000 (extractStridedSlice S1x600000 ![0, 0] x hs) hc (ix1 p) = x (ix2 (0 : Fin 2) p) := by
  unfold shapeCast
  have e : Shape.reshapeEquiv hc (ix1 p) = ix2 (0 : Fin 1) p :=
    Shape.reshapeEquiv_eq_of_rowMajor hc (by
      rw [Shape.rowMajor_val_two, Shape.rowMajor_val_one]
      show 0 * 600000 + p.val = p.val
      omega)
  rw [e]
  unfold extractStridedSlice
  refine congrArg x (funext fun a => ?_)
  match a with
  | ⟨0, _⟩ => exact Fin.ext rfl
  | ⟨1, _⟩ => exact Fin.ext (Nat.zero_add _)

/-- A word that compares at least 0, signed, is a non-negative number. -/
theorem toInt_nonneg_of_sge {w : BitVec 32} (h : IntOp.cmpi .sge w 0#32 = 1#1) : 0 ≤ w.toInt := by
  unfold IntOp.cmpi at h
  rw [StableHlo.Predicate.ofBool_eq_one_iff] at h
  simpa [BitVec.sle] using h

/-- A word that compares below a small constant, signed, is a number below it. -/
theorem toInt_lt_of_slt {w : BitVec 32} (n : ℕ) (hn : n < 2 ^ 31) (h : IntOp.cmpi .slt w (BitVec.ofNat 32 n) = 1#1) :
    w.toInt < n := by
  unfold IntOp.cmpi at h
  rw [StableHlo.Predicate.ofBool_eq_one_iff] at h
  simp only [BitVec.slt, StableHlo.Predicate.toInt_ofNat_small n hn, decide_eq_true_eq] at h
  exact h

/-- "Every entry of the first row is at least 0", read at entry p. -/
theorem all_ge_apply (x : IVec S2x600000 32) (hs : S2x600000.Slices ![0, 0] S1x600000)
    (hc : S1x600000.ShapeCasts S600000) (hb : S_.BroadcastsInDim S600000 (![] : Fin 0 → Fin S600000.rank))
    (hr : S600000.ReducesTo [0] S_) (hu : 0 < S_.numel)
    (h : Host.reduce IntOp.andi
        (cmpi .sge (shapeCast S600000 (extractStridedSlice S1x600000 ![0, 0] x hs) hc)
          (broadcastInDim S600000 ![] hb (constantI S_ 32 0#32)))
        (constantI S_ 1 1#1) hr hu ix0 = 1#1) (p : Fin 600000) :
    0 ≤ (x (ix2 (0 : Fin 2) p)).toInt := by
  have e := Host.reduce_andi_all _ _ hr hu ix0 h (ix1 p)
  have e' : IntOp.cmpi .sge (shapeCast S600000 (extractStridedSlice S1x600000 ![0, 0] x hs) hc (ix1 p)) 0#32 = 1#1 := e
  rw [row0_apply] at e'
  exact toInt_nonneg_of_sge e'

/-- "Every entry of the first row is below n", read at entry p. -/
theorem all_lt_apply (x : IVec S2x600000 32) (n : ℕ) (hn : n < 2 ^ 31) (hs : S2x600000.Slices ![0, 0] S1x600000)
    (hc : S1x600000.ShapeCasts S600000) (hb : S_.BroadcastsInDim S600000 (![] : Fin 0 → Fin S600000.rank))
    (hr : S600000.ReducesTo [0] S_) (hu : 0 < S_.numel)
    (h : Host.reduce IntOp.andi
        (cmpi .slt (shapeCast S600000 (extractStridedSlice S1x600000 ![0, 0] x hs) hc)
          (broadcastInDim S600000 ![] hb (constantI S_ 32 (BitVec.ofNat 32 n))))
        (constantI S_ 1 1#1) hr hu ix0 = 1#1) (p : Fin 600000) :
    (x (ix2 (0 : Fin 2) p)).toInt < n := by
  have e := Host.reduce_andi_all _ _ hr hu ix0 h (ix1 p)
  have e' : IntOp.cmpi .slt (shapeCast S600000 (extractStridedSlice S1x600000 ![0, 0] x hs) hc (ix1 p)) (BitVec.ofNat 32 n) = 1#1 := e
  rw [row0_apply] at e'
  exact toInt_lt_of_slt n hn e'

/-- A conjunction of two one-bit scalars that is 1 has both 1. -/
theorem andi_ix0 {a b : IVec S_ 1} (h : andi a b ix0 = 1#1) : a ix0 = 1#1 ∧ b ix0 = 1#1 :=
  IntOp.andi_eq_one.1 h

section Parts
variable [Cert.Pre_finite_inputs.Facts] {F : FTy → Type} [FloatOps F]

/-- The last part of the precondition: the conjunction carried in, and the two bounds on the second edge array. -/
theorem part7 (a3 : IVec S2x600000 32) (v114 v119 : IVec S_ 1)
    (h : Cert.Pre_finite_inputs.fn_part7 (F := F) a3 v114 v119 ix0 = 1#1) :
    v114 ix0 = 1#1 ∧ v119 ix0 = 1#1
      ∧ ∀ p : Fin 600000, 0 ≤ (a3 (ix2 (0 : Fin 2) p)).toInt ∧ (a3 (ix2 (0 : Fin 2) p)).toInt < 50000 := by
  unfold Cert.Pre_finite_inputs.fn_part7 at h
  dsimp only at h
  obtain ⟨h126, h131⟩ := andi_ix0 h
  obtain ⟨h120, h125⟩ := andi_ix0 h126
  obtain ⟨h114, h119⟩ := andi_ix0 h120
  exact ⟨h114, h119, fun p => ⟨all_ge_apply a3 _ _ _ _ _ h125 p, all_lt_apply a3 50000 (by norm_num) _ _ _ _ _ h131 p⟩⟩

/-- The part before it: the two bounds on the first edge array, and the last part's. -/
theorem part6 (a2 a3 : IVec S2x600000 32) (a23 : FVec F S128 .f32) (v98 : IVec S_ 1) (v101 : IVec S128 1) (c39 : IVec S_ 1)
    (h : Cert.Pre_finite_inputs.fn_part6 (F := F) a2 a3 a23 v98 v101 c39 ix0 = 1#1) :
    (∀ p : Fin 600000, 0 ≤ (a2 (ix2 (0 : Fin 2) p)).toInt ∧ (a2 (ix2 (0 : Fin 2) p)).toInt < 200000)
      ∧ ∀ p : Fin 600000, 0 ≤ (a3 (ix2 (0 : Fin 2) p)).toInt ∧ (a3 (ix2 (0 : Fin 2) p)).toInt < 50000 := by
  unfold Cert.Pre_finite_inputs.fn_part6 at h
  dsimp only at h
  obtain ⟨h114, h119, h3⟩ := part7 a3 _ _ h
  obtain ⟨-, h113⟩ := andi_ix0 h114
  exact ⟨fun p => ⟨all_ge_apply a2 _ _ _ _ _ h113 p, all_lt_apply a2 200000 (by norm_num) _ _ _ _ _ h119 p⟩, h3⟩

end Parts

/-- The precondition gives the two index ranges, on every device. -/
theorem range_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ p : Fin 600000,
        0 ≤ ((m ((c.tc : Thread Cert.KernelIdeal.nD Cert.KernelIdeal.τ).loc Cert.KernelIdeal.main_arg2)) (ix2 (0 : Fin 2) p)).toInt
          ∧ ((m ((c.tc : Thread Cert.KernelIdeal.nD Cert.KernelIdeal.τ).loc Cert.KernelIdeal.main_arg2)) (ix2 (0 : Fin 2) p)).toInt < 200000)
      ∧ (∀ p : Fin 600000,
        0 ≤ ((m ((c.tc : Thread Cert.KernelIdeal.nD Cert.KernelIdeal.τ).loc Cert.KernelIdeal.main_arg3)) (ix2 (0 : Fin 2) p)).toInt
          ∧ ((m ((c.tc : Thread Cert.KernelIdeal.nD Cert.KernelIdeal.τ).loc Cert.KernelIdeal.main_arg3)) (ix2 (0 : Fin 2) p)).toInt < 50000) := by
  have e := congrFun (h c) ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5 at e
  dsimp only at e
  exact part6 (F := Ideal) _ _ _ _ _ _ e

end Cert.PreIdx

end
-- ==== Proof.lean ====
/-
  The proof of `Cert.Claim` for one layer of two-way message passing between a lower table (200000 rows) and an
  upper table (50000 rows), both directions the same computation with the sizes exchanged.

  One direction: every edge carries the source row through a linear map; the rows arriving at a destination are
  summed and divided by the number of arrivals (at least 1); the destination row is then mixed with a two-layer
  update of [row | mean] through a logistic gate of the same pair, and the mixture is layer-normalised.

  The kernel applies the linear map to the whole source table first and looks rows up afterwards, the reference
  looks rows up first: a row lookup commutes with a row-wise map, PROVIDED the lookup reads the same row, which it
  does when the source indices are in range (the precondition's last four conjuncts) — out of range the kernel's
  lookup fills a row with a fixed word while the reference's clamps. The scatter-sum is the same operation on the
  same indices on both sides and is never opened. The kernel multiplies the sum by 1 / max(count, 1) where the
  reference divides by max(count, 1): equal on the extended reals because the divisor is not 0. The kernel splits the
  product of [row | mean] with a 256-row weight into the two half products; a sum over 256 terms is the sum of its
  halves. Everything else is the same operation on both sides, read at an index.

  Each region's result array is one row-wise function of the arrays the region finds (`Cert.Spec`), read off the
  frame's proof data; the reference's run is its list of operations read back, and its update read at an index is
  the same row-wise function.
-/
import proofs.«423421_j88751204204557_2_alg».proof.Defs
import proofs.«423421_j88751204204557_2_alg».proof.Proof.Gen.Kernel
import proofs.«423421_j88751204204557_2_alg».proof.Proof.Gen.Kernel.Frame
import proofs.«423421_j88751204204557_2_alg».proof.Proof.Gen.KernelIdeal
import proofs.«423421_j88751204204557_2_alg».proof.Proof.Gen.KernelIdeal.Frame
import proofs.«423421_j88751204204557_2_alg».proof.Proof.Gen.ReferenceIdeal
import proofs.«423421_j88751204204557_2_alg».proof.Proof.Gen.Pre_finite_inputs
import proofs.«423421_j88751204204557_2_alg».proof.Proof.Spec
import proofs.«423421_j88751204204557_2_alg».proof.Proof.KDefs
import proofs.«423421_j88751204204557_2_alg».proof.Proof.KRun
import proofs.«423421_j88751204204557_2_alg».proof.Proof.KHost
import proofs.«423421_j88751204204557_2_alg».proof.Proof.KMsg
import proofs.«423421_j88751204204557_2_alg».proof.Proof.KUpd
import proofs.«423421_j88751204204557_2_alg».proof.Proof.RefDefs
import proofs.«423421_j88751204204557_2_alg».proof.Proof.RefRun
import proofs.«423421_j88751204204557_2_alg».proof.Proof.RefTail
import proofs.«423421_j88751204204557_2_alg».proof.Proof.MsgBridge
import proofs.«423421_j88751204204557_2_alg».proof.Proof.PreIdx
import Idealize.ShloMosaic.Lib.Pipeline.Value
import Idealize.ShloMosaic.Lib.ValueIdx
import Idealize.ShloMosaic.Adequacy
import Idealize.ShloMosaic.Init

noncomputable section

namespace Cert.Proof

open Idealize.ShloMosaic Idealize.ShloMosaic.TcCoe Idealize.SL.Sem

/-- A 128-vector laid out as a 1 × 128 row reads, at (0, j), the vector at j. -/
theorem rowv_eq (b : FVec Ideal Cert.KernelIdeal.S128 .f32) :
    Cert.KernelIdeal.KDefs.rowv b = fun i => b (ValueIdx.ix1 (i 1)) := by
  funext i
  unfold Cert.KernelIdeal.KDefs.rowv
  refine shapeCast_apply b _ i (ValueIdx.ix1 (i 1)) ?_
  rw [Shape.rowMajor_val_one, Shape.rowMajor_val_two]
  have h0 : (i 0).val < 1 := (i 0).isLt
  show (i 1).val = (i 0).val * 128 + (i 1).val
  omega

section Kernel
variable (m : (ℓ : Loc Cert.KernelIdeal.nD Cert.KernelIdeal.τ Cert.KernelIdeal.sig) → Buf (Elt Ideal) ℓ) (ρ : Dev Cert.KernelIdeal.nD → PrngReg)

/-- The updated upper table as a function of the launch arrays. -/
def vU (c : Dev Cert.KernelIdeal.nD) : Cert.Spec.Mat 50000 128 :=
  Cert.Spec.updArr (m ((c.tc : Thread Cert.KernelIdeal.nD Cert.KernelIdeal.τ).loc Cert.KernelIdeal.main_arg1)) (Cert.ReferenceIdeal.RefDefs.aggU (F := Ideal) (Cert.ReferenceIdeal.RefDefs.msgU (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg2))) (fun i => Ideal.div (Ideal.ofBits .f32 0x3F800000#32) (Cert.ReferenceIdeal.RefDefs.cntU (F := Ideal) (m ((c.tc : Thread Cert.KernelIdeal.nD Cert.KernelIdeal.τ).loc Cert.KernelIdeal.main_arg2)) (ValueIdx.ix1 (i 0)))) (m ((c.tc : Thread Cert.KernelIdeal.nD Cert.KernelIdeal.τ).loc Cert.KernelIdeal.main_arg6)) (fun i => (m ((c.tc : Thread Cert.KernelIdeal.nD Cert.KernelIdeal.τ).loc Cert.KernelIdeal.main_arg7)) (ValueIdx.ix1 (i 1))) (m ((c.tc : Thread Cert.KernelIdeal.nD Cert.KernelIdeal.τ).loc Cert.KernelIdeal.main_arg8)) (fun i => (m ((c.tc : Thread Cert.KernelIdeal.nD Cert.KernelIdeal.τ).loc Cert.KernelIdeal.main_arg9)) (ValueIdx.ix1 (i 1))) (m ((c.tc : Thread Cert.KernelIdeal.nD Cert.KernelIdeal.τ).loc Cert.KernelIdeal.main_arg10)) (fun i => (m ((c.tc : Thread Cert.KernelIdeal.nD Cert.KernelIdeal.τ).loc Cert.KernelIdeal.main_arg11)) (ValueIdx.ix1 (i 1))) (fun i => (m ((c.tc : Thread Cert.KernelIdeal.nD Cert.KernelIdeal.τ).loc Cert.KernelIdeal.main_arg12)) (ValueIdx.ix1 (i 1))) (fun i => (m ((c.tc : Thread Cert.KernelIdeal.nD Cert.KernelIdeal.τ).loc Cert.KernelIdeal.main_arg13)) (ValueIdx.ix1 (i 1)))

/-- The updated lower table as a function of the launch arrays. -/
def vL (c : Dev Cert.KernelIdeal.nD) : Cert.Spec.Mat 200000 128 :=
  Cert.Spec.updArr (m ((c.tc : Thread Cert.KernelIdeal.nD Cert.KernelIdeal.τ).loc Cert.KernelIdeal.main_arg0)) (Cert.ReferenceIdeal.RefDefs.aggL (F := Ideal) (Cert.ReferenceIdeal.RefDefs.msgL (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg3))) (fun i => Ideal.div (Ideal.ofBits .f32 0x3F800000#32) (Cert.ReferenceIdeal.RefDefs.cntL (F := Ideal) (m ((c.tc : Thread Cert.KernelIdeal.nD Cert.KernelIdeal.τ).loc Cert.KernelIdeal.main_arg3)) (ValueIdx.ix1 (i 0)))) (m ((c.tc : Thread Cert.KernelIdeal.nD Cert.KernelIdeal.τ).loc Cert.KernelIdeal.main_arg16)) (fun i => (m ((c.tc : Thread Cert.KernelIdeal.nD Cert.KernelIdeal.τ).loc Cert.KernelIdeal.main_arg17)) (ValueIdx.ix1 (i 1))) (m ((c.tc : Thread Cert.KernelIdeal.nD Cert.KernelIdeal.τ).loc Cert.KernelIdeal.main_arg18)) (fun i => (m ((c.tc : Thread Cert.KernelIdeal.nD Cert.KernelIdeal.τ).loc Cert.KernelIdeal.main_arg19)) (ValueIdx.ix1 (i 1))) (m ((c.tc : Thread Cert.KernelIdeal.nD Cert.KernelIdeal.τ).loc Cert.KernelIdeal.main_arg20)) (fun i => (m ((c.tc : Thread Cert.KernelIdeal.nD Cert.KernelIdeal.τ).loc Cert.KernelIdeal.main_arg21)) (ValueIdx.ix1 (i 1))) (fun i => (m ((c.tc : Thread Cert.KernelIdeal.nD Cert.KernelIdeal.τ).loc Cert.KernelIdeal.main_arg22)) (ValueIdx.ix1 (i 1))) (fun i => (m ((c.tc : Thread Cert.KernelIdeal.nD Cert.KernelIdeal.τ).loc Cert.KernelIdeal.main_arg23)) (ValueIdx.ix1 (i 1)))

/-- The kernel's upper result: the update region's array over the scatter-summed, gathered rows of the message
    region's table; under the index range the gathered rows are the reference's messages. -/
theorem kernel_vU (c : Dev Cert.KernelIdeal.nD) (hr : (∀ p : Fin 600000, 0 ≤ ((m ((c.tc : Thread Cert.KernelIdeal.nD Cert.KernelIdeal.τ).loc Cert.KernelIdeal.main_arg2)) (ValueIdx.ix2 (0 : Fin 2) p)).toInt ∧ ((m ((c.tc : Thread Cert.KernelIdeal.nD Cert.KernelIdeal.τ).loc Cert.KernelIdeal.main_arg2)) (ValueIdx.ix2 (0 : Fin 2) p)).toInt < 200000)) :
    Cert.KernelIdeal.Gen.W10 m ρ c (Proc.devRef .tc Cert.KernelIdeal.main_v24) = vU m c := by
  rw [Cert.KernelIdeal.KHost.upper_eq, Cert.KernelIdeal.KUpd.final1]
  rw [Cert.KernelIdeal.KHost.V4_main_arg1, Cert.KernelIdeal.KHost.V4_main_v9, Cert.KernelIdeal.KHost.V4_main_v18,
    Cert.KernelIdeal.KHost.V4_main_arg6, Cert.KernelIdeal.KHost.V4_main_v19, Cert.KernelIdeal.KHost.V4_main_arg8,
    Cert.KernelIdeal.KHost.V4_main_v20, Cert.KernelIdeal.KHost.V4_main_arg10, Cert.KernelIdeal.KHost.V4_main_v21,
    Cert.KernelIdeal.KHost.V4_main_v22, Cert.KernelIdeal.KHost.V4_main_v23]
  rw [Cert.KernelIdeal.KMsg.final0, Cert.KernelIdeal.KHost.V1_main_arg0, Cert.KernelIdeal.KHost.V1_main_arg4,
    Cert.KernelIdeal.KHost.V1_main_v4]
  rw [Cert.MsgBridge.msgU_bridge _ _ _ _ hr, Cert.MsgBridge.aggU_bridge, Cert.MsgBridge.invU_bridge]
  simp only [rowv_eq]
  rfl

theorem kernel_vL (c : Dev Cert.KernelIdeal.nD) (hr : (∀ p : Fin 600000, 0 ≤ ((m ((c.tc : Thread Cert.KernelIdeal.nD Cert.KernelIdeal.τ).loc Cert.KernelIdeal.main_arg3)) (ValueIdx.ix2 (0 : Fin 2) p)).toInt ∧ ((m ((c.tc : Thread Cert.KernelIdeal.nD Cert.KernelIdeal.τ).loc Cert.KernelIdeal.main_arg3)) (ValueIdx.ix2 (0 : Fin 2) p)).toInt < 50000)) :
    Cert.KernelIdeal.Gen.W10 m ρ c (Proc.devRef .tc Cert.KernelIdeal.main_v49) = vL m c := by
  rw [Cert.KernelIdeal.KHost.lower_eq, Cert.KernelIdeal.KUpd.final3]
  rw [Cert.KernelIdeal.KHost.V9_main_arg0, Cert.KernelIdeal.KHost.V9_main_v34, Cert.KernelIdeal.KHost.V9_main_v43,
    Cert.KernelIdeal.KHost.V9_main_arg16, Cert.KernelIdeal.KHost.V9_main_v44, Cert.KernelIdeal.KHost.V9_main_arg18,
    Cert.KernelIdeal.KHost.V9_main_v45, Cert.KernelIdeal.KHost.V9_main_arg20, Cert.KernelIdeal.KHost.V9_main_v46,
    Cert.KernelIdeal.KHost.V9_main_v47, Cert.KernelIdeal.KHost.V9_main_v48]
  rw [Cert.KernelIdeal.KMsg.final2, Cert.KernelIdeal.KHost.V6_main_arg1, Cert.KernelIdeal.KHost.V6_main_arg14,
    Cert.KernelIdeal.KHost.V6_main_v29]
  rw [Cert.MsgBridge.msgL_bridge _ _ _ _ hr, Cert.MsgBridge.aggL_bridge, Cert.MsgBridge.invL_bridge]
  simp only [rowv_eq]
  rfl

variable [Cert.Pre_finite_inputs.Facts]

/-- The idealized kernel's run with both results named. -/
theorem kernel_run (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v49) = vL m c
      ∧ r.2.mem ((c.tc : Thread Cert.KernelIdeal.nD Cert.KernelIdeal.τ).loc Cert.KernelIdeal.main_v24) = vU m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)) :=
  (θ_run (Cert.KernelIdeal.defs (F := Ideal)) _ _).mono (fun r h c =>
      ⟨(h c).1.trans (kernel_vL m ρ c (Cert.PreIdx.range_of_pre m hpre c).2),
       (h c).2.1.trans (kernel_vU m ρ c (Cert.PreIdx.range_of_pre m hpre c).1), (h c).2.2⟩)
    (Cert.KernelIdeal.KRun.run (F := Ideal) m ρ)

end Kernel

section Reference
variable (m' : (ℓ : Loc Cert.ReferenceIdeal.nD Cert.ReferenceIdeal.τ Cert.ReferenceIdeal.sig) → Buf (Elt Ideal) ℓ) (ρ' : Dev Cert.ReferenceIdeal.nD → PrngReg)

def vU' (c : Dev Cert.ReferenceIdeal.nD) : Cert.Spec.Mat 50000 128 :=
  Cert.Spec.updArr (m' ((c.tc : Thread Cert.ReferenceIdeal.nD Cert.ReferenceIdeal.τ).loc Cert.ReferenceIdeal.main_arg1)) (Cert.ReferenceIdeal.RefDefs.aggU (F := Ideal) (Cert.ReferenceIdeal.RefDefs.msgU (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))) (m' ((c.tc : Thread Cert.ReferenceIdeal.nD Cert.ReferenceIdeal.τ).loc Cert.ReferenceIdeal.main_arg2))) (fun i => Ideal.div (Ideal.ofBits .f32 0x3F800000#32) (Cert.ReferenceIdeal.RefDefs.cntU (F := Ideal) (m' ((c.tc : Thread Cert.ReferenceIdeal.nD Cert.ReferenceIdeal.τ).loc Cert.ReferenceIdeal.main_arg2)) (ValueIdx.ix1 (i 0)))) (m' ((c.tc : Thread Cert.ReferenceIdeal.nD Cert.ReferenceIdeal.τ).loc Cert.ReferenceIdeal.main_arg6)) (fun i => (m' ((c.tc : Thread Cert.ReferenceIdeal.nD Cert.ReferenceIdeal.τ).loc Cert.ReferenceIdeal.main_arg7)) (ValueIdx.ix1 (i 1))) (m' ((c.tc : Thread Cert.ReferenceIdeal.nD Cert.ReferenceIdeal.τ).loc Cert.ReferenceIdeal.main_arg8)) (fun i => (m' ((c.tc : Thread Cert.ReferenceIdeal.nD Cert.ReferenceIdeal.τ).loc Cert.ReferenceIdeal.main_arg9)) (ValueIdx.ix1 (i 1))) (m' ((c.tc : Thread Cert.ReferenceIdeal.nD Cert.ReferenceIdeal.τ).loc Cert.ReferenceIdeal.main_arg10)) (fun i => (m' ((c.tc : Thread Cert.ReferenceIdeal.nD Cert.ReferenceIdeal.τ).loc Cert.ReferenceIdeal.main_arg11)) (ValueIdx.ix1 (i 1))) (fun i => (m' ((c.tc : Thread Cert.ReferenceIdeal.nD Cert.ReferenceIdeal.τ).loc Cert.ReferenceIdeal.main_arg12)) (ValueIdx.ix1 (i 1))) (fun i => (m' ((c.tc : Thread Cert.ReferenceIdeal.nD Cert.ReferenceIdeal.τ).loc Cert.ReferenceIdeal.main_arg13)) (ValueIdx.ix1 (i 1)))

def vL' (c : Dev Cert.ReferenceIdeal.nD) : Cert.Spec.Mat 200000 128 :=
  Cert.Spec.updArr (m' ((c.tc : Thread Cert.ReferenceIdeal.nD Cert.ReferenceIdeal.τ).loc Cert.ReferenceIdeal.main_arg0)) (Cert.ReferenceIdeal.RefDefs.aggL (F := Ideal) (Cert.ReferenceIdeal.RefDefs.msgL (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))) (m' ((c.tc : Thread Cert.ReferenceIdeal.nD Cert.ReferenceIdeal.τ).loc Cert.ReferenceIdeal.main_arg3))) (fun i => Ideal.div (Ideal.ofBits .f32 0x3F800000#32) (Cert.ReferenceIdeal.RefDefs.cntL (F := Ideal) (m' ((c.tc : Thread Cert.ReferenceIdeal.nD Cert.ReferenceIdeal.τ).loc Cert.ReferenceIdeal.main_arg3)) (ValueIdx.ix1 (i 0)))) (m' ((c.tc : Thread Cert.ReferenceIdeal.nD Cert.ReferenceIdeal.τ).loc Cert.ReferenceIdeal.main_arg16)) (fun i => (m' ((c.tc : Thread Cert.ReferenceIdeal.nD Cert.ReferenceIdeal.τ).loc Cert.ReferenceIdeal.main_arg17)) (ValueIdx.ix1 (i 1))) (m' ((c.tc : Thread Cert.ReferenceIdeal.nD Cert.ReferenceIdeal.τ).loc Cert.ReferenceIdeal.main_arg18)) (fun i => (m' ((c.tc : Thread Cert.ReferenceIdeal.nD Cert.ReferenceIdeal.τ).loc Cert.ReferenceIdeal.main_arg19)) (ValueIdx.ix1 (i 1))) (m' ((c.tc : Thread Cert.ReferenceIdeal.nD Cert.ReferenceIdeal.τ).loc Cert.ReferenceIdeal.main_arg20)) (fun i => (m' ((c.tc : Thread Cert.ReferenceIdeal.nD Cert.ReferenceIdeal.τ).loc Cert.ReferenceIdeal.main_arg21)) (ValueIdx.ix1 (i 1))) (fun i => (m' ((c.tc : Thread Cert.ReferenceIdeal.nD Cert.ReferenceIdeal.τ).loc Cert.ReferenceIdeal.main_arg22)) (ValueIdx.ix1 (i 1))) (fun i => (m' ((c.tc : Thread Cert.ReferenceIdeal.nD Cert.ReferenceIdeal.τ).loc Cert.ReferenceIdeal.main_arg23)) (ValueIdx.ix1 (i 1)))

/-- The idealized reference's run with both results at the row-wise specification. -/
theorem ref_run :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v139) = vL' m' c
      ∧ r.2.mem ((c.tc : Thread Cert.ReferenceIdeal.nD Cert.ReferenceIdeal.τ).loc Cert.ReferenceIdeal.main_v69) = vU' m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)) :=
  (θ_run (Cert.ReferenceIdeal.defs (F := Ideal)) _ _).mono (fun r h c =>
      ⟨(h c).1.trans (Cert.ReferenceIdeal.RefTail.tailL_eq _ _ _ _ _ _ _ _ _ _ _ (Cert.MsgBridge.cntL_ne _)),
       (h c).2.1.trans (Cert.ReferenceIdeal.RefTail.tailU_eq _ _ _ _ _ _ _ _ _ _ _ (Cert.MsgBridge.cntU_ne _)), (h c).2.2⟩)
    (Cert.ReferenceIdeal.RefRun.run (F := Ideal) m' ρ')

end Reference

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run m ρ)

/-- From memories that agree on the arguments both programs end at the same two tables. -/
theorem algebraic : Cert.algebraic_KernelIdeal_ReferenceIdeal := by
  intro m ρ m' ρ' hpre hagree
  refine ⟨vL m, vU m, kernel_run m ρ hpre, ?_⟩
  refine (θ_run (Cert.ReferenceIdeal.defs (F := Ideal)) _ _).mono (fun r h c => ?_) (ref_run m' ρ')
  obtain ⟨h0, h1, hk⟩ := h c
  obtain ⟨a0, a1, a2, a3, a4, a5, a6, a7, a8, a9, a10, a11, a12, a13, a14, a15, a16, a17, a18, a19, a20, a21, a22, a23⟩ := hagree c
  refine ⟨h0.trans ?_, h1.trans ?_, hk⟩
  · unfold vL' vL
    simp only [a0, a1, a2, a3, a4, a5, a6, a7, a8, a9, a10, a11, a12, a13, a14, a15, a16, a17, a18, a19, a20, a21, a22, a23]
  · unfold vU' vU
    simp only [a0, a1, a2, a3, a4, a5, a6, a7, a8, a9, a10, a11, a12, a13, a14, a15, a16, a17, a18, a19, a20, a21, a22, a23]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
